-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x20 : Shape := ⟨2, ![4096, 20]⟩
abbrev S100001x64 : Shape := ⟨2, ![100001, 64]⟩
abbrev S20 : Shape := ⟨1, ![20]⟩
abbrev S_ : Shape := ⟨0, ![]⟩

class Facts : Prop where
  bcast_S_S100001x64 : S_.BroadcastsInDim S100001x64 (![] : Fin 0 → Fin S100001x64.rank)
  reducesTo_S100001x64_S_d0_1 : S100001x64.ReducesTo [0, 1] S_
  h_S_ : 0 < S_.numel
  bcast_S_S20 : S_.BroadcastsInDim S20 (![] : Fin 0 → Fin S20.rank)
  reducesTo_S20_S_d0 : S20.ReducesTo [0] S_
  bcast_S_S4096x20 : S_.BroadcastsInDim S4096x20 (![] : Fin 0 → Fin S4096x20.rank)
  reducesTo_S4096x20_S_d0_1 : S4096x20.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S4096 32) (main_arg1 : IVec S4096x20 32) (main_arg2 : FVec F S100001x64 .f32) (main_arg3 : FVec F S20 .f32) : IVec S_ 1 :=
  let main_v0 : FVec F S100001x64 .f32 := Host.absf main_arg2
  let main_cst : FVec F S_ .f32 := constant S_ .f32 0x7F800000#32
  let main_v1 : FVec F S100001x64 .f32 := broadcastInDim S100001x64 ![] bcast_S_S100001x64 main_cst
  let main_v2 : IVec S100001x64 1 := cmpf .olt main_v0 main_v1
  let main_c : IVec S_ 1 := constantI S_ 1 1#1
  let main_v3 : IVec S_ 1 := (fun x v => Host.reduce IntOp.andi x v reducesTo_S100001x64_S_d0_1 h_S_) main_v2 main_c
  let main_v4 : FVec F S20 .f32 := Host.absf main_arg3
  let main_cst_0 : FVec F S_ .f32 := constant S_ .f32 0x7F800000#32
  let main_v5 : FVec F S20 .f32 := broadcastInDim S20 ![] bcast_S_S20 main_cst_0
  let main_v6 : IVec S20 1 := cmpf .olt main_v4 main_v5
  let main_c_1 : IVec S_ 1 := constantI S_ 1 1#1
  let main_v7 : IVec S_ 1 := (fun x v => Host.reduce IntOp.andi x v reducesTo_S20_S_d0 h_S_) main_v6 main_c_1
  let main_v8 : IVec S_ 1 := andi main_v3 main_v7
  let main_c_2 : IVec S_ 32 := constantI S_ 32 4294867295#32
  let main_v9 : IVec S4096x20 32 := broadcastInDim S4096x20 ![] bcast_S_S4096x20 main_c_2
  let main_v10 : IVec S4096x20 1 := cmpi .sge main_arg1 main_v9
  let main_c_3 : IVec S_ 1 := constantI S_ 1 1#1
  let main_v11 : IVec S_ 1 := (fun x v => Host.reduce IntOp.andi x v reducesTo_S4096x20_S_d0_1 h_S_) main_v10 main_c_3
  let main_v12 : IVec S_ 1 := andi main_v8 main_v11
  let main_c_4 : IVec S_ 32 := constantI S_ 32 100000#32
  let main_v13 : IVec S4096x20 32 := broadcastInDim S4096x20 ![] bcast_S_S4096x20 main_c_4
  let main_v14 : IVec S4096x20 1 := cmpi .sle main_arg1 main_v13
  let main_c_5 : IVec S_ 1 := constantI S_ 1 1#1
  let main_v15 : IVec S_ 1 := (fun x v => Host.reduce IntOp.andi x v reducesTo_S4096x20_S_d0_1 h_S_) main_v14 main_c_5
  fn_part1 (F := F) main_v12 main_v15
-- ==== Kernel.lean ====
abbrev S4096 : Shape := ⟨1, ![4096]⟩
abbrev S4096x20 : Shape := ⟨2, ![4096, 20]⟩
abbrev S100001x64 : Shape := ⟨2, ![100001, 64]⟩
abbrev S20 : Shape := ⟨1, ![20]⟩
abbrev S190 : Shape := ⟨1, ![190]⟩
abbrev S_ : Shape := ⟨0, ![]⟩
abbrev S4096x20x1 : Shape := ⟨3, ![4096, 20, 1]⟩
abbrev S1 : Shape := ⟨1, ![1]⟩
abbrev S1x1x1 : Shape := ⟨3, ![1, 1, 1]⟩
abbrev S4096x20x64 : Shape := ⟨3, ![4096, 20, 64]⟩
abbrev S190x1 : Shape := ⟨2, ![190, 1]⟩
abbrev S190x64 : Shape := ⟨2, ![190, 64]⟩
abbrev S12160 : Shape := ⟨1, ![12160]⟩
abbrev S1x12160 : Shape := ⟨2, ![1, 12160]⟩
abbrev S4096x13440 : Shape := ⟨2, ![4096, 13440]⟩
abbrev S128x20x64 : Shape := ⟨3, ![128, 20, 64]⟩
abbrev S128x13440 : Shape := ⟨2, ![128, 13440]⟩
abbrev S128x1280 : Shape := ⟨2, ![128, 1280]⟩
abbrev S128x1x64 : Shape := ⟨3, ![128, 1, 64]⟩
abbrev S128x64 : Shape := ⟨2, ![128, 64]⟩
abbrev S128x128 : Shape := ⟨2, ![128, 128]⟩
abbrev S1x128 : Shape := ⟨2, ![1, 128]⟩

abbrev nBuf : Space → Nat
  | .hbm => 48
  | .vmem => 5
  | .smem => 0
  | _ => 0

abbrev bufTy : (tb : Table) → Fin (tcTables nBuf tb) → BufTy
  | .hbm, ⟨0, _⟩ => ⟨S4096, .i32⟩
  | .hbm, ⟨1, _⟩ => ⟨S4096x20, .i32⟩
  | .hbm, ⟨2, _⟩ => ⟨S100001x64, .f32⟩
  | .hbm, ⟨3, _⟩ => ⟨S20, .f32⟩
  | .hbm, ⟨4, _⟩ => ⟨S190, .i32⟩
  | .hbm, ⟨5, _⟩ => ⟨S190, .i1⟩
  | .hbm, ⟨6, _⟩ => ⟨S190, .i32⟩
  | .hbm, ⟨7, _⟩ => ⟨S190, .i1⟩
  | .hbm, ⟨8, _⟩ => ⟨S_, .i32⟩
  | .hbm, ⟨9, _⟩ => ⟨S4096x20, .i32⟩
  | .hbm, ⟨10, _⟩ => ⟨S4096x20, .i1⟩
  | .hbm, ⟨11, _⟩ => ⟨S_, .i32⟩
  | .hbm, ⟨12, _⟩ => ⟨S4096x20, .i32⟩
  | .hbm, ⟨13, _⟩ => ⟨S4096x20, .i32⟩
  | .hbm, ⟨14, _⟩ => ⟨S4096x20, .i32⟩
  | .hbm, ⟨15, _⟩ => ⟨S4096x20x1, .i32⟩
  | .hbm, ⟨16, _⟩ => ⟨S1, .i32⟩
  | .hbm, ⟨17, _⟩ => ⟨S_, .i32⟩
  | .hbm, ⟨18, _⟩ => ⟨S4096x20x1, .i32⟩
  | .hbm, ⟨19, _⟩ => ⟨S4096x20x1, .i1⟩
  | .hbm, ⟨20, _⟩ => ⟨S1x1x1, .i32⟩
  | .hbm, ⟨21, _⟩ => ⟨S4096x20x1, .i32⟩
  | .hbm, ⟨22, _⟩ => ⟨S4096x20x1, .i1⟩
  | .hbm, ⟨23, _⟩ => ⟨S4096x20x1, .i1⟩
  | .hbm, ⟨24, _⟩ => ⟨S_, .i1⟩
  | .hbm, ⟨25, _⟩ => ⟨S4096x20, .i1⟩
  | .hbm, ⟨26, _⟩ => ⟨S4096x20x64, .f32⟩
  | .hbm, ⟨27, _⟩ => ⟨S4096x20x64, .i1⟩
  | .hbm, ⟨28, _⟩ => ⟨S_, .f32⟩
  | .hbm, ⟨29, _⟩ => ⟨S4096x20x64, .f32⟩
  | .hbm, ⟨30, _⟩ => ⟨S4096x20x64, .f32⟩
  | .hbm, ⟨31, _⟩ => ⟨S_, .i32⟩
  | .hbm, ⟨32, _⟩ => ⟨S190, .i32⟩
  | .hbm, ⟨33, _⟩ => ⟨S190, .i32⟩
  | .hbm, ⟨34, _⟩ => ⟨S190, .i32⟩
  | .hbm, ⟨35, _⟩ => ⟨S190x1, .i32⟩
  | .hbm, ⟨36, _⟩ => ⟨S190, .f32⟩
  | .hbm, ⟨37, _⟩ => ⟨S_, .i32⟩
  | .hbm, ⟨38, _⟩ => ⟨S190, .i32⟩
  | .hbm, ⟨39, _⟩ => ⟨S190, .i32⟩
  | .hbm, ⟨40, _⟩ => ⟨S190, .i32⟩
  | .hbm, ⟨41, _⟩ => ⟨S190x1, .i32⟩
  | .hbm, ⟨42, _⟩ => ⟨S190, .f32⟩
  | .hbm, ⟨43, _⟩ => ⟨S190, .f32⟩
  | .hbm, ⟨44, _⟩ => ⟨S190x64, .f32⟩
  | .hbm, ⟨45, _⟩ => ⟨S12160, .f32⟩
  | .hbm, ⟨46, _⟩ => ⟨S1x12160, .f32⟩
  | .hbm, ⟨47, _⟩ => ⟨S4096x13440, .f32⟩
  | .local _ .vmem, ⟨0, _⟩ => ⟨S128x20x64, .f32⟩
  | .local _ .vmem, ⟨1, _⟩ => ⟨S128x20x64, .f32⟩
  | .local _ .vmem, ⟨2, _⟩ => ⟨S1x12160, .f32⟩
  | .local _ .vmem, ⟨3, _⟩ => ⟨S128x13440, .f32⟩
  | .local _ .vmem, ⟨4, _⟩ => ⟨S128x13440, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_c_3 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_c_4 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x20x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x12160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x13440 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S4096x20 : S_.BroadcastsInDim S4096x20 (![] : Fin 0 → Fin S4096x20.rank)
  bcast_S4096x20_S4096x20x1_0_1 : S4096x20.BroadcastsInDim S4096x20x1 (![0, 1] : Fin 2 → Fin S4096x20x1.rank)
  bcast_S_S4096x20x1 : S_.BroadcastsInDim S4096x20x1 (![] : Fin 0 → Fin S4096x20x1.rank)
  bcast_S1_S1x1x1_2 : S1.BroadcastsInDim S1x1x1 (![2] : Fin 1 → Fin S1x1x1.rank)
  bcast_S1x1x1_S4096x20x1_0_1_2 : S1x1x1.BroadcastsInDim S4096x20x1 (![0, 1, 2] : Fin 3 → Fin S4096x20x1.rank)
  reducesTo_S4096x20x1_S4096x20_d2 : S4096x20x1.ReducesTo [2] S4096x20
  h_S_ : 0 < S_.numel
  bcast_S4096x20_S4096x20x64_0_1 : S4096x20.BroadcastsInDim S4096x20x64 (![0, 1] : Fin 2 → Fin S4096x20x64.rank)
  bcast_S_S4096x20x64 : S_.BroadcastsInDim S4096x20x64 (![] : Fin 0 → Fin S4096x20x64.rank)
  bcast_S_S190 : S_.BroadcastsInDim S190 (![] : Fin 0 → Fin S190.rank)
  bcast_S190_S190x1_0 : S190.BroadcastsInDim S190x1 (![0] : Fin 1 → Fin S190x1.rank)
  bcast_S190_S190x64_0 : S190.BroadcastsInDim S190x64 (![0] : Fin 1 → Fin S190x64.rank)
  shapeCasts_S190x64_S12160 : S190x64.ShapeCasts S12160
  shapeCasts_S12160_S1x12160 : S12160.ShapeCasts S1x12160
  inb_S128x20x64_S128x20x64_0_0_0 : ∀ a, (![0, 0, 0] : Fin 3 → Nat) a + S128x20x64.size a ≤ S128x20x64.size a
  h_S128x20x64 : 0 < S128x20x64.numel
  shapeCasts_S128x20x64_S128x20x64 : S128x20x64.ShapeCasts S128x20x64
  shapeCasts_S128x20x64_S128x1280 : S128x20x64.ShapeCasts S128x1280
  inb_S128x13440_S128x1280_0_0 : ∀ a, (![0, 0] : Fin 2 → Nat) a + S128x1280.size a ≤ S128x13440.size a
  h_S128x1280 : 0 < S128x1280.numel
  slices_S128x20x64_o0_0_0_S128x1x64 : S128x20x64.Slices ![0, 0, 0] S128x1x64
  shapeCasts_S128x1x64_S128x64 : S128x1x64.ShapeCasts S128x64
  slices_S128x20x64_o0_1_0_S128x1x64 : S128x20x64.Slices ![0, 1, 0] S128x1x64
  slices_S128x20x64_o0_2_0_S128x1x64 : S128x20x64.Slices ![0, 2, 0] S128x1x64
  concatenates_S128x64_S128x64_S128x128_d1 : Shape.Concatenates [S128x64, S128x64] S128x128 1
  inb_S1x12160_S1x128_0_0 : ∀ a, (![0, 0] : Fin 2 → Nat) a + S1x128.size a ≤ S1x12160.size a
  h_S1x128 : 0 < S1x128.numel
  shapeCasts_S1x128_S1x128 : S1x128.ShapeCasts S1x128
  broadcasts_S1x128_S128x128 : S1x128.Broadcasts S128x128
  inb_S128x13440_S128x128_0_1280 : ∀ a, (![0, 1280] : Fin 2 → Nat) a + S128x128.size a ≤ S128x13440.size a
  h_S128x128 : 0 < S128x128.numel
  slices_S128x20x64_o0_3_0_S128x1x64 : S128x20x64.Slices ![0, 3, 0] S128x1x64
  slices_S128x20x64_o0_4_0_S128x1x64 : S128x20x64.Slices ![0, 4, 0] S128x1x64
  inb_S1x12160_S1x128_0_128 : ∀ a, (![0, 128] : Fin 2 → Nat) a + S1x128.size a ≤ S1x12160.size a
  inb_S128x13440_S128x128_0_1408 : ∀ a, (![0, 1408] : Fin 2 → Nat) a + S128x128.size a ≤ S128x13440.size a
  slices_S128x20x64_o0_5_0_S128x1x64 : S128x20x64.Slices ![0, 5, 0] S128x1x64
  slices_S128x20x64_o0_6_0_S128x1x64 : S128x20x64.Slices ![0, 6, 0] S128x1x64
  inb_S1x12160_S1x128_0_256 : ∀ a, (![0, 256] : Fin 2 → Nat) a + S1x128.size a ≤ S1x12160.size a
  inb_S128x13440_S128x128_0_1536 : ∀ a, (![0, 1536] : Fin 2 → Nat) a + S128x128.size a ≤ S128x13440.size a
  slices_S128x20x64_o0_7_0_S128x1x64 : S128x20x64.Slices ![0, 7, 0] S128x1x64
  slices_S128x20x64_o0_8_0_S128x1x64 : S128x20x64.Slices ![0, 8, 0] S128x1x64
  inb_S1x12160_S1x128_0_384 : ∀ a, (![0, 384] : Fin 2 → Nat) a + S1x128.size a ≤ S1x12160.size a
  inb_S128x13440_S128x128_0_1664 : ∀ a, (![0, 1664] : Fin 2 → Nat) a + S128x128.size a ≤ S128x13440.size a
  slices_S128x20x64_o0_9_0_S128x1x64 : S128x20x64.Slices ![0, 9, 0] S128x1x64
  slices_S128x20x64_o0_10_0_S128x1x64 : S128x20x64.Slices ![0, 10, 0] S128x1x64
  inb_S1x12160_S1x128_0_512 : ∀ a, (![0, 512] : Fin 2 → Nat) a + S1x128.size a ≤ S1x12160.size a
  inb_S128x13440_S128x128_0_1792 : ∀ a, (![0, 1792] : Fin 2 → Nat) a + S128x128.size a ≤ S128x13440.size a
  slices_S128x20x64_o0_11_0_S128x1x64 : S128x20x64.Slices ![0, 11, 0] S128x1x64
  slices_S128x20x64_o0_12_0_S128x1x64 : S128x20x64.Slices ![0, 12, 0] S128x1x64
  inb_S1x12160_S1x128_0_640 : ∀ a, (![0, 640] : Fin 2 → Nat) a + S1x128.size a ≤ S1x12160.size a
  inb_S128x13440_S128x128_0_1920 : ∀ a, (![0, 1920] : Fin 2 → Nat) a + S128x128.size a ≤ S128x13440.size a
  slices_S128x20x64_o0_13_0_S128x1x64 : S128x20x64.Slices ![0, 13, 0] S128x1x64
  slices_S128x20x64_o0_14_0_S128x1x64 : S128x20x64.Slices ![0, 14, 0] S128x1x64
  inb_S1x12160_S1x128_0_768 : ∀ a, (![0, 768] : Fin 2 → Nat) a + S1x128.size a ≤ S1x12160.size a
  inb_S128x13440_S128x128_0_2048 : ∀ a, (![0, 2048] : Fin 2 → Nat) a + S128x128.size a ≤ S128x13440.size a
  slices_S128x20x64_o0_15_0_S128x1x64 : S128x20x64.Slices ![0, 15, 0] S128x1x64
  slices_S128x20x64_o0_16_0_S128x1x64 : S128x20x64.Slices ![0, 16, 0] S128x1x64
  inb_S1x12160_S1x128_0_896 : ∀ a, (![0, 896] : Fin 2 → Nat) a + S1x128.size a ≤ S1x12160.size a
  inb_S128x13440_S128x128_0_2176 : ∀ a, (![0, 2176] : Fin 2 → Nat) a + S128x128.size a ≤ S128x13440.size a
  slices_S128x20x64_o0_17_0_S128x1x64 : S128x20x64.Slices ![0, 17, 0] S128x1x64
  slices_S128x20x64_o0_18_0_S128x1x64 : S128x20x64.Slices ![0, 18, 0] S128x1x64
  inb_S1x12160_S1x128_0_1024 : ∀ a, (![0, 1024] : Fin 2 → Nat) a + S1x128.size a ≤ S1x12160.size a
  inb_S128x13440_S128x128_0_2304 : ∀ a, (![0, 2304] : Fin 2 → Nat) a + S128x128.size a ≤ S128x13440.size a
  slices_S128x20x64_o0_19_0_S128x1x64 : S128x20x64.Slices ![0, 19, 0] S128x1x64
  inb_S1x12160_S1x128_0_1152 : ∀ a, (![0, 1152] : Fin 2 → Nat) a + S1x128.size a ≤ S1x12160.size a
  inb_S128x13440_S128x128_0_2432 : ∀ a, (![0, 2432] : Fin 2 → Nat) a + S128x128.size a ≤ S128x13440.size a
  inb_S1x12160_S1x128_0_1280 : ∀ a, (![0, 1280] : Fin 2 → Nat) a + S1x128.size a ≤ S1x12160.size a
  inb_S128x13440_S128x128_0_2560 : ∀ a, (![0, 2560] : Fin 2 → Nat) a + S128x128.size a ≤ S128x13440.size a
  inb_S1x12160_S1x128_0_1408 : ∀ a, (![0, 1408] : Fin 2 → Nat) a + S1x128.size a ≤ S1x12160.size a
  inb_S128x13440_S128x128_0_2688 : ∀ a, (![0, 2688] : Fin 2 → Nat) a + S128x128.size a ≤ S128x13440.size a
  inb_S1x12160_S1x128_0_1536 : ∀ a, (![0, 1536] : Fin 2 → Nat) a + S1x128.size a ≤ S1x12160.size a
  inb_S128x13440_S128x128_0_2816 : ∀ a, (![0, 2816] : Fin 2 → Nat) a + S128x128.size a ≤ S128x13440.size a
  inb_S1x12160_S1x128_0_1664 : ∀ a, (![0, 1664] : Fin 2 → Nat) a + S1x128.size a ≤ S1x12160.size a
  inb_S128x13440_S128x128_0_2944 : ∀ a, (![0, 2944] : Fin 2 → Nat) a + S128x128.size a ≤ S128x13440.size a
  inb_S1x12160_S1x128_0_1792 : ∀ a, (![0, 1792] : Fin 2 → Nat) a + S1x128.size a ≤ S1x12160.size a
  inb_S128x13440_S128x128_0_3072 : ∀ a, (![0, 3072] : Fin 2 → Nat) a + S128x128.size a ≤ S128x13440.size a
  inb_S1x12160_S1x128_0_1920 : ∀ a, (![0, 1920] : Fin 2 → Nat) a + S1x128.size a ≤ S1x12160.size a
  inb_S128x13440_S128x128_0_3200 : ∀ a, (![0, 3200] : Fin 2 → Nat) a + S128x128.size a ≤ S128x13440.size a
  inb_S1x12160_S1x128_0_2048 : ∀ a, (![0, 2048] : Fin 2 → Nat) a + S1x128.size a ≤ S1x12160.size a
  inb_S128x13440_S128x128_0_3328 : ∀ a, (![0, 3328] : Fin 2 → Nat) a + S128x128.size a ≤ S128x13440.size a
  inb_S1x12160_S1x128_0_2176 : ∀ a, (![0, 2176] : Fin 2 → Nat) a + S1x128.size a ≤ S1x12160.size a
  inb_S128x13440_S128x128_0_3456 : ∀ a, (![0, 3456] : Fin 2 → Nat) a + S128x128.size a ≤ S128x13440.size a
  inb_S1x12160_S1x128_0_2304 : ∀ a, (![0, 2304] : Fin 2 → Nat) a + S1x128.size a ≤ S1x12160.size a
  inb_S128x13440_S128x128_0_3584 : ∀ a, (![0, 3584] : Fin 2 → Nat) a + S128x128.size a ≤ S128x13440.size a
  inb_S1x12160_S1x128_0_2432 : ∀ a, (![0, 2432] : Fin 2 → Nat) a + S1x128.size a ≤ S1x12160.size a
  inb_S128x13440_S128x128_0_3712 : ∀ a, (![0, 3712] : Fin 2 → Nat) a + S128x128.size a ≤ S128x13440.size a
  inb_S1x12160_S1x128_0_2560 : ∀ a, (![0, 2560] : Fin 2 → Nat) a + S1x128.size a ≤ S1x12160.size a
  inb_S128x13440_S128x128_0_3840 : ∀ a, (![0, 3840] : Fin 2 → Nat) a + S128x128.size a ≤ S128x13440.size a
  inb_S1x12160_S1x128_0_2688 : ∀ a, (![0, 2688] : Fin 2 → Nat) a + S1x128.size a ≤ S1x12160.size a
  inb_S128x13440_S128x128_0_3968 : ∀ a, (![0, 3968] : Fin 2 → Nat) a + S128x128.size a ≤ S128x13440.size a
  inb_S1x12160_S1x128_0_2816 : ∀ a, (![0, 2816] : Fin 2 → Nat) a + S1x128.size a ≤ S1x12160.size a
  inb_S128x13440_S128x128_0_4096 : ∀ a, (![0, 4096] : Fin 2 → Nat) a + S128x128.size a ≤ S128x13440.size a
  inb_S1x12160_S1x128_0_2944 : ∀ a, (![0, 2944] : Fin 2 → Nat) a + S1x128.size a ≤ S1x12160.size a
  inb_S128x13440_S128x128_0_4224 : ∀ a, (![0, 4224] : Fin 2 → Nat) a + S128x128.size a ≤ S128x13440.size a
  inb_S1x12160_S1x128_0_3072 : ∀ a, (![0, 3072] : Fin 2 → Nat) a + S1x128.size a ≤ S1x12160.size a
  inb_S128x13440_S128x128_0_4352 : ∀ a, (![0, 4352] : Fin 2 → Nat) a + S128x128.size a ≤ S128x13440.size a
  inb_S1x12160_S1x128_0_3200 : ∀ a, (![0, 3200] : Fin 2 → Nat) a + S1x128.size a ≤ S1x12160.size a
  inb_S128x13440_S128x128_0_4480 : ∀ a, (![0, 4480] : Fin 2 → Nat) a + S128x128.size a ≤ S128x13440.size a
  inb_S1x12160_S1x128_0_3328 : ∀ a, (![0, 3328] : Fin 2 → Nat) a + S1x128.size a ≤ S1x12160.size a
  inb_S128x13440_S128x128_0_4608 : ∀ a, (![0, 4608] : Fin 2 → Nat) a + S128x128.size a ≤ S128x13440.size a
  inb_S1x12160_S1x128_0_3456 : ∀ a, (![0, 3456] : Fin 2 → Nat) a + S1x128.size a ≤ S1x12160.size a
  inb_S128x13440_S128x128_0_4736 : ∀ a, (![0, 4736] : Fin 2 → Nat) a + S128x128.size a ≤ S128x13440.size a
  inb_S1x12160_S1x128_0_3584 : ∀ a, (![0, 3584] : Fin 2 → Nat) a + S1x128.size a ≤ S1x12160.size a
  inb_S128x13440_S128x128_0_4864 : ∀ a, (![0, 4864] : Fin 2 → Nat) a + S128x128.size a ≤ S128x13440.size a
  inb_S1x12160_S1x128_0_3712 : ∀ a, (![0, 3712] : Fin 2 → Nat) a + S1x128.size a ≤ S1x12160.size a
  inb_S128x13440_S128x128_0_4992 : ∀ a, (![0, 4992] : Fin 2 → Nat) a + S128x128.size a ≤ S128x13440.size a
  inb_S1x12160_S1x128_0_3840 : ∀ a, (![0, 3840] : Fin 2 → Nat) a + S1x128.size a ≤ S1x12160.size a
  inb_S128x13440_S128x128_0_5120 : ∀ a, (![0, 5120] : Fin 2 → Nat) a + S128x128.size a ≤ S128x13440.size a
  inb_S1x12160_S1x128_0_3968 : ∀ a, (![0, 3968] : Fin 2 → Nat) a + S1x128.size a ≤ S1x12160.size a
  inb_S128x13440_S128x128_0_5248 : ∀ a, (![0, 5248] : Fin 2 → Nat) a + S128x128.size a ≤ S128x13440.size a
  inb_S1x12160_S1x128_0_4096 : ∀ a, (![0, 4096] : Fin 2 → Nat) a + S1x128.size a ≤ S1x12160.size a
  inb_S128x13440_S128x128_0_5376 : ∀ a, (![0, 5376] : Fin 2 → Nat) a + S128x128.size a ≤ S128x13440.size a
  inb_S1x12160_S1x128_0_4224 : ∀ a, (![0, 4224] : Fin 2 → Nat) a + S1x128.size a ≤ S1x12160.size a
  inb_S128x13440_S128x128_0_5504 : ∀ a, (![0, 5504] : Fin 2 → Nat) a + S128x128.size a ≤ S128x13440.size a
  inb_S1x12160_S1x128_0_4352 : ∀ a, (![0, 4352] : Fin 2 → Nat) a + S1x128.size a ≤ S1x12160.size a
  inb_S128x13440_S128x128_0_5632 : ∀ a, (![0, 5632] : Fin 2 → Nat) a + S128x128.size a ≤ S128x13440.size a
  inb_S1x12160_S1x128_0_4480 : ∀ a, (![0, 4480] : Fin 2 → Nat) a + S1x128.size a ≤ S1x12160.size a
  inb_S128x13440_S128x128_0_5760 : ∀ a, (![0, 5760] : Fin 2 → Nat) a + S128x128.size a ≤ S128x13440.size a
  inb_S1x12160_S1x128_0_4608 : ∀ a, (![0, 4608] : Fin 2 → Nat) a + S1x128.size a ≤ S1x12160.size a
  inb_S128x13440_S128x128_0_5888 : ∀ a, (![0, 5888] : Fin 2 → Nat) a + S128x128.size a ≤ S128x13440.size a
  inb_S1x12160_S1x128_0_4736 : ∀ a, (![0, 4736] : Fin 2 → Nat) a + S1x128.size a ≤ S1x12160.size a
  inb_S128x13440_S128x128_0_6016 : ∀ a, (![0, 6016] : Fin 2 → Nat) a + S128x128.size a ≤ S128x13440.size a
  inb_S1x12160_S1x128_0_4864 : ∀ a, (![0, 4864] : Fin 2 → Nat) a + S1x128.size a ≤ S1x12160.size a
  inb_S128x13440_S128x128_0_6144 : ∀ a, (![0, 6144] : Fin 2 → Nat) a + S128x128.size a ≤ S128x13440.size a
  inb_S1x12160_S1x128_0_4992 : ∀ a, (![0, 4992] : Fin 2 → Nat) a + S1x128.size a ≤ S1x12160.size a
  inb_S128x13440_S128x128_0_6272 : ∀ a, (![0, 6272] : Fin 2 → Nat) a + S128x128.size a ≤ S128x13440.size a
  inb_S1x12160_S1x128_0_5120 : ∀ a, (![0, 5120] : Fin 2 → Nat) a + S1x128.size a ≤ S1x12160.size a
  inb_S128x13440_S128x128_0_6400 : ∀ a, (![0, 6400] : Fin 2 → Nat) a + S128x128.size a ≤ S128x13440.size a
  inb_S1x12160_S1x128_0_5248 : ∀ a, (![0, 5248] : Fin 2 → Nat) a + S1x128.size a ≤ S1x12160.size a
  inb_S128x13440_S128x128_0_6528 : ∀ a, (![0, 6528] : Fin 2 → Nat) a + S128x128.size a ≤ S128x13440.size a
  inb_S1x12160_S1x128_0_5376 : ∀ a, (![0, 5376] : Fin 2 → Nat) a + S1x128.size a ≤ S1x12160.size a
  inb_S128x13440_S128x128_0_6656 : ∀ a, (![0, 6656] : Fin 2 → Nat) a + S128x128.size a ≤ S128x13440.size a
  inb_S1x12160_S1x128_0_5504 : ∀ a, (![0, 5504] : Fin 2 → Nat) a + S1x128.size a ≤ S1x12160.size a
  inb_S128x13440_S128x128_0_6784 : ∀ a, (![0, 6784] : Fin 2 → Nat) a + S128x128.size a ≤ S128x13440.size a
  inb_S1x12160_S1x128_0_5632 : ∀ a, (![0, 5632] : Fin 2 → Nat) a + S1x128.size a ≤ S1x12160.size a
  inb_S128x13440_S128x128_0_6912 : ∀ a, (![0, 6912] : Fin 2 → Nat) a + S128x128.size a ≤ S128x13440.size a
  inb_S1x12160_S1x128_0_5760 : ∀ a, (![0, 5760] : Fin 2 → Nat) a + S1x128.size a ≤ S1x12160.size a
  inb_S128x13440_S128x128_0_7040 : ∀ a, (![0, 7040] : Fin 2 → Nat) a + S128x128.size a ≤ S128x13440.size a
  inb_S1x12160_S1x128_0_5888 : ∀ a, (![0, 5888] : Fin 2 → Nat) a + S1x128.size a ≤ S1x12160.size a
  inb_S128x13440_S128x128_0_7168 : ∀ a, (![0, 7168] : Fin 2 → Nat) a + S128x128.size a ≤ S128x13440.size a
  inb_S1x12160_S1x128_0_6016 : ∀ a, (![0, 6016] : Fin 2 → Nat) a + S1x128.size a ≤ S1x12160.size a
  inb_S128x13440_S128x128_0_7296 : ∀ a, (![0, 7296] : Fin 2 → Nat) a + S128x128.size a ≤ S128x13440.size a
  inb_S1x12160_S1x128_0_6144 : ∀ a, (![0, 6144] : Fin 2 → Nat) a + S1x128.size a ≤ S1x12160.size a
  inb_S128x13440_S128x128_0_7424 : ∀ a, (![0, 7424] : Fin 2 → Nat) a + S128x128.size a ≤ S128x13440.size a
  inb_S1x12160_S1x128_0_6272 : ∀ a, (![0, 6272] : Fin 2 → Nat) a + S1x128.size a ≤ S1x12160.size a
  inb_S128x13440_S128x128_0_7552 : ∀ a, (![0, 7552] : Fin 2 → Nat) a + S128x128.size a ≤ S128x13440.size a
  inb_S1x12160_S1x128_0_6400 : ∀ a, (![0, 6400] : Fin 2 → Nat) a + S1x128.size a ≤ S1x12160.size a
  inb_S128x13440_S128x128_0_7680 : ∀ a, (![0, 7680] : Fin 2 → Nat) a + S128x128.size a ≤ S128x13440.size a
  inb_S1x12160_S1x128_0_6528 : ∀ a, (![0, 6528] : Fin 2 → Nat) a + S1x128.size a ≤ S1x12160.size a
  inb_S128x13440_S128x128_0_7808 : ∀ a, (![0, 7808] : Fin 2 → Nat) a + S128x128.size a ≤ S128x13440.size a
  inb_S1x12160_S1x128_0_6656 : ∀ a, (![0, 6656] : Fin 2 → Nat) a + S1x128.size a ≤ S1x12160.size a
  inb_S128x13440_S128x128_0_7936 : ∀ a, (![0, 7936] : Fin 2 → Nat) a + S128x128.size a ≤ S128x13440.size a
  inb_S1x12160_S1x128_0_6784 : ∀ a, (![0, 6784] : Fin 2 → Nat) a + S1x128.size a ≤ S1x12160.size a
  inb_S128x13440_S128x128_0_8064 : ∀ a, (![0, 8064] : Fin 2 → Nat) a + S128x128.size a ≤ S128x13440.size a
  inb_S1x12160_S1x128_0_6912 : ∀ a, (![0, 6912] : Fin 2 → Nat) a + S1x128.size a ≤ S1x12160.size a
  inb_S128x13440_S128x128_0_8192 : ∀ a, (![0, 8192] : Fin 2 → Nat) a + S128x128.size a ≤ S128x13440.size a
  inb_S1x12160_S1x128_0_7040 : ∀ a, (![0, 7040] : Fin 2 → Nat) a + S1x128.size a ≤ S1x12160.size a
  inb_S128x13440_S128x128_0_8320 : ∀ a, (![0, 8320] : Fin 2 → Nat) a + S128x128.size a ≤ S128x13440.size a
  inb_S1x12160_S1x128_0_7168 : ∀ a, (![0, 7168] : Fin 2 → Nat) a + S1x128.size a ≤ S1x12160.size a
  inb_S128x13440_S128x128_0_8448 : ∀ a, (![0, 8448] : Fin 2 → Nat) a + S128x128.size a ≤ S128x13440.size a
  inb_S1x12160_S1x128_0_7296 : ∀ a, (![0, 7296] : Fin 2 → Nat) a + S1x128.size a ≤ S1x12160.size a
  inb_S128x13440_S128x128_0_8576 : ∀ a, (![0, 8576] : Fin 2 → Nat) a + S128x128.size a ≤ S128x13440.size a
  inb_S1x12160_S1x128_0_7424 : ∀ a, (![0, 7424] : Fin 2 → Nat) a + S1x128.size a ≤ S1x12160.size a
  inb_S128x13440_S128x128_0_8704 : ∀ a, (![0, 8704] : Fin 2 → Nat) a + S128x128.size a ≤ S128x13440.size a
  inb_S1x12160_S1x128_0_7552 : ∀ a, (![0, 7552] : Fin 2 → Nat) a + S1x128.size a ≤ S1x12160.size a
  inb_S128x13440_S128x128_0_8832 : ∀ a, (![0, 8832] : Fin 2 → Nat) a + S128x128.size a ≤ S128x13440.size a
  inb_S1x12160_S1x128_0_7680 : ∀ a, (![0, 7680] : Fin 2 → Nat) a + S1x128.size a ≤ S1x12160.size a
  inb_S128x13440_S128x128_0_8960 : ∀ a, (![0, 8960] : Fin 2 → Nat) a + S128x128.size a ≤ S128x13440.size a
  inb_S1x12160_S1x128_0_7808 : ∀ a, (![0, 7808] : Fin 2 → Nat) a + S1x128.size a ≤ S1x12160.size a
  inb_S128x13440_S128x128_0_9088 : ∀ a, (![0, 9088] : Fin 2 → Nat) a + S128x128.size a ≤ S128x13440.size a
  inb_S1x12160_S1x128_0_7936 : ∀ a, (![0, 7936] : Fin 2 → Nat) a + S1x128.size a ≤ S1x12160.size a
  inb_S128x13440_S128x128_0_9216 : ∀ a, (![0, 9216] : Fin 2 → Nat) a + S128x128.size a ≤ S128x13440.size a
  inb_S1x12160_S1x128_0_8064 : ∀ a, (![0, 8064] : Fin 2 → Nat) a + S1x128.size a ≤ S1x12160.size a
  inb_S128x13440_S128x128_0_9344 : ∀ a, (![0, 9344] : Fin 2 → Nat) a + S128x128.size a ≤ S128x13440.size a
  inb_S1x12160_S1x128_0_8192 : ∀ a, (![0, 8192] : Fin 2 → Nat) a + S1x128.size a ≤ S1x12160.size a
  inb_S128x13440_S128x128_0_9472 : ∀ a, (![0, 9472] : Fin 2 → Nat) a + S128x128.size a ≤ S128x13440.size a
  inb_S1x12160_S1x128_0_8320 : ∀ a, (![0, 8320] : Fin 2 → Nat) a + S1x128.size a ≤ S1x12160.size a
  inb_S128x13440_S128x128_0_9600 : ∀ a, (![0, 9600] : Fin 2 → Nat) a + S128x128.size a ≤ S128x13440.size a
  inb_S1x12160_S1x128_0_8448 : ∀ a, (![0, 8448] : Fin 2 → Nat) a + S1x128.size a ≤ S1x12160.size a
  inb_S128x13440_S128x128_0_9728 : ∀ a, (![0, 9728] : Fin 2 → Nat) a + S128x128.size a ≤ S128x13440.size a
  inb_S1x12160_S1x128_0_8576 : ∀ a, (![0, 8576] : Fin 2 → Nat) a + S1x128.size a ≤ S1x12160.size a
  inb_S128x13440_S128x128_0_9856 : ∀ a, (![0, 9856] : Fin 2 → Nat) a + S128x128.size a ≤ S128x13440.size a
  inb_S1x12160_S1x128_0_8704 : ∀ a, (![0, 8704] : Fin 2 → Nat) a + S1x128.size a ≤ S1x12160.size a
  inb_S128x13440_S128x128_0_9984 : ∀ a, (![0, 9984] : Fin 2 → Nat) a + S128x128.size a ≤ S128x13440.size a
  inb_S1x12160_S1x128_0_8832 : ∀ a, (![0, 8832] : Fin 2 → Nat) a + S1x128.size a ≤ S1x12160.size a
  inb_S128x13440_S128x128_0_10112 : ∀ a, (![0, 10112] : Fin 2 → Nat) a + S128x128.size a ≤ S128x13440.size a
  inb_S1x12160_S1x128_0_8960 : ∀ a, (![0, 8960] : Fin 2 → Nat) a + S1x128.size a ≤ S1x12160.size a
  inb_S128x13440_S128x128_0_10240 : ∀ a, (![0, 10240] : Fin 2 → Nat) a + S128x128.size a ≤ S128x13440.size a
  inb_S1x12160_S1x128_0_9088 : ∀ a, (![0, 9088] : Fin 2 → Nat) a + S1x128.size a ≤ S1x12160.size a
  inb_S128x13440_S128x128_0_10368 : ∀ a, (![0, 10368] : Fin 2 → Nat) a + S128x128.size a ≤ S128x13440.size a
  inb_S1x12160_S1x128_0_9216 : ∀ a, (![0, 9216] : Fin 2 → Nat) a + S1x128.size a ≤ S1x12160.size a
  inb_S128x13440_S128x128_0_10496 : ∀ a, (![0, 10496] : Fin 2 → Nat) a + S128x128.size a ≤ S128x13440.size a
  inb_S1x12160_S1x128_0_9344 : ∀ a, (![0, 9344] : Fin 2 → Nat) a + S1x128.size a ≤ S1x12160.size a
  inb_S128x13440_S128x128_0_10624 : ∀ a, (![0, 10624] : Fin 2 → Nat) a + S128x128.size a ≤ S128x13440.size a
  inb_S1x12160_S1x128_0_9472 : ∀ a, (![0, 9472] : Fin 2 → Nat) a + S1x128.size a ≤ S1x12160.size a
  inb_S128x13440_S128x128_0_10752 : ∀ a, (![0, 10752] : Fin 2 → Nat) a + S128x128.size a ≤ S128x13440.size a
  inb_S1x12160_S1x128_0_9600 : ∀ a, (![0, 9600] : Fin 2 → Nat) a + S1x128.size a ≤ S1x12160.size a
  inb_S128x13440_S128x128_0_10880 : ∀ a, (![0, 10880] : Fin 2 → Nat) a + S128x128.size a ≤ S128x13440.size a
  inb_S1x12160_S1x128_0_9728 : ∀ a, (![0, 9728] : Fin 2 → Nat) a + S1x128.size a ≤ S1x12160.size a
  inb_S128x13440_S128x128_0_11008 : ∀ a, (![0, 11008] : Fin 2 → Nat) a + S128x128.size a ≤ S128x13440.size a
  inb_S1x12160_S1x128_0_9856 : ∀ a, (![0, 9856] : Fin 2 → Nat) a + S1x128.size a ≤ S1x12160.size a
  inb_S128x13440_S128x128_0_11136 : ∀ a, (![0, 11136] : Fin 2 → Nat) a + S128x128.size a ≤ S128x13440.size a
  inb_S1x12160_S1x128_0_9984 : ∀ a, (![0, 9984] : Fin 2 → Nat) a + S1x128.size a ≤ S1x12160.size a
  inb_S128x13440_S128x128_0_11264 : ∀ a, (![0, 11264] : Fin 2 → Nat) a + S128x128.size a ≤ S128x13440.size a
  inb_S1x12160_S1x128_0_10112 : ∀ a, (![0, 10112] : Fin 2 → Nat) a + S1x128.size a ≤ S1x12160.size a
  inb_S128x13440_S128x128_0_11392 : ∀ a, (![0, 11392] : Fin 2 → Nat) a + S128x128.size a ≤ S128x13440.size a
  inb_S1x12160_S1x128_0_10240 : ∀ a, (![0, 10240] : Fin 2 → Nat) a + S1x128.size a ≤ S1x12160.size a
  inb_S128x13440_S128x128_0_11520 : ∀ a, (![0, 11520] : Fin 2 → Nat) a + S128x128.size a ≤ S128x13440.size a
  inb_S1x12160_S1x128_0_10368 : ∀ a, (![0, 10368] : Fin 2 → Nat) a + S1x128.size a ≤ S1x12160.size a
  inb_S128x13440_S128x128_0_11648 : ∀ a, (![0, 11648] : Fin 2 → Nat) a + S128x128.size a ≤ S128x13440.size a
  inb_S1x12160_S1x128_0_10496 : ∀ a, (![0, 10496] : Fin 2 → Nat) a + S1x128.size a ≤ S1x12160.size a
  inb_S128x13440_S128x128_0_11776 : ∀ a, (![0, 11776] : Fin 2 → Nat) a + S128x128.size a ≤ S128x13440.size a
  inb_S1x12160_S1x128_0_10624 : ∀ a, (![0, 10624] : Fin 2 → Nat) a + S1x128.size a ≤ S1x12160.size a
  inb_S128x13440_S128x128_0_11904 : ∀ a, (![0, 11904] : Fin 2 → Nat) a + S128x128.size a ≤ S128x13440.size a
  inb_S1x12160_S1x128_0_10752 : ∀ a, (![0, 10752] : Fin 2 → Nat) a + S1x128.size a ≤ S1x12160.size a
  inb_S128x13440_S128x128_0_12032 : ∀ a, (![0, 12032] : Fin 2 → Nat) a + S128x128.size a ≤ S128x13440.size a
  inb_S1x12160_S1x128_0_10880 : ∀ a, (![0, 10880] : Fin 2 → Nat) a + S1x128.size a ≤ S1x12160.size a
  inb_S128x13440_S128x128_0_12160 : ∀ a, (![0, 12160] : Fin 2 → Nat) a + S128x128.size a ≤ S128x13440.size a
  inb_S1x12160_S1x128_0_11008 : ∀ a, (![0, 11008] : Fin 2 → Nat) a + S1x128.size a ≤ S1x12160.size a
  inb_S128x13440_S128x128_0_12288 : ∀ a, (![0, 12288] : Fin 2 → Nat) a + S128x128.size a ≤ S128x13440.size a
  inb_S1x12160_S1x128_0_11136 : ∀ a, (![0, 11136] : Fin 2 → Nat) a + S1x128.size a ≤ S1x12160.size a
  inb_S128x13440_S128x128_0_12416 : ∀ a, (![0, 12416] : Fin 2 → Nat) a + S128x128.size a ≤ S128x13440.size a
  inb_S1x12160_S1x128_0_11264 : ∀ a, (![0, 11264] : Fin 2 → Nat) a + S1x128.size a ≤ S1x12160.size a
  inb_S128x13440_S128x128_0_12544 : ∀ a, (![0, 12544] : Fin 2 → Nat) a + S128x128.size a ≤ S128x13440.size a
  inb_S1x12160_S1x128_0_11392 : ∀ a, (![0, 11392] : Fin 2 → Nat) a + S1x128.size a ≤ S1x12160.size a
  inb_S128x13440_S128x128_0_12672 : ∀ a, (![0, 12672] : Fin 2 → Nat) a + S128x128.size a ≤ S128x13440.size a
  inb_S1x12160_S1x128_0_11520 : ∀ a, (![0, 11520] : Fin 2 → Nat) a + S1x128.size a ≤ S1x12160.size a
  inb_S128x13440_S128x128_0_12800 : ∀ a, (![0, 12800] : Fin 2 → Nat) a + S128x128.size a ≤ S128x13440.size a
  inb_S1x12160_S1x128_0_11648 : ∀ a, (![0, 11648] : Fin 2 → Nat) a + S1x128.size a ≤ S1x12160.size a
  inb_S128x13440_S128x128_0_12928 : ∀ a, (![0, 12928] : Fin 2 → Nat) a + S128x128.size a ≤ S128x13440.size a
  inb_S1x12160_S1x128_0_11776 : ∀ a, (![0, 11776] : Fin 2 → Nat) a + S1x128.size a ≤ S1x12160.size a
  inb_S128x13440_S128x128_0_13056 : ∀ a, (![0, 13056] : Fin 2 → Nat) a + S128x128.size a ≤ S128x13440.size a
  inb_S1x12160_S1x128_0_11904 : ∀ a, (![0, 11904] : Fin 2 → Nat) a + S1x128.size a ≤ S1x12160.size a
  inb_S128x13440_S128x128_0_13184 : ∀ a, (![0, 13184] : Fin 2 → Nat) a + S128x128.size a ≤ S128x13440.size a
  inb_S1x12160_S1x128_0_12032 : ∀ a, (![0, 12032] : Fin 2 → Nat) a + S1x128.size a ≤ S1x12160.size a
  inb_S128x13440_S128x128_0_13312 : ∀ a, (![0, 13312] : Fin 2 → Nat) a + S128x128.size a ≤ S128x13440.size a
  gather_S100001x64_S4096x20x1_S4096x20x64_2_0_n_n_0_2_164_wf : GatherDims.WF S100001x64 S4096x20x1 S4096x20x64 [2] [0] [] [0] [] 2 ![1, 64]
  gather_S20_S190x1_S190_n_0_n_n_0_1_1_wf : GatherDims.WF S20 S190x1 S190 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x20x64.size a ≤ S4096x20x64.size a
  hwx0_0 : ∀ i : grid0.Coords, EltTy.bits .f32 = 32 ∨ (Rect.block (s := S4096x20x64) S128x20x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x12160.size a ≤ S1x12160.size a
  hwx0_1 : ∀ i : grid0.Coords, EltTy.bits .f32 = 32 ∨ (Rect.block (s := S1x12160) S1x12160.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x13440.size a ≤ S4096x13440.size a
  hwx0_2 : ∀ i : grid0.Coords, EltTy.bits .f32 = 32 ∨ (Rect.block (s := S4096x13440) S128x13440.size (cc0_transform_2 i) (hinb0_2 i)).WholeWords (EltTy.packing .f32)

variable [Facts₀]

def gather_S100001x64_S4096x20x1_S4096x20x64_2_0_n_n_0_2_164 : GatherDims S100001x64 S4096x20x1 S4096x20x64 where
  offsetDims := [2]
  collapsedSliceDims := [0]
  operandBatchingDims := []
  startIndicesBatchingDims := []
  startIndexMap := [0]
  indexVectorDim := 2
  sliceSizes := ![1, 64]
  wf := gather_S100001x64_S4096x20x1_S4096x20x64_2_0_n_n_0_2_164_wf
def gather_S20_S190x1_S190_n_0_n_n_0_1_1 : GatherDims S20 S190x1 S190 where
  offsetDims := []
  collapsedSliceDims := [0]
  operandBatchingDims := []
  startIndicesBatchingDims := []
  startIndexMap := [0]
  indexVectorDim := 1
  sliceSizes := ![1]
  wf := gather_S20_S190x1_S190_n_0_n_n_0_1_1_wf

abbrev win0_0 : Pipeline.Window sig grid0 :=
  Pipeline.Window.ofSpec (Memref.whole main_v0) S128x20x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x12160.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x13440.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096 : Shape := ⟨1, ![4096]⟩
abbrev S4096x20 : Shape := ⟨2, ![4096, 20]⟩
abbrev S100001x64 : Shape := ⟨2, ![100001, 64]⟩
abbrev S20 : Shape := ⟨1, ![20]⟩
abbrev S_ : Shape := ⟨0, ![]⟩
abbrev S4096x20x1 : Shape := ⟨3, ![4096, 20, 1]⟩
abbrev S4096x20x64 : Shape := ⟨3, ![4096, 20, 64]⟩
abbrev S20x20 : Shape := ⟨2, ![20, 20]⟩
abbrev S400 : Shape := ⟨1, ![400]⟩
abbrev S190 : Shape := ⟨1, ![190]⟩
abbrev S400x1 : Shape := ⟨2, ![400, 1]⟩
abbrev S190x1 : Shape := ⟨2, ![190, 1]⟩
abbrev S1x190x1 : Shape := ⟨3, ![1, 190, 1]⟩
abbrev S4096x190x64 : Shape := ⟨3, ![4096, 190, 64]⟩
abbrev S4096x210x64 : Shape := ⟨3, ![4096, 210, 64]⟩
abbrev S4096x13440 : Shape := ⟨2, ![4096, 13440]⟩

abbrev nBuf : Space → Nat
  | .hbm => 173
  | .vmem => 0
  | .smem => 0
  | _ => 0

abbrev hbmTy0_0 (i : Nat) : BufTy := match i % 128 with
  | 0 => ⟨S4096, .i32⟩
  | 1 => ⟨S4096x20, .i32⟩
  | 2 => ⟨S100001x64, .f32⟩
  | 3 => ⟨S20, .f32⟩
  | 4 => ⟨S_, .i32⟩
  | 5 => ⟨S4096x20, .i32⟩
  | 6 => ⟨S4096x20, .i1⟩
  | 7 => ⟨S_, .i32⟩
  | 8 => ⟨S4096x20, .i32⟩
  | 9 => ⟨S4096x20, .i32⟩
  | 10 => ⟨S4096x20, .i32⟩
  | 11 => ⟨S4096x20x1, .i32⟩
  | 12 => ⟨S4096x20x64, .f32⟩
  | 13 => ⟨S_, .f32⟩
  | 14 => ⟨S20x20, .f32⟩
  | 15 => ⟨S20x20, .i32⟩
  | 16 => ⟨S_, .i32⟩
  | 17 => ⟨S20x20, .i32⟩
  | 18 => ⟨S20x20, .i32⟩
  | 19 => ⟨S20x20, .i32⟩
  | 20 => ⟨S20x20, .i1⟩
  | 21 => ⟨S_, .f32⟩
  | 22 => ⟨S20x20, .f32⟩
  | 23 => ⟨S20x20, .f32⟩
  | 24 => ⟨S_, .f32⟩
  | 25 => ⟨S20x20, .f32⟩
  | 26 => ⟨S20x20, .i1⟩
  | 27 => ⟨S400, .i1⟩
  | 28 => ⟨S400, .i32⟩
  | 29 => ⟨S_, .i32⟩
  | 30 => ⟨S_, .i32⟩
  | 31 => ⟨S400, .i32⟩
  | 32 => ⟨S_, .i32⟩
  | 33 => ⟨S190, .i32⟩
  | 34 => ⟨S_, .i32⟩
  | 35 => ⟨S_, .i32⟩
  | 36 => ⟨S400, .i32⟩
  | 37 => ⟨S400, .i32⟩
  | 38 => ⟨S_, .i32⟩
  | 39 => ⟨S400, .i32⟩
  | 40 => ⟨S400, .i1⟩
  | 41 => ⟨S_, .i32⟩
  | 42 => ⟨S400, .i32⟩
  | 43 => ⟨S400, .i32⟩
  | 44 => ⟨S400, .i32⟩
  | 45 => ⟨S400x1, .i32⟩
  | 46 => ⟨S_, .i32⟩
  | 47 => ⟨S400, .i32⟩
  | 48 => ⟨S190, .i32⟩
  | 49 => ⟨S_, .i32⟩
  | 50 => ⟨S_, .i32⟩
  | 51 => ⟨S190, .i32⟩
  | 52 => ⟨S_, .i32⟩
  | 53 => ⟨S190, .i32⟩
  | 54 => ⟨S190, .i32⟩
  | 55 => ⟨S190, .i32⟩
  | 56 => ⟨S_, .i32⟩
  | 57 => ⟨S190, .i32⟩
  | 58 => ⟨S190, .i1⟩
  | 59 => ⟨S190, .i32⟩
  | 60 => ⟨S190, .i32⟩
  | 61 => ⟨S_, .i32⟩
  | 62 => ⟨S190, .i32⟩
  | 63 => ⟨S190, .i1⟩
  | 64 => ⟨S190, .i1⟩
  | 65 => ⟨S_, .i32⟩
  | 66 => ⟨S190, .i32⟩
  | 67 => ⟨S190, .i32⟩
  | 68 => ⟨S190, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S190, .i32⟩
  | 76 => ⟨S190, .i32⟩
  | 77 => ⟨S_, .i32⟩
  | 78 => ⟨S190, .i32⟩
  | 79 => ⟨S190, .i1⟩
  | 80 => ⟨S_, .i32⟩
  | 81 => ⟨S190, .i32⟩
  | 82 => ⟨S190, .i1⟩
  | 83 => ⟨S_, .i32⟩
  | 84 => ⟨S_, .i1⟩
  | 85 => ⟨S190, .i1⟩
  | 86 => ⟨S190, .i1⟩
  | 87 => ⟨S190, .i1⟩
  | 88 => ⟨S190, .i32⟩
  | 89 => ⟨S190, .i32⟩
  | 90 => ⟨S190, .i32⟩
  | 91 => ⟨S_, .i32⟩
  | 92 => ⟨S190, .i32⟩
  | 93 => ⟨S190, .i32⟩
  | 94 => ⟨S190, .i32⟩
  | 95 => ⟨S_, .i32⟩
  | 96 => ⟨S190, .i32⟩
  | 97 => ⟨S190, .i1⟩
  | 98 => ⟨S190, .i32⟩
  | 99 => ⟨S190, .i32⟩
  | 100 => ⟨S_, .i32⟩
  | 101 => ⟨S190, .i32⟩
  | 102 => ⟨S190, .i1⟩
  | 103 => ⟨S190, .i1⟩
  | 104 => ⟨S_, .i32⟩
  | 105 => ⟨S190, .i32⟩
  | 106 => ⟨S190, .i32⟩
  | 107 => ⟨S190, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S190, .i32⟩
  | 115 => ⟨S190, .i32⟩
  | 116 => ⟨S_, .i32⟩
  | 117 => ⟨S190, .i32⟩
  | 118 => ⟨S190, .i1⟩
  | 119 => ⟨S_, .i32⟩
  | 120 => ⟨S190, .i32⟩
  | 121 => ⟨S190, .i1⟩
  | 122 => ⟨S_, .i32⟩
  | 123 => ⟨S_, .i1⟩
  | 124 => ⟨S190, .i1⟩
  | 125 => ⟨S190, .i1⟩
  | 126 => ⟨S190, .i1⟩
  | 127 => ⟨S190, .i32⟩
  | _ => ⟨S4096, .i32⟩

abbrev hbmTy0_1 (i : Nat) : BufTy := match i % 128 with
  | 0 => ⟨S190, .i32⟩
  | 1 => ⟨S190, .i32⟩
  | 2 => ⟨S_, .i32⟩
  | 3 => ⟨S190, .i32⟩
  | 4 => ⟨S190, .i1⟩
  | 5 => ⟨S_, .i32⟩
  | 6 => ⟨S190, .i32⟩
  | 7 => ⟨S190, .i32⟩
  | 8 => ⟨S190, .i32⟩
  | 9 => ⟨S190x1, .i32⟩
  | 10 => ⟨S190, .f32⟩
  | 11 => ⟨S_, .i32⟩
  | 12 => ⟨S190, .i32⟩
  | 13 => ⟨S190, .i1⟩
  | 14 => ⟨S_, .i32⟩
  | 15 => ⟨S190, .i32⟩
  | 16 => ⟨S190, .i32⟩
  | 17 => ⟨S190, .i32⟩
  | 18 => ⟨S190x1, .i32⟩
  | 19 => ⟨S190, .f32⟩
  | 20 => ⟨S190, .f32⟩
  | 21 => ⟨S1x190x1, .f32⟩
  | 22 => ⟨S_, .i32⟩
  | 23 => ⟨S190, .i32⟩
  | 24 => ⟨S190, .i1⟩
  | 25 => ⟨S_, .i32⟩
  | 26 => ⟨S190, .i32⟩
  | 27 => ⟨S190, .i32⟩
  | 28 => ⟨S190, .i32⟩
  | 29 => ⟨S190x1, .i32⟩
  | 30 => ⟨S4096x190x64, .f32⟩
  | 31 => ⟨S4096x190x64, .f32⟩
  | 32 => ⟨S4096x190x64, .f32⟩
  | 33 => ⟨S_, .i32⟩
  | 34 => ⟨S190, .i32⟩
  | 35 => ⟨S190, .i1⟩
  | 36 => ⟨S_, .i32⟩
  | 37 => ⟨S190, .i32⟩
  | 38 => ⟨S190, .i32⟩
  | 39 => ⟨S190, .i32⟩
  | 40 => ⟨S190x1, .i32⟩
  | 41 => ⟨S4096x190x64, .f32⟩
  | 42 => ⟨S4096x190x64, .f32⟩
  | 43 => ⟨S4096x210x64, .f32⟩
  | 44 => ⟨S4096x13440, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_cst : Ref sig .tc := ⟨.hbm, 21, rfl⟩
abbrev main_call0_v5 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_call0_c : Ref sig .tc := ⟨.hbm, 29, rfl⟩
abbrev main_call1_call0_v0 : Ref sig .tc := ⟨.hbm, 30, rfl⟩
abbrev main_v11 : Ref sig .tc := ⟨.hbm, 31, rfl⟩
abbrev main_c_2 : Ref sig .tc := ⟨.hbm, 32, rfl⟩
abbrev main_v12 : Ref sig .tc := ⟨.hbm, 33, rfl⟩
abbrev main_c_3 : Ref sig .tc := ⟨.hbm, 34, rfl⟩
abbrev main_call2_v0 : Ref sig .tc := ⟨.hbm, 35, rfl⟩
abbrev main_call2_v1 : Ref sig .tc := ⟨.hbm, 36, rfl⟩
abbrev main_v13 : Ref sig .tc := ⟨.hbm, 37, rfl⟩
abbrev main_c_4 : Ref sig .tc := ⟨.hbm, 38, rfl⟩
abbrev main_v14 : Ref sig .tc := ⟨.hbm, 39, rfl⟩
abbrev main_v15 : Ref sig .tc := ⟨.hbm, 40, rfl⟩
abbrev main_c_5 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_6 : Ref sig .tc := ⟨.hbm, 46, rfl⟩
abbrev main_v20 : Ref sig .tc := ⟨.hbm, 47, rfl⟩
abbrev main_v21 : Ref sig .tc := ⟨.hbm, 48, rfl⟩
abbrev main_call3_call0_c : Ref sig .tc := ⟨.hbm, 49, rfl⟩
abbrev main_call3_call0_v0 : Ref sig .tc := ⟨.hbm, 50, rfl⟩
abbrev main_v22 : Ref sig .tc := ⟨.hbm, 51, rfl⟩
abbrev main_c_7 : Ref sig .tc := ⟨.hbm, 52, rfl⟩
abbrev main_call4_v0 : Ref sig .tc := ⟨.hbm, 53, rfl⟩
abbrev main_call4_v1 : Ref sig .tc := ⟨.hbm, 54, rfl⟩
abbrev main_call4_v2 : Ref sig .tc := ⟨.hbm, 55, rfl⟩
abbrev main_call4_v3 : Ref sig .tc := ⟨.hbm, 56, rfl⟩
abbrev main_call4_v4 : Ref sig .tc := ⟨.hbm, 57, rfl⟩
abbrev main_call4_v5 : Ref sig .tc := ⟨.hbm, 58, rfl⟩
abbrev main_call4_v6 : Ref sig .tc := ⟨.hbm, 59, rfl⟩
abbrev main_call4_v7 : Ref sig .tc := ⟨.hbm, 60, rfl⟩
abbrev main_call4_c : Ref sig .tc := ⟨.hbm, 61, rfl⟩
abbrev main_call4_v8 : Ref sig .tc := ⟨.hbm, 62, rfl⟩
abbrev main_call4_v9 : Ref sig .tc := ⟨.hbm, 63, rfl⟩
abbrev main_call4_v10 : Ref sig .tc := ⟨.hbm, 64, rfl⟩
abbrev main_call4_c_0 : Ref sig .tc := ⟨.hbm, 65, rfl⟩
abbrev main_call4_v11 : Ref sig .tc := ⟨.hbm, 66, rfl⟩
abbrev main_call4_v12 : Ref sig .tc := ⟨.hbm, 67, rfl⟩
abbrev main_v23 : Ref sig .tc := ⟨.hbm, 68, rfl⟩
abbrev main_c_8 : Ref sig .tc := ⟨.hbm, 69, rfl⟩
abbrev main_call5_v0 : Ref sig .tc := ⟨.hbm, 70, rfl⟩
abbrev main_call5_c : Ref sig .tc := ⟨.hbm, 71, rfl⟩
abbrev main_call5_v1 : Ref sig .tc := ⟨.hbm, 72, rfl⟩
abbrev main_call5_c_0 : Ref sig .tc := ⟨.hbm, 73, rfl⟩
abbrev main_call5_v2 : Ref sig .tc := ⟨.hbm, 74, rfl⟩
abbrev main_call5_v3 : Ref sig .tc := ⟨.hbm, 75, rfl⟩
abbrev main_call5_v4 : Ref sig .tc := ⟨.hbm, 76, rfl⟩
abbrev main_call5_c_1 : Ref sig .tc := ⟨.hbm, 77, rfl⟩
abbrev main_call5_v5 : Ref sig .tc := ⟨.hbm, 78, rfl⟩
abbrev main_call5_v6 : Ref sig .tc := ⟨.hbm, 79, rfl⟩
abbrev main_call5_c_2 : Ref sig .tc := ⟨.hbm, 80, rfl⟩
abbrev main_call5_v7 : Ref sig .tc := ⟨.hbm, 81, rfl⟩
abbrev main_call5_v8 : Ref sig .tc := ⟨.hbm, 82, rfl⟩
abbrev main_call5_c_3 : Ref sig .tc := ⟨.hbm, 83, rfl⟩
abbrev main_call5_v9 : Ref sig .tc := ⟨.hbm, 84, rfl⟩
abbrev main_call5_v10 : Ref sig .tc := ⟨.hbm, 85, rfl⟩
abbrev main_call5_v11 : Ref sig .tc := ⟨.hbm, 86, rfl⟩
abbrev main_call5_v12 : Ref sig .tc := ⟨.hbm, 87, rfl⟩
abbrev main_call5_v13 : Ref sig .tc := ⟨.hbm, 88, rfl⟩
abbrev main_call5_v14 : Ref sig .tc := ⟨.hbm, 89, rfl⟩
abbrev main_v24 : Ref sig .tc := ⟨.hbm, 90, rfl⟩
abbrev main_c_9 : Ref sig .tc := ⟨.hbm, 91, rfl⟩
abbrev main_call6_v0 : Ref sig .tc := ⟨.hbm, 92, rfl⟩
abbrev main_call6_v1 : Ref sig .tc := ⟨.hbm, 93, rfl⟩
abbrev main_call6_v2 : Ref sig .tc := ⟨.hbm, 94, rfl⟩
abbrev main_call6_v3 : Ref sig .tc := ⟨.hbm, 95, rfl⟩
abbrev main_call6_v4 : Ref sig .tc := ⟨.hbm, 96, rfl⟩
abbrev main_call6_v5 : Ref sig .tc := ⟨.hbm, 97, rfl⟩
abbrev main_call6_v6 : Ref sig .tc := ⟨.hbm, 98, rfl⟩
abbrev main_call6_v7 : Ref sig .tc := ⟨.hbm, 99, rfl⟩
abbrev main_call6_c : Ref sig .tc := ⟨.hbm, 100, rfl⟩
abbrev main_call6_v8 : Ref sig .tc := ⟨.hbm, 101, rfl⟩
abbrev main_call6_v9 : Ref sig .tc := ⟨.hbm, 102, rfl⟩
abbrev main_call6_v10 : Ref sig .tc := ⟨.hbm, 103, rfl⟩
abbrev main_call6_c_0 : Ref sig .tc := ⟨.hbm, 104, rfl⟩
abbrev main_call6_v11 : Ref sig .tc := ⟨.hbm, 105, rfl⟩
abbrev main_call6_v12 : Ref sig .tc := ⟨.hbm, 106, rfl⟩
abbrev main_v25 : Ref sig .tc := ⟨.hbm, 107, rfl⟩
abbrev main_c_10 : Ref sig .tc := ⟨.hbm, 108, rfl⟩
abbrev main_call7_v0 : Ref sig .tc := ⟨.hbm, 109, rfl⟩
abbrev main_call7_c : Ref sig .tc := ⟨.hbm, 110, rfl⟩
abbrev main_call7_v1 : Ref sig .tc := ⟨.hbm, 111, rfl⟩
abbrev main_call7_c_0 : Ref sig .tc := ⟨.hbm, 112, rfl⟩
abbrev main_call7_v2 : Ref sig .tc := ⟨.hbm, 113, rfl⟩
abbrev main_call7_v3 : Ref sig .tc := ⟨.hbm, 114, rfl⟩
abbrev main_call7_v4 : Ref sig .tc := ⟨.hbm, 115, rfl⟩
abbrev main_call7_c_1 : Ref sig .tc := ⟨.hbm, 116, rfl⟩
abbrev main_call7_v5 : Ref sig .tc := ⟨.hbm, 117, rfl⟩
abbrev main_call7_v6 : Ref sig .tc := ⟨.hbm, 118, rfl⟩
abbrev main_call7_c_2 : Ref sig .tc := ⟨.hbm, 119, rfl⟩
abbrev main_call7_v7 : Ref sig .tc := ⟨.hbm, 120, rfl⟩
abbrev main_call7_v8 : Ref sig .tc := ⟨.hbm, 121, rfl⟩
abbrev main_call7_c_3 : Ref sig .tc := ⟨.hbm, 122, rfl⟩
abbrev main_call7_v9 : Ref sig .tc := ⟨.hbm, 123, rfl⟩
abbrev main_call7_v10 : Ref sig .tc := ⟨.hbm, 124, rfl⟩
abbrev main_call7_v11 : Ref sig .tc := ⟨.hbm, 125, rfl⟩
abbrev main_call7_v12 : Ref sig .tc := ⟨.hbm, 126, rfl⟩
abbrev main_call7_v13 : Ref sig .tc := ⟨.hbm, 127, rfl⟩
abbrev main_call7_v14 : Ref sig .tc := ⟨.hbm, 128, rfl⟩
abbrev main_v26 : Ref sig .tc := ⟨.hbm, 129, rfl⟩
abbrev main_c_11 : Ref sig .tc := ⟨.hbm, 130, rfl⟩
abbrev main_v27 : Ref sig .tc := ⟨.hbm, 131, rfl⟩
abbrev main_v28 : Ref sig .tc := ⟨.hbm, 132, rfl⟩
abbrev main_c_12 : Ref sig .tc := ⟨.hbm, 133, rfl⟩
abbrev main_v29 : Ref sig .tc := ⟨.hbm, 134, rfl⟩
abbrev main_v30 : Ref sig .tc := ⟨.hbm, 135, rfl⟩
abbrev main_v31 : Ref sig .tc := ⟨.hbm, 136, rfl⟩
abbrev main_v32 : Ref sig .tc := ⟨.hbm, 137, rfl⟩
abbrev main_v33 : Ref sig .tc := ⟨.hbm, 138, rfl⟩
abbrev main_c_13 : Ref sig .tc := ⟨.hbm, 139, rfl⟩
abbrev main_v34 : Ref sig .tc := ⟨.hbm, 140, rfl⟩
abbrev main_v35 : Ref sig .tc := ⟨.hbm, 141, rfl⟩
abbrev main_c_14 : Ref sig .tc := ⟨.hbm, 142, rfl⟩
abbrev main_v36 : Ref sig .tc := ⟨.hbm, 143, rfl⟩
abbrev main_v37 : Ref sig .tc := ⟨.hbm, 144, rfl⟩
abbrev main_v38 : Ref sig .tc := ⟨.hbm, 145, rfl⟩
abbrev main_v39 : Ref sig .tc := ⟨.hbm, 146, rfl⟩
abbrev main_v40 : Ref sig .tc := ⟨.hbm, 147, rfl⟩
abbrev main_v41 : Ref sig .tc := ⟨.hbm, 148, rfl⟩
abbrev main_v42 : Ref sig .tc := ⟨.hbm, 149, rfl⟩
abbrev main_c_15 : Ref sig .tc := ⟨.hbm, 150, rfl⟩
abbrev main_v43 : Ref sig .tc := ⟨.hbm, 151, rfl⟩
abbrev main_v44 : Ref sig .tc := ⟨.hbm, 152, rfl⟩
abbrev main_c_16 : Ref sig .tc := ⟨.hbm, 153, rfl⟩
abbrev main_v45 : Ref sig .tc := ⟨.hbm, 154, rfl⟩
abbrev main_v46 : Ref sig .tc := ⟨.hbm, 155, rfl⟩
abbrev main_v47 : Ref sig .tc := ⟨.hbm, 156, rfl⟩
abbrev main_v48 : Ref sig .tc := ⟨.hbm, 157, rfl⟩
abbrev main_v49 : Ref sig .tc := ⟨.hbm, 158, rfl⟩
abbrev main_v50 : Ref sig .tc := ⟨.hbm, 159, rfl⟩
abbrev main_v51 : Ref sig .tc := ⟨.hbm, 160, rfl⟩
abbrev main_c_17 : Ref sig .tc := ⟨.hbm, 161, rfl⟩
abbrev main_v52 : Ref sig .tc := ⟨.hbm, 162, rfl⟩
abbrev main_v53 : Ref sig .tc := ⟨.hbm, 163, rfl⟩
abbrev main_c_18 : Ref sig .tc := ⟨.hbm, 164, rfl⟩
abbrev main_v54 : Ref sig .tc := ⟨.hbm, 165, rfl⟩
abbrev main_v55 : Ref sig .tc := ⟨.hbm, 166, rfl⟩
abbrev main_v56 : Ref sig .tc := ⟨.hbm, 167, rfl⟩
abbrev main_v57 : Ref sig .tc := ⟨.hbm, 168, rfl⟩
abbrev main_v58 : Ref sig .tc := ⟨.hbm, 169, rfl⟩
abbrev main_v59 : Ref sig .tc := ⟨.hbm, 170, rfl⟩
abbrev main_v60 : Ref sig .tc := ⟨.hbm, 171, rfl⟩
abbrev main_v61 : Ref sig .tc := ⟨.hbm, 172, rfl⟩

abbrev nD : Nat := 1
abbrev τ : Topo := Topo.v7x

variable {F : FTy → Type} [FloatOps F]

class Facts₀ : Prop where
  bcast_S_S4096x20 : S_.BroadcastsInDim S4096x20 (![] : Fin 0 → Fin S4096x20.rank)
  bcast_S4096x20_S4096x20x1_0_1 : S4096x20.BroadcastsInDim S4096x20x1 (![0, 1] : Fin 2 → Fin S4096x20x1.rank)
  bcast_S_S20x20 : S_.BroadcastsInDim S20x20 (![] : Fin 0 → Fin S20x20.rank)
  shapeCasts_S20x20_S400 : S20x20.ShapeCasts S400
  natLt_1_32 : 1 < 32
  bcast_S_S_ : S_.BroadcastsInDim S_ (![] : Fin 0 → Fin S_.rank)
  reduceWindows_S400_S400_w400s1p399_0 : S400.ReduceWindows (![400] : Fin 1 → Nat) ![1] ![399] ![0] S400
  h_S_ : 0 < S_.numel
  bcast_S_S190 : S_.BroadcastsInDim S190 (![] : Fin 0 → Fin S190.rank)
  bcast_S_S400 : S_.BroadcastsInDim S400 (![] : Fin 0 → Fin S400.rank)
  bcast_S400_S400x1_0 : S400.BroadcastsInDim S400x1 (![0] : Fin 1 → Fin S400x1.rank)
  reduceWindows_S190_S190_w190s1p189_0 : S190.ReduceWindows (![190] : Fin 1 → Nat) ![1] ![189] ![0] S190
  bcast_S190_S190x1_0 : S190.BroadcastsInDim S190x1 (![0] : Fin 1 → Fin S190x1.rank)
  bcast_S190_S1x190x1_1 : S190.BroadcastsInDim S1x190x1 (![1] : Fin 1 → Fin S1x190x1.rank)
  bcast_S1x190x1_S4096x190x64_0_1_2 : S1x190x1.BroadcastsInDim S4096x190x64 (![0, 1, 2] : Fin 3 → Fin S4096x190x64.rank)
  concatenates_S4096x20x64_S4096x190x64_S4096x210x64_d1 : Shape.Concatenates [S4096x20x64, S4096x190x64] S4096x210x64 1
  shapeCasts_S4096x210x64_S4096x13440 : S4096x210x64.ShapeCasts S4096x13440
  gather_S100001x64_S4096x20x1_S4096x20x64_2_0_n_n_0_2_164_wf : GatherDims.WF S100001x64 S4096x20x1 S4096x20x64 [2] [0] [] [0] [] 2 ![1, 64]
  scatter_S190_S400x1_S400_n_0_0_1_wf : ScatterDims.WF S190 S400x1 S400 [] [0] [0] 1
  gather_S20_S190x1_S190_n_0_n_n_0_1_1_wf : GatherDims.WF S20 S190x1 S190 [] [0] [] [0] [] 1 ![1]
  gather_S4096x20x64_S190x1_S4096x190x64_02_1_n_n_1_1_4096164_wf : GatherDims.WF S4096x20x64 S190x1 S4096x190x64 [0, 2] [1] [] [1] [] 1 ![4096, 1, 64]

variable [Facts₀]

def gather_S100001x64_S4096x20x1_S4096x20x64_2_0_n_n_0_2_164 : GatherDims S100001x64 S4096x20x1 S4096x20x64 where
  offsetDims := [2]
  collapsedSliceDims := [0]
  operandBatchingDims := []
  startIndicesBatchingDims := []
  startIndexMap := [0]
  indexVectorDim := 2
  sliceSizes := ![1, 64]
  wf := gather_S100001x64_S4096x20x1_S4096x20x64_2_0_n_n_0_2_164_wf
def scatter_S190_S400x1_S400_n_0_0_1 : ScatterDims S190 S400x1 S400 where
  updateWindowDims := []
  insertedWindowDims := [0]
  scatterDimsToOperandDims := [0]
  indexVectorDim := 1
  wf := scatter_S190_S400x1_S400_n_0_0_1_wf
def gather_S20_S190x1_S190_n_0_n_n_0_1_1 : GatherDims S20 S190x1 S190 where
  offsetDims := []
  collapsedSliceDims := [0]
  operandBatchingDims := []
  startIndicesBatchingDims := []
  startIndexMap := [0]
  indexVectorDim := 1
  sliceSizes := ![1]
  wf := gather_S20_S190x1_S190_n_0_n_n_0_1_1_wf
def gather_S4096x20x64_S190x1_S4096x190x64_02_1_n_n_1_1_4096164 : GatherDims S4096x20x64 S190x1 S4096x190x64 where
  offsetDims := [0, 2]
  collapsedSliceDims := [1]
  operandBatchingDims := []
  startIndicesBatchingDims := []
  startIndexMap := [1]
  indexVectorDim := 1
  sliceSizes := ![4096, 1, 64]
  wf := gather_S4096x20x64_S190x1_S4096x190x64_02_1_n_n_1_1_4096164_wf

class Facts : Prop extends Facts₀ where

variable [Facts]
-- ==== Proof.Lookup.lean ====
/-
  The embedding lookup, as the two programs compute it on the host.

  Both first WRAP an index word: a negative word `x` stands for `x + 100001`, the row counted from the end of
  the table of 100001 rows. The reference then gathers, and a gather clamps its start index to the table
  (`takeClip`). The kernel's host code gathers the same way but then FILLS with the NaN pattern every item whose
  wrapped word lies outside `0 … 100000` (`takeFill`). Where every wrapped word is a row of the table the fill
  never happens and the two lookups are one array.
-/
import proofs.«426756_j5592047419688_3_alg».proof.KernelIdeal

noncomputable section

namespace Cert.Lookup

open Idealize.ShloMosaic Cert.KernelIdeal Cert.KernelIdeal.Facts₀ Cert.KernelIdeal.Facts

variable {F : FTy → Type} [FloatOps F] [Cert.KernelIdeal.Facts]

/-- The index words wrapped (a negative word counts rows from the end), as a column of start indices. -/
def wrapped (mem : IVec S4096x20 32) : IVec S4096x20x1 32 :=
  broadcastInDim S4096x20x1 ![0, 1] bcast_S4096x20_S4096x20x1_0_1
    (select (cmpi .slt mem (broadcastInDim S4096x20 ![] bcast_S_S4096x20 (constantI S_ 32 0#32)))
      (addi mem (broadcastInDim S4096x20 ![] bcast_S_S4096x20 (constantI S_ 32 100001#32))) mem)

/-- The lookup by a clamping gather: item `(b, n)` is the table's row at the wrapped word, clamped to the table. -/
def takeClip (emb : FVec F S100001x64 .f32) (mem : IVec S4096x20 32) : FVec F S4096x20x64 .f32 :=
  Host.gather gather_S100001x64_S4096x20x1_S4096x20x64_2_0_n_n_0_2_164 emb (wrapped mem)

/-- Per item: is its wrapped word a row of the table, `0 ≤ · ≤ 100000`? -/
def inTable (mem : IVec S4096x20 32) : IVec S4096x20 1 :=
  Host.reduce IntOp.andi
    (andi (cmpi .sge (wrapped mem) (broadcastInDim S4096x20x1 ![] bcast_S_S4096x20x1 (constantI S_ 32 0#32)))
      (cmpi .sle (wrapped mem) (broadcastInDim S4096x20x1 ![0, 1, 2] bcast_S1x1x1_S4096x20x1_0_1_2
        (broadcastInDim S1x1x1 ![2] bcast_S1_S1x1x1_2 (constantI S1 32 100000#32)))))
    (constantI S_ 1 1#1) reducesTo_S4096x20x1_S4096x20_d2 h_S_

/-- The lookup with the NaN pattern filled in at every item whose wrapped word is no row of the table. -/
def takeFill (emb : FVec F S100001x64 .f32) (mem : IVec S4096x20 32) : FVec F S4096x20x64 .f32 :=
  select (broadcastInDim S4096x20x64 ![0, 1] bcast_S4096x20_S4096x20x64_0_1 (inTable mem)) (takeClip emb mem)
    (broadcastInDim S4096x20x64 ![] bcast_S_S4096x20x64 (constant S_ .f32 0x7FC00000#32))

end Cert.Lookup

end
-- ==== Proof.IndexRange.lean ====
/-
  The index words' range, and what it gives the lookup.

  The certificate's precondition compares every index word, read signed, with -100001 from below and with 100000
  from above, and says that all those comparisons hold (\`InRange\`, read back from the printed predicate by
  \`inRange_of_pre\`). A word \`x\` in that range wraps to \`x + 100001\` when it is negative and to itself otherwise, with no
  overflow of the 32-bit sum, so the wrapped word lies in \`0 … 100000\`: it is a row of the table. Both comparisons of
  the kernel-side lookup then give 1 at every item, their conjunction reduced over the unit axis is 1, and the
  selection that would fill in the NaN pattern takes the gathered value everywhere (\`takeFill_eq_takeClip\`).
-/
import proofs.«426756_j5592047419688_3_alg».proof.Proof.Lookup
import proofs.«426756_j5592047419688_3_alg».proof.Pre_finite_inputs
import Idealize.ShloMosaic.Lib.ValueIdx
import Idealize.ShloMosaic.Lib.ReduceAll
import Idealize.ShloMosaic.Lib.StableHlo.Predicate

noncomputable section

namespace Cert.IndexRange

open Idealize.ShloMosaic

/-- Every index word lies in -100001 … 100000 as a signed number. -/
def InRange (mem : IVec Cert.KernelIdeal.S4096x20 32) : Prop :=
  ∀ i, (-100001 : Int) ≤ (mem i).toInt ∧ (mem i).toInt ≤ 100000

/-! ## The literals of the two predicates, read signed -/

theorem toInt_lo : (4294867295#32 : BitVec 32).toInt = -100001 := by decide
theorem toInt_hi : (100000#32 : BitVec 32).toInt = 100000 := by decide
theorem toInt_zero : (0#32 : BitVec 32).toInt = 0 := by decide
theorem toInt_rows : (100001#32 : BitVec 32).toInt = 100001 := by decide

/-! ## The precondition read back -/

/-- The rank-zero shape has one index. -/
instance : Subsingleton Cert.Pre_finite_inputs.S_.Idx := ⟨fun a b => funext fun d => d.elim0⟩

theorem inRange_of_pre {F : FTy → Type} [FloatOps F] [Cert.Pre_finite_inputs.Facts]
    (a0 : IVec Cert.Pre_finite_inputs.S4096 32) (a1 : IVec Cert.Pre_finite_inputs.S4096x20 32)
    (a2 : FVec F Cert.Pre_finite_inputs.S100001x64 .f32) (a3 : FVec F Cert.Pre_finite_inputs.S20 .f32)
    (h : Cert.Pre_finite_inputs.fn (F := F) a0 a1 a2 a3 = fun _ => 1#1) : InRange a1 := by
  have h0 := congrFun h ValueIdx.ix0
  dsimp only [Cert.Pre_finite_inputs.fn, Cert.Pre_finite_inputs.fn_part1] at h0
  -- the predicate is a conjunction of four all-reductions; the last two are the two range tests
  obtain ⟨h12, hle⟩ := IntOp.andi_eq_one.1 h0
  obtain ⟨-, hge⟩ := IntOp.andi_eq_one.1 h12
  intro i
  have hge' := Host.reduce_andi_all _ _ _ _ _ hge i
  have hle' := Host.reduce_andi_all _ _ _ _ _ hle i
  -- at one element each test compares the word with the literal
  have hge'' : IntOp.cmpi .sge (a1 i) 4294867295#32 = 1#1 := hge'
  have hle'' : IntOp.cmpi .sle (a1 i) 100000#32 = 1#1 := hle'
  rw [IntOp.cmpi_sge, toInt_lo] at hge''
  rw [IntOp.cmpi_sle, toInt_hi] at hle''
  exact ⟨hge'', hle''⟩

/-! ## A word in range wraps to a row of the table -/

/-- The wrapped word: \`x + 100001\` for a negative \`x\`, else \`x\`. -/
def wrapWord (x : BitVec 32) : BitVec 32 :=
  Scalar.select (IntOp.cmpi .slt x 0#32) (IntOp.addi x 100001#32) x

/-- For \`-100001 ≤ x ≤ 100000\` the wrapped word, read signed, lies in \`0 … 100000\`: the sum does not overflow. -/
theorem wrapWord_range (x : BitVec 32) (h₁ : (-100001 : Int) ≤ x.toInt) (h₂ : x.toInt ≤ 100000) :
    0 ≤ (wrapWord x).toInt ∧ (wrapWord x).toInt ≤ 100000 := by
  unfold wrapWord
  by_cases hneg : x.toInt < 0
  · have hc : IntOp.cmpi .slt x 0#32 = 1#1 := by rw [IntOp.cmpi_slt, toInt_zero]; exact hneg
    rw [hc, ValueIdx.select_one]
    have hs : (IntOp.addi x 100001#32).toInt = x.toInt + 100001 := by
      show (x + 100001#32).toInt = _
      rw [BitVec.toInt_add, toInt_rows]
      exact Int.bmod_eq_of_le (by omega) (by omega)
    rw [hs]; omega
  · have hc : IntOp.cmpi .slt x 0#32 = 0#1 := by
      apply ValueIdx.eq_zero_of_ne_one
      rw [IntOp.cmpi_slt, toInt_zero]; exact hneg
    rw [hc, ValueIdx.select_zero]; omega

/-- Both table tests hold of the wrapped word of a word in range. -/
theorem tests_wrapWord (x : BitVec 32) (h₁ : (-100001 : Int) ≤ x.toInt) (h₂ : x.toInt ≤ 100000) :
    IntOp.andi (IntOp.cmpi .sge (wrapWord x) 0#32) (IntOp.cmpi .sle (wrapWord x) 100000#32) = 1#1 := by
  obtain ⟨h0, h1⟩ := wrapWord_range x h₁ h₂
  rw [IntOp.andi_eq_one, IntOp.cmpi_sge, IntOp.cmpi_sle, toInt_zero, toInt_hi]
  exact ⟨h0, h1⟩

/-! ## The fill never happens -/

/-- A left fold by \`and\` from 1 over words that are all 1 is 1. -/
theorem foldl_andi_all_one {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, hl => by
    refine foldl_andi_all_one f l _ ?_ (fun n hn => hl n (List.mem_cons_of_mem _ hn))
    rw [IntOp.andi_eq_one]
    exact ⟨hi, hl a List.mem_cons_self⟩

section Lookup

open Cert.KernelIdeal Cert.KernelIdeal.Facts₀ Cert.KernelIdeal.Facts Cert.Lookup

variable {F : FTy → Type} [FloatOps F] [Cert.KernelIdeal.Facts]

/-- Each element of the column of start indices is the wrapped word of one index word. -/
theorem wrapped_apply (mem : IVec S4096x20 32) (i : S4096x20x1.Idx) : ∃ k, wrapped mem i = wrapWord (mem k) :=
  ⟨_, rfl⟩

/-- With every index word in range, every item's wrapped word is a row of the table. -/
theorem inTable_eq_one (mem : IVec S4096x20 32) (h : InRange mem) (k : S4096x20.Idx) : inTable mem k = 1#1 := by
  unfold inTable
  rw [Host.reduce_eq_foldl]
  refine foldl_andi_all_one _ _ _ rfl (fun i _ => ?_)
  obtain ⟨k', hk'⟩ := wrapped_apply mem i
  show IntOp.andi (IntOp.cmpi .sge (wrapped mem i) 0#32) (IntOp.cmpi .sle (wrapped mem i) 100000#32) = 1#1
  rw [hk']
  exact tests_wrapWord _ (h k').1 (h k').2

/-- With every index word in range the lookup that fills in the NaN pattern off the table is the clamping gather. -/
theorem takeFill_eq_takeClip (emb : FVec F S100001x64 .f32) (mem : IVec S4096x20 32) (h : InRange mem) :
    takeFill emb mem = takeClip emb mem := by
  funext j
  unfold takeFill
  rw [ValueIdx.select_apply]
  have hb : broadcastInDim S4096x20x64 ![0, 1] bcast_S4096x20_S4096x20x64_0_1 (inTable mem) j = 1#1 :=
    inTable_eq_one mem h _
  rw [hb, ValueIdx.select_one]

end Lookup

end Cert.IndexRange

end
-- ==== Proof.PairFeatures.lean ====
/-
  The state representation both programs compute, as ONE function of the gathered item embeddings `E`
  (a batch of 4096 rows, each of 20 items with 64 features) and the 20 item weights `w`.

  A row of the result has 13440 = (20 + 190) · 64 entries. The first 1280 are the row's 20 embeddings laid
  end to end: entry `k < 1280` is feature `k % 64` of item `k / 64`. The remaining 12160 are the 190
  unordered pairs `i < j` of items, in the order of the upper triangle read row by row, 64 entries a pair:
  entry `1280 + 64 p + d` is `(E i d · E j d) · (w i · w j)` for the pair `p = (i, j)`.

  The pairs are given by two tables of 190 words (first item, second item); an item is read off a word as a
  gather reads a start index: as a signed number, clamped to the 20 items.
-/
import proofs.«426756_j5592047419688_3_alg».proof.KernelIdeal
import Idealize.ShloMosaic.Lib.ValueIdx

noncomputable section

namespace Cert.PairFeatures

open Idealize.ShloMosaic Idealize.ShloMosaic.ValueIdx Cert.KernelIdeal

/-- The item (of 20) a table word selects: the word read signed, negative words at 0, clamped to the last item. -/
def itemOf (x : BitVec 32) : Fin 20 := ⟨min x.toInt.toNat 19, by omega⟩

/-- The first item of pair `p`. -/
def fstItem (p : Fin 190) : Fin 20 := itemOf (lit0 p)

/-- The second item of pair `p`. -/
def sndItem (p : Fin 190) : Fin 20 := itemOf (lit1 p)

/-- Entry `k` of row `b` of the state representation. -/
def stateAt (E : FVec Ideal S4096x20x64 .f32) (w : FVec Ideal S20 .f32) (b : Fin 4096) (k : Fin 13440) : EReal :=
  if h : k.val < 1280 then
    E (ix3 b (⟨k.val / 64, by omega⟩ : Fin 20) (⟨k.val % 64, by omega⟩ : Fin 64))
  else
    (E (ix3 b (fstItem ⟨(k.val - 1280) / 64, by omega⟩) (⟨k.val % 64, by omega⟩ : Fin 64))
        * E (ix3 b (sndItem ⟨(k.val - 1280) / 64, by omega⟩) (⟨k.val % 64, by omega⟩ : Fin 64)))
      * (w (ix1 (fstItem ⟨(k.val - 1280) / 64, by omega⟩)) * w (ix1 (sndItem ⟨(k.val - 1280) / 64, by omega⟩)))

/-- Entry `k` of row `r` of ONE block of 128 rows, from the block's own 128 rows of embeddings `x0` and the row `x1`
    of 12160 pair weights (entry `64 p + d` of it is pair `p`'s weight product, whatever `d`). -/
def blockAt (x0 : FVec Ideal S128x20x64 .f32) (x1 : FVec Ideal S1x12160 .f32) (r : Fin 128) (k : Fin 13440) : EReal :=
  if h : k.val < 1280 then
    x0 (ix3 r (⟨k.val / 64, by omega⟩ : Fin 20) (⟨k.val % 64, by omega⟩ : Fin 64))
  else
    (x0 (ix3 r (fstItem ⟨(k.val - 1280) / 64, by omega⟩) (⟨k.val % 64, by omega⟩ : Fin 64))
        * x0 (ix3 r (sndItem ⟨(k.val - 1280) / 64, by omega⟩) (⟨k.val % 64, by omega⟩ : Fin 64)))
      * x1 (ix2 (0 : Fin 1) (⟨k.val - 1280, by omega⟩ : Fin 12160))

/-- One block of 128 rows of the state representation. -/
def blockFn (x0 : FVec Ideal S128x20x64 .f32) (x1 : FVec Ideal S1x12160 .f32) : FVec Ideal S128x13440 .f32 :=
  fun y => blockAt x0 x1 (y 0) (y 1)

/-- The state representation: 4096 rows of 13440 entries. -/
def stateRepr (E : FVec Ideal S4096x20x64 .f32) (w : FVec Ideal S20 .f32) : FVec Ideal S4096x13440 .f32 :=
  fun i => stateAt E w (i 0) (i 1)

end Cert.PairFeatures

end
-- ==== Proof.PairBlocks.lean ====
/-
  What ONE run of the kernel body leaves in its output block of 128 rows by 13440 columns, as one function of the
  block's index: `Cert.PairFeatures.blockFn` of the two input blocks.

  The body stores 96 pieces. The first covers columns 0 … 1279 and is the block's 20 items of 64 features laid end to
  end: column `k` of row `r` is feature `k % 64` of item `k / 64`. The other 95 are 128 columns wide; piece `q` covers
  columns `1280 + 128 q …` and holds two pairs of items side by side, pair `2 q` in its left 64 columns and pair `2 q + 1`
  in its right 64: column `s` of row `r` is the product of the two items' feature `s % 64`, times entry `128 q + s` of the
  row of pair weights. Every piece's value is made of four layout operations (an item cut out of the block and
  flattened, two halves set side by side, a row spread over the rows) and products, each of which reads at an index
  as one entry of its operand; so at column `s` a pair piece is
    `(if s < 64 then x0 r i₀ s · x0 r j₀ s else x0 r i₁ (s - 64) · x0 r j₁ (s - 64)) · x1 (128 q + s)`,
  whatever subterms two pieces share. With `(i₀, j₀)`, `(i₁, j₁)` the items of pairs `2 q`, `2 q + 1` (read off the two
  literal tables) this is the block function at column `1280 + 128 q + s`: `(128 q + s) / 64` is `2 q` or `2 q + 1` and
  `(1280 + 128 q + s) % 64` is `s` or `s - 64`. Pieces that are each a block of one function of the index, and that
  cover the block, read back as that function.
-/
import proofs.«426756_j5592047419688_3_alg».proof.Proof.Gen.KernelIdeal.Frame
import proofs.«426756_j5592047419688_3_alg».proof.Proof.PairFeatures
import Idealize.ShloMosaic.Lib.ValueIdx
import Idealize.ShloMosaic.Lib.ValueLayout
import Idealize.ShloMosaic.Lib.Pipeline.Value

set_option maxRecDepth 16384

noncomputable section

namespace Cert.PairBlocks

open Idealize.ShloMosaic Idealize.ShloMosaic.TcCoe Idealize.ShloMosaic.Tactic
open Idealize.ShloMosaic.ValueIdx
open Cert.KernelIdeal Cert.KernelIdeal.Gen Cert.PairFeatures

/-! ## The layout operations of the body, read at an index -/

/-- Item `o` of the block, cut out and flattened to 128 rows of 64 features, read at row `r`, feature `d`. -/
theorem item_apply {α : Type} (o : Nat) (v : S128x20x64.Idx → α) (h : S128x20x64.Slices ![0, o, 0] S128x1x64)
    (h' : S128x1x64.ShapeCasts S128x64) (r : Fin 128) (d : Fin 64) :
    shapeCast S128x64 (extractStridedSlice S128x1x64 ![0, o, 0] v h) h' (ix2 r d)
      = v (ix3 r ⟨o, Nat.lt_of_succ_le (h.2 1)⟩ d) := by
  refine (shapeCast_apply _ h' (ix2 r d) (ix3 r (0 : Fin 1) d) ?_).trans ?_
  · rw [Shape.rowMajor_val_two, Shape.rowMajor_val_three]
    show (r.val * 1 + 0) * 64 + d.val = r.val * 64 + d.val
    omega
  · exact slice3_axis1_apply o v h r 0 d ⟨o, Nat.lt_of_succ_le (h.2 1)⟩ rfl

/-- Two blocks of 64 columns side by side, read at row `r`, column `s`: the left one below column 64, the right one from there on. -/
theorem cat_apply {α : Type} (a b : S128x64.Idx → α) (h : Shape.Concatenates [S128x64, S128x64] S128x128 1)
    (r : Fin 128) (s : Fin 128) :
    concatenate S128x128 1 [⟨S128x64, a⟩, ⟨S128x64, b⟩] h (ix2 r s)
      = if hs : s.val < 64 then a (ix2 r ⟨s.val, hs⟩) else b (ix2 r ⟨s.val - 64, by have := s.isLt; omega⟩) := by
  split
  · next hs =>
    exact concatenate_pair_apply_left 1 a b h _ rfl _ (fun c => match c with
      | ⟨0, _⟩ => rfl
      | ⟨1, _⟩ => rfl)
  · next hs =>
    exact concatenate_pair_apply_right 1 a b h _ rfl rfl _
      (fun c hc => match c with
        | ⟨0, _⟩ => rfl
        | ⟨1, _⟩ => absurd rfl hc)
      (by show s.val - 64 + 64 = s.val; omega)

/-- One row of 128 weights spread over the 128 rows, read at row `r`, column `s`. -/
theorem spread_apply {α : Type} (w : S1x128.Idx → α) (h' : S1x128.Broadcasts S128x128) (r : Fin 128) (s : Fin 128) :
    broadcastTo S128x128 w h' (ix2 r s) = w (ix2 (0 : Fin 1) s) :=
  broadcastTo_1b_ab_apply w h' r s

/-! ## What the pieces hold, against the block function -/

theorem hz3 : (![0, 0, 0] : Fin 3 → Nat) = fun _ => 0 := funext fun a => by fin_cases a <;> rfl

/-- The first 1280 columns: the block's items laid end to end. -/
theorem single_final (x0 : FVec Ideal S128x20x64 .f32) (x1 : FVec Ideal S1x12160 .f32)
    (h : S128x20x64.ShapeCasts S128x1280)
    (inb' : ∀ a, (![0, 0] : Fin 2 → Nat) a + (![128, 1280] : Fin 2 → Nat) a ≤ S128x13440.size a)
    (r : Fin 128) (k : Fin 1280) :
    shapeCast S128x1280 x0 h (ix2 r k)
      = blockFn x0 x1 ((Rect.unit (s := S128x13440) ![0, 0] ![128, 1280] inb').emb (ix2 r k)) := by
  have hk := k.isLt
  refine (shapeCast_apply _ h (ix2 r k) (ix3 r (⟨k.val / 64, by omega⟩ : Fin 20) (⟨k.val % 64, by omega⟩ : Fin 64)) ?_).trans ?_
  · rw [Shape.rowMajor_val_two, Shape.rowMajor_val_three]
    show (r.val * 20 + k.val / 64) * 64 + k.val % 64 = r.val * 1280 + k.val
    omega
  · have hr : ((Rect.unit (s := S128x13440) ![0, 0] ![128, 1280] inb').emb (ix2 r k)) 0 = r :=
      Fin.ext (by show 0 + 1 * r.val = r.val; omega)
    have hc : (((Rect.unit (s := S128x13440) ![0, 0] ![128, 1280] inb').emb (ix2 r k)) 1).val = k.val := by
      show 0 + 1 * k.val = k.val; omega
    show _ = blockAt x0 x1 _ _
    rw [hr]
    generalize ((Rect.unit (s := S128x13440) ![0, 0] ![128, 1280] inb').emb (ix2 r k)) 1 = c at hc
    obtain ⟨cv, hcv⟩ := c
    simp only at hc
    subst hc
    unfold blockAt
    rw [dif_pos (show (⟨k.val, hcv⟩ : Fin 13440).val < 1280 from hk)]

/-- A pair piece: columns `1280 + 128 q …` hold pairs `2 q` (left 64 columns) and `2 q + 1` (right 64 columns), each the
    product of its two items' features times the pair's weight. -/
theorem pair_final (x0 : FVec Ideal S128x20x64 .f32) (x1 : FVec Ideal S1x12160 .f32)
    (q : Nat) (hq : q < 95) (i0 j0 i1 j1 : Fin 20)
    (h0 : fstItem ⟨2 * q, by omega⟩ = i0) (h1 : sndItem ⟨2 * q, by omega⟩ = j0)
    (h2 : fstItem ⟨2 * q + 1, by omega⟩ = i1) (h3 : sndItem ⟨2 * q + 1, by omega⟩ = j1)
    (o off : Nat) (ho : o = 128 * q) (hoff : off = 1280 + 128 * q)
    (inb : ∀ a, (![0, o] : Fin 2 → Nat) a + (![1, 128] : Fin 2 → Nat) a ≤ S1x12160.size a)
    (inb' : ∀ a, (![0, off] : Fin 2 → Nat) a + (![128, 128] : Fin 2 → Nat) a ≤ S128x13440.size a)
    (r s : Fin 128) :
    (if hs : s.val < 64 then x0 (ix3 r i0 ⟨s.val, hs⟩) * x0 (ix3 r j0 ⟨s.val, hs⟩)
      else x0 (ix3 r i1 ⟨s.val - 64, by have := s.isLt; omega⟩) * x0 (ix3 r j1 ⟨s.val - 64, by have := s.isLt; omega⟩))
        * View.ld (Val := Elt Ideal) (e' := EltTy.f32) x1 (Rect.unit (s := S1x12160) ![0, o] ![1, 128] inb) (ix2 (0 : Fin 1) s)
      = blockFn x0 x1 ((Rect.unit (s := S128x13440) ![0, off] ![128, 128] inb').emb (ix2 r s)) := by
  subst ho hoff h0 h1 h2 h3
  have hs' := s.isLt
  have key : ∀ (a a' : Fin 190) (b b' : Fin 64), a = a' → b = b' →
      x0 (ix3 r (fstItem a) b) * x0 (ix3 r (sndItem a) b) = x0 (ix3 r (fstItem a') b') * x0 (ix3 r (sndItem a') b') := by
    rintro a _ b _ rfl rfl; rfl
  have hr : ((Rect.unit (s := S128x13440) ![0, 1280 + 128 * q] ![128, 128] inb').emb (ix2 r s)) 0 = r :=
    Fin.ext (by show 0 + 1 * r.val = r.val; omega)
  have hc : (((Rect.unit (s := S128x13440) ![0, 1280 + 128 * q] ![128, 128] inb').emb (ix2 r s)) 1).val = 1280 + 128 * q + s.val := by
    show 1280 + 128 * q + 1 * s.val = _; omega
  show _ = blockAt x0 x1 _ _
  rw [hr]
  generalize ((Rect.unit (s := S128x13440) ![0, 1280 + 128 * q] ![128, 128] inb').emb (ix2 r s)) 1 = c at hc
  obtain ⟨cv, hcv⟩ := c
  simp only at hc
  subst hc
  unfold blockAt
  rw [dif_neg (show ¬ (⟨1280 + 128 * q + s.val, hcv⟩ : Fin 13440).val < 1280 from by show ¬ (1280 + 128 * q + s.val < 1280); omega)]
  have hw : View.ld (Val := Elt Ideal) (e' := EltTy.f32) x1 (Rect.unit (s := S1x12160) ![0, 128 * q] ![1, 128] inb) (ix2 (0 : Fin 1) s)
      = x1 (ix2 (0 : Fin 1) (⟨1280 + 128 * q + s.val - 1280, by omega⟩ : Fin 12160)) := by
    show x1 _ = x1 _
    congr 1
    funext a
    match a with
    | ⟨0, _⟩ => exact Fin.ext (by show 0 + 1 * 0 = 0; omega)
    | ⟨1, _⟩ => exact Fin.ext (by show 128 * q + 1 * s.val = 1280 + 128 * q + s.val - 1280; omega)
  rw [hw]
  by_cases hs : s.val < 64
  · rw [dif_pos hs]
    exact congrArg (· * _) (key _ _ _ _ (Fin.ext (by show 2 * q = (1280 + 128 * q + s.val - 1280) / 64; omega))
      (Fin.ext (by show s.val = (1280 + 128 * q + s.val) % 64; omega)))
  · rw [dif_neg hs]
    exact congrArg (· * _) (key _ _ _ _ (Fin.ext (by show 2 * q + 1 = (1280 + 128 * q + s.val - 1280) / 64; omega))
      (Fin.ext (by show s.val - 64 = (1280 + 128 * q + s.val) % 64; omega)))

/-- `pair_final` with the pair number read off the weight offset `o` (a multiple of 128). -/
theorem pair_piece (x0 : FVec Ideal S128x20x64 .f32) (x1 : FVec Ideal S1x12160 .f32)
    (o off : Nat) (hq : o / 128 < 95) (ho : o = 128 * (o / 128)) (hoff : off = 1280 + o) (i0 j0 i1 j1 : Fin 20)
    (h0 : fstItem ⟨2 * (o / 128), by omega⟩ = i0) (h1 : sndItem ⟨2 * (o / 128), by omega⟩ = j0)
    (h2 : fstItem ⟨2 * (o / 128) + 1, by omega⟩ = i1) (h3 : sndItem ⟨2 * (o / 128) + 1, by omega⟩ = j1)
    (inb : ∀ a, (![0, o] : Fin 2 → Nat) a + (![1, 128] : Fin 2 → Nat) a ≤ S1x12160.size a)
    (inb' : ∀ a, (![0, off] : Fin 2 → Nat) a + (![128, 128] : Fin 2 → Nat) a ≤ S128x13440.size a)
    (r s : Fin 128) :
    (if hs : s.val < 64 then x0 (ix3 r i0 ⟨s.val, hs⟩) * x0 (ix3 r j0 ⟨s.val, hs⟩)
      else x0 (ix3 r i1 ⟨s.val - 64, by have := s.isLt; omega⟩) * x0 (ix3 r j1 ⟨s.val - 64, by have := s.isLt; omega⟩))
        * View.ld (Val := Elt Ideal) (e' := EltTy.f32) x1 (Rect.unit (s := S1x12160) ![0, o] ![1, 128] inb) (ix2 (0 : Fin 1) s)
      = blockFn x0 x1 ((Rect.unit (s := S128x13440) ![0, off] ![128, 128] inb').emb (ix2 r s)) :=
  pair_final x0 x1 (o / 128) hq i0 j0 i1 j1 h0 h1 h2 h3 o off ho (by omega) inb inb' r s

/-- A property of the head and of every member of the tail holds of every member of the list. -/
theorem forall_mem_cons' {α : Type} {P : α → Prop} {a : α} {l : List α} (ha : P a) (hl : ∀ p ∈ l, P p) :
    ∀ p ∈ a :: l, P p := fun p hp => by
  rcases List.mem_cons.mp hp with rfl | h
  · exact ha
  · exact hl p h

/-! ## The block one run leaves -/

/-- The 96 pieces the body's run ends with are each a block of `blockFn x0 x1`, and they cover the output block: read
    back, they are `blockFn x0 x1`. The 95 pair pieces come first (last stored first), then the piece of the items. -/
theorem out0_A_2_eq (c : Dev nD) (i : grid0.Coords) (arg1 : Memref sig .tc .vmem S128x20x64 .f32) (harg1 : arg1.IsWhole) (arg2 : Memref sig .tc .vmem S1x12160 .f32) (harg2 : arg2.IsWhole) (arg3 : Memref sig .tc .vmem S128x13440 .f32) (harg3 : arg3.IsWhole) (x0 : Vec Ideal S128x20x64 .f32) (x1 : Vec Ideal S1x12160 .f32) :
      Cert.KernelIdeal.Gen.out0_A_2 (F := Ideal) c i arg1 harg1 arg2 harg2 arg3 harg3 x0 x1 = Cert.PairFeatures.blockFn x0 x1 := by
  funext y
  unfold out0_A_2
  rw [View.read_writes_eq_canon _ _ _ (cover0_A_2 (F := Ideal) c i arg1 harg1 arg2 harg2 arg3 harg3 x0 x1)]
  refine View.canon_apply_of_pieces (Cert.PairFeatures.blockFn x0 x1) _ ?_ y (cover0_A_2 (F := Ideal) c i arg1 harg1 arg2 harg2 arg3 harg3 x0 x1 y)
  unfold kernelRun0_A
  dsimp only
  sl_unfold_words
  -- the loads of the two whole input blocks read `x0` and the 128 weights from an offset of `x1`
  simp only [View.readAt_eq_ld, harg1.read_unread, harg2.read_unread, View.ld_unit_zero (S := S128x20x64) hz3]
  -- a pair piece at row `r`, column `s`: its value read through the layout operations, then `pair_piece`
  iterate 95
    refine forall_mem_cons' ?_ ?_
    · dsimp only
      intro x
      obtain ⟨r, s, rfl⟩ : ∃ (r : Fin 128) (s : Fin 128), x = ix2 r s := ⟨x 0, x 1, eq_ix2 x⟩
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, shapeCast_self, mulf_apply, cat_apply, item_apply, spread_apply]
      refine pair_piece x0 x1 _ _ ?_ ?_ ?_ _ _ _ _ ?_ ?_ ?_ ?_ _ _ r s <;> decide
  -- the piece of the items
  refine forall_mem_cons' ?_ ?_
  · dsimp only
    intro x
    obtain ⟨r, k, rfl⟩ : ∃ (r : Fin 128) (k : Fin 1280), x = ix2 r k := ⟨x 0, x 1, eq_ix2 x⟩
    simp only [k0_pay4, k0_pay3, shapeCast_self]
    exact single_final x0 x1 _ _ r k
  · exact fun _ h => absurd h List.not_mem_nil

end Cert.PairBlocks

end
-- ==== Proof.KernelHost.lean ====
/-
  What the kernel program's host operations leave in the two arrays its call stages.

  Before the call the program computes, on the host, the looked-up embeddings (a wrap of the index words, a clamping
  gather, and a fill of the NaN pattern off the table: \`Cert.Lookup.takeFill\` of the embedding table and the index
  words) and a row of 12160 pair weights. The row is built from two tables of 190 words, the first and the second item
  of each unordered pair of the 20 items: each table becomes a column of start indices, the 20 weights are gathered by
  each column (a gather reads its start index signed and clamps it to the operand, which is how \`itemOf\` reads a word),
  the two gathered vectors are multiplied, the 190 products are repeated 64 times each, and the 190 × 64 rectangle is
  laid out as one row. Entry \`64 p + d\` of the row is therefore the product of pair \`p\`'s two item weights.
-/
import proofs.«426756_j5592047419688_3_alg».proof.Proof.Gen.KernelIdeal.Frame
import proofs.«426756_j5592047419688_3_alg».proof.Proof.Lookup
import proofs.«426756_j5592047419688_3_alg».proof.Proof.PairFeatures
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

noncomputable section

namespace Cert.KernelHost

open Idealize.ShloMosaic Idealize.ShloMosaic.ValueIdx
open Cert.KernelIdeal Cert.KernelIdeal.Facts₀ Cert.KernelIdeal.Facts

variable [Cert.KernelIdeal.Facts]

/-! ## The row of pair weights -/

/-- The column of start indices a table of 190 words becomes. (The words are first passed through a selection between
    \`word + 20\` and \`word\` on a mask that is 0 everywhere, which keeps the words.) -/
def pairColumn (lit : Fin 190 → BitVec 32) : IVec S190x1 32 :=
  broadcastInDim S190x1 ![0] bcast_S190_S190x1_0
    (select (constantI S190 1 0#1)
      (addi (fun i => lit (S190.rowMajor i)) (broadcastInDim S190 ![] bcast_S_S190 (constantI S_ 32 20#32)))
      (fun i => lit (S190.rowMajor i)))

/-- The row of 12160 pair weights: entry 64 p + d is the product of pair p's two item weights, whatever d. -/
def pairWeights {F : FTy → Type} [FloatOps F] (w : FVec F S20 .f32) : FVec F S1x12160 .f32 :=
  shapeCast S1x12160
    (shapeCast S12160
      (broadcastInDim S190x64 ![0] bcast_S190_S190x64_0
        (mulf (Host.gather gather_S20_S190x1_S190_n_0_n_n_0_1_1 w (pairColumn lit0))
          (Host.gather gather_S20_S190x1_S190_n_0_n_n_0_1_1 w (pairColumn lit1))))
      shapeCasts_S190x64_S12160)
    shapeCasts_S12160_S1x12160

/-- Row \`p\` of the column is word \`p\` of the table. -/
theorem pairColumn_apply (lit : Fin 190 → BitVec 32) (p : Fin 190) : pairColumn lit (ix2 p (0 : Fin 1)) = lit p := by
  unfold pairColumn
  rw [broadcastInDim_apply _ _ _ (ix2 p (0 : Fin 1)) (ix1 p) (fun a => by
    obtain rfl : a = 0 := Subsingleton.elim _ _
    rfl)]
  rw [select_apply, constantI_apply, select_zero]
  exact congrArg lit (Fin.ext (Shape.rowMajor_val_one _))

/-- The gather of the weights by a column of 190 start indices: result entry \`p\` is the weight at start index \`p\`,
    read signed and clamped to the 20 weights. -/
theorem gather_entry {α : Type} (w : S20.Idx → α) (idx : IVec S190x1 32) (p : Fin 190) :
    Host.gather gather_S20_S190x1_S190_n_0_n_n_0_1_1 w idx (ix1 p)
      = w (ix1 (Cert.PairFeatures.itemOf (idx (ix2 p (0 : Fin 1))))) := by
  have e := StableHlo.Predicate.gather_take gather_S20_S190x1_S190_n_0_n_n_0_1_1 rfl rfl rfl rfl w idx p (by decide)
  have e1 : (ix1 p : S190.Idx) = Shape.Idx.ofFin p := by
    funext a; match a with | ⟨0, _⟩ => rfl
  have e2 : (StableHlo.Predicate.ixP p : S190x1.Idx) = ix2 p (0 : Fin 1) := by
    funext a; match a with | ⟨0, _⟩ => rfl | ⟨1, _⟩ => rfl
  rw [e1, e]
  congr 1
  funext a
  match a with
  | ⟨0, _⟩ =>
    refine Fin.ext ?_
    show min (idx (StableHlo.Predicate.ixP p)).toInt.toNat (20 - 1) = min (idx (ix2 p (0 : Fin 1))).toInt.toNat 19
    rw [e2]

/-- Entry \`k\` of the row is the product of the two item weights of pair \`k / 64\`. -/
theorem pairWeights_apply (w : FVec Ideal S20 .f32) (k : Fin 12160) :
    pairWeights w (ix2 (0 : Fin 1) k)
      = w (ix1 (Cert.PairFeatures.fstItem ⟨k.val / 64, by omega⟩))
        * w (ix1 (Cert.PairFeatures.sndItem ⟨k.val / 64, by omega⟩)) := by
  have hk := k.isLt
  unfold pairWeights
  -- the row is the vector of 12160 entries, which is the 190 × 64 rectangle read row by row
  rw [shapeCast_a_1a_apply]
  rw [shapeCast_apply _ _ (ix1 k) (ix2 (⟨k.val / 64, by omega⟩ : Fin 190) (⟨k.val % 64, by omega⟩ : Fin 64))
    (by rw [Shape.rowMajor_val_two, Shape.rowMajor_val_one]; show k.val / 64 * 64 + k.val % 64 = k.val; omega)]
  -- the rectangle repeats entry p of the 190 products along row p
  rw [broadcastInDim_apply _ _ _ (ix2 (⟨k.val / 64, by omega⟩ : Fin 190) (⟨k.val % 64, by omega⟩ : Fin 64))
    (ix1 (⟨k.val / 64, by omega⟩ : Fin 190)) (fun a => by
      obtain rfl : a = 0 := Subsingleton.elim _ _
      rfl)]
  rw [mulf_apply, gather_entry, gather_entry, pairColumn_apply, pairColumn_apply]
  rfl

/-! ## The two staged arrays when the call is entered -/

section Entry

variable {F : FTy → Type} [FloatOps F]
variable (m : (ℓ : Loc nD τ sig) → Buf (Elt F) ℓ)

open StableHlo

attribute [local irreducible] Host.gather Host.reduce

/-- The staged embeddings are the lookup, with its fill, of the embedding table by the index words. -/
theorem V_take (c : Dev nD) :
    @Eq (FVec F S4096x20x64 .f32) (Gen.V m c main_v0)
      (Cert.Lookup.takeFill (Gen.V m c main_arg2) (Gen.V m c main_arg1)) := by
  rw [Gen.V_main_arg2, Gen.V_main_arg1]
  dsimp only [Gen.V]
  simp only [Gen.hostOps0, Gen.hostOps0_1, Gen.hostOps0_2, List.flatten_cons, List.flatten_nil, List.append_nil,
    List.cons_append, List.nil_append]
  after_results_simp
  simp only [TRef.ofBuf, TRef.toBuf, cast_eq]
  rfl

/-- The staged row is the row of pair weights of the 20 item weights. -/
theorem V_pairWeights (c : Dev nD) :
    @Eq (FVec F S1x12160 .f32) (Gen.V m c main_v14) (pairWeights (Gen.V m c main_arg3)) := by
  rw [Gen.V_main_arg3]
  dsimp only [Gen.V]
  simp only [Gen.hostOps0, Gen.hostOps0_1, Gen.hostOps0_2, List.flatten_cons, List.flatten_nil, List.append_nil,
    List.cons_append, List.nil_append]
  after_results_simp
  rfl

end Entry

end Cert.KernelHost

end
-- ==== Proof.KernelValue.lean ====
/-
  The idealized kernel's result array, read: the state representation of the looked-up embeddings and the item weights.

  The pallas_call walks 32 grid points; point `t` stages rows `128 t … 128 t + 127` of the gathered embeddings
  (a block of 128 × 20 × 64), the whole row of 12160 pair weights, and writes back rows `128 t … 128 t + 127` of the
  result (a block of 128 × 13440). One run of the body leaves in that block the block form of the state
  representation (`blockFn`) of the two staged blocks; read through the block's rows that is the state
  representation of the whole arrays, because row `r` of the block is row `128 t + r` of the arrays and entry
  `64 p + d` of the weight row is pair `p`'s weight product. The 32 blocks cover the 4096 rows, so the array ends
  holding the state representation everywhere.
-/
import proofs.«426756_j5592047419688_3_alg».proof.Proof.Gen.KernelIdeal.Value
import proofs.«426756_j5592047419688_3_alg».proof.Proof.PairFeatures
import proofs.«426756_j5592047419688_3_alg».proof.Proof.Lookup
import proofs.«426756_j5592047419688_3_alg».proof.Proof.PairBlocks
import proofs.«426756_j5592047419688_3_alg».proof.Proof.KernelHost
import Idealize.ShloMosaic.Lib.Pipeline.Value
import Idealize.ShloMosaic.Lib.ValueIdx

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Cert.PairFeatures
open Idealize.ShloMosaic.Pipeline (Dat)

variable (m : (ℓ : Loc nD τ sig) → Buf (Elt Ideal) ℓ) (ρ : Dev nD → PrngReg)

/-- The gathered embeddings as the region finds them. -/
abbrev embArr (c : Dev nD) : FVec Ideal S4096x20x64 .f32 := V m c main_v0
/-- The row of pair weights as the region finds it. -/
abbrev weightRow (c : Dev nD) : FVec Ideal S1x12160 .f32 := V m c main_v14
/-- Point `t`'s block of embeddings. -/
abbrev embBlock (c : Dev nD) (t : Fin cfg0.N) : FVec Ideal S128x20x64 .f32 := iblk m c 0 t
/-- Point `t`'s block of pair weights (the whole row, at every point). -/
abbrev weightBlock (c : Dev nD) (t : Fin cfg0.N) : FVec Ideal S1x12160 .f32 := iblk m c 1 t

/-- The printed index maps over the 32 points: the embeddings and the result move by blocks of rows with the point,
    the weight row stays. -/
theorem idx_facts : ∀ t : Fin cfg0.N, win0_0.index t (0 : Fin 3) = t.val ∧ win0_0.index t (1 : Fin 3) = 0
    ∧ win0_0.index t (2 : Fin 3) = 0 ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 32 := by
  have h : cfg0.N = 32 := N_0
  have := t.isLt
  omega

/-- Row `r` of point `t`'s block of embeddings is row `128 t + r` of the array. -/
theorem embBlock_apply (c : Dev nD) (t : Fin cfg0.N) (r : Fin 128) (n : Fin 20) (d : Fin 64) :
    embBlock m c t (ix3 r n d)
      = embArr m c (ix3 (⟨128 * t.val + r.val, by have := point_lt t; omega⟩ : Fin 4096) n d) := by
  obtain ⟨e0, e1, e2, -⟩ := idx_facts t
  show V m c main_v0 (((cfg0.win 0).blk t).view.emb (ix3 r n d)) = V m c main_v0 (ix3 _ n d)
  refine congrArg (V m c main_v0) (funext fun a => Fin.ext ?_)
  match a with
  | ⟨0, _⟩ => show win0_0.index t (0 : Fin 3) * 128 + 1 * r.val = 128 * t.val + r.val; rw [e0]; omega
  | ⟨1, _⟩ => show win0_0.index t (1 : Fin 3) * 20 + 1 * n.val = n.val; rw [e1]; omega
  | ⟨2, _⟩ => show win0_0.index t (2 : Fin 3) * 64 + 1 * d.val = d.val; rw [e2]; omega

/-- Every point's block of pair weights is the whole row. -/
theorem weightBlock_apply (c : Dev nD) (t : Fin cfg0.N) (k : Fin 12160) :
    weightBlock m c t (ix2 (0 : Fin 1) k) = weightRow m c (ix2 (0 : Fin 1) k) := by
  obtain ⟨-, -, -, e3, e4, -⟩ := idx_facts t
  show V m c main_v14 (((cfg0.win 1).blk t).view.emb (ix2 (0 : Fin 1) k)) = V m c main_v14 (ix2 (0 : Fin 1) k)
  refine congrArg (V m c main_v14) (funext fun a => Fin.ext ?_)
  match a with
  | ⟨0, _⟩ => show win0_1.index t (0 : Fin 2) * 1 + 1 * 0 = 0; rw [e3]
  | ⟨1, _⟩ => show win0_1.index t (1 : Fin 2) * 12160 + 1 * k.val = k.val; rw [e4]; omega

/-- Row `r` of point `t`'s block of the result is row `128 t + r` of the array. -/
theorem outBlock_emb (t : Fin cfg0.N) (r : Fin 128) (k : Fin 13440) :
    ((cfg0.win 2).blk t).view.emb (ix2 r k)
      = ix2 (⟨128 * t.val + r.val, by have := point_lt t; omega⟩ : Fin 4096) k := by
  obtain ⟨-, -, -, -, -, e5, e6⟩ := idx_facts t
  refine funext fun a => Fin.ext ?_
  match a with
  | ⟨0, _⟩ => show win0_2.index t (0 : Fin 2) * 128 + 1 * r.val = 128 * t.val + r.val; rw [e5]; omega
  | ⟨1, _⟩ => show win0_2.index t (1 : Fin 2) * 13440 + 1 * k.val = k.val; rw [e6]; omega

/-- The block form of the state representation, of point `t`'s two blocks, is the state representation of the arrays
    at row `128 t + r`: the embeddings' rows shift with the block, and the weight row holds each pair's weight product. -/
theorem blockAt_eq (c : Dev nD) (t : Fin cfg0.N) (r : Fin 128) (k : Fin 13440) :
    blockAt (embBlock m c t) (weightBlock m c t) r k
      = stateAt (embArr m c) (V m c main_arg3) (⟨128 * t.val + r.val, by have := point_lt t; omega⟩ : Fin 4096) k := by
  unfold blockAt stateAt
  split
  · exact embBlock_apply m c t r _ _
  · rw [embBlock_apply, embBlock_apply, weightBlock_apply]
    show _ * weightRow m c (ix2 (0 : Fin 1) _) = _
    rw [show weightRow m c = Cert.KernelHost.pairWeights (V m c main_arg3) from Cert.KernelHost.V_pairWeights m c,
      Cert.KernelHost.pairWeights_apply]

/-- WHAT POINT `t` WRITES BACK is block `t` of the state representation of the arrays as the region finds them. -/
theorem flushed_eq (c : Dev nD) (t : Fin cfg0.N) :
    (dats m 0 c).flushed 2 t
      = ((cfg0.win 2).blk t).view.read (Elt Ideal) (stateRepr (embArr m c) (V m c main_arg3)) := by
  rw [Cert.KernelIdeal.Value.flushed2_A, Cert.PairBlocks.out0_A_2_eq]
  funext j
  obtain ⟨r, k, rfl⟩ : ∃ (r : Fin 128) (k : Fin 13440), j = ix2 r k := ⟨j 0, j 1, eq_ix2 j⟩
  show blockAt (embBlock m c t) (weightBlock m c t) r k
    = stateRepr (embArr m c) (V m c main_arg3) (((cfg0.win 2).blk t).view.emb (ix2 r k))
  rw [outBlock_emb, blockAt_eq]
  rfl

/-- Every index of the result array lies in the block of the point that holds its row. -/
theorem cover (i : S4096x13440.Idx) :
    ∃ t : Fin cfg0.N, (cfg0.win 2).flush t = true ∧ i ∈ ((cfg0.win 2).blk t).view.set := by
  have hi0 : (i 0 : Nat) < 4096 := (i 0).isLt
  have hi1 : (i 1 : Nat) < 13440 := (i 1).isLt
  have hN : cfg0.N = 32 := N_0
  obtain ⟨t, ht⟩ : ∃ t : Fin cfg0.N, t.val = (i 0 : Nat) / 128 := ⟨⟨(i 0 : Nat) / 128, by rw [hN]; omega⟩, rfl⟩
  obtain ⟨-, -, -, -, -, e5, e6⟩ := idx_facts t
  refine ⟨t, flush0_2 t, ?_⟩
  show i ∈ ((View.whole main_v15).slice (win0_2.rect t)).set
  rw [View.set_slice_whole, Rect.mem_set_unit]
  intro a
  match a with
  | ⟨0, _⟩ =>
    show win0_2.index t (0 : Fin 2) * 128 ≤ (i 0 : Nat) ∧ (i 0 : Nat) < win0_2.index t (0 : Fin 2) * 128 + 128
    rw [e5, ht]; omega
  | ⟨1, _⟩ =>
    show win0_2.index t (1 : Fin 2) * 13440 ≤ (i 1 : Nat) ∧ (i 1 : Nat) < win0_2.index t (1 : Fin 2) * 13440 + 13440
    rw [e6]; omega

/-- THE ARRAY after the run: the state representation of the looked-up embeddings and the weights. -/
theorem final (c : Dev nD) :
    (dats m 0 c).arrAt 2 cfg0.N = stateRepr (embArr m c) (V m c main_arg3) :=
  (dats m 0 c).arrAt_eq_of_cover 2 (stateRepr (embArr m c) (V m c main_arg3)) (fun t _ => flushed_eq m c t) cover

/-- The idealized kernel's run, read: the result array is the state representation of the filled lookup of the
    launch's index words in its table, and of its weights; the arguments are unchanged. -/
theorem run : θ_run defs (onTc (τ := τ) (main (F := Ideal))) ⟨m, fun _ => 0, ρ⟩ fun r => ∀ c : Dev nD,
      r.2.mem ((c : Thread nD τ).loc main_v15)
        = stateRepr (Cert.Lookup.takeFill (m ((c : Thread nD τ).loc main_arg2)) (m ((c : Thread nD τ).loc main_arg1)))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by
      rw [show embArr m c = Cert.Lookup.takeFill (V m c main_arg2) (V m c main_arg1) from Cert.KernelHost.V_take m c,
        V_main_arg1, V_main_arg2, V_main_arg3])), (h c).2⟩)
    (Cert.KernelIdeal.Value.run_blocks m ρ)

end Cert.KernelIdeal.KernelValue

end
-- ==== Proof.ReferenceOps.lean ====
/- GENERATED by `bun scratch/layout_reference.js ops > proof/Proof/ReferenceOps.lean` in the unit directory, from proof/ReferenceIdeal.lean:
   the reference's @main as the LIST of its 169 host operations, in order, each outlined function's body inlined at its
   call over the call's buffer record; and that every operation touches TensorCore buffers only. -/
import proofs.«426756_j5592047419688_3_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- @main's 169 operations, in order. -/
abbrev ops : List (HloOp τ sig (Elt F)) :=
  [ StableHlo.nullary main_c (constantI S_ 32 0#32),
    StableHlo.unary main_c main_v0 (broadcastInDim S4096x20 ![] bcast_S_S4096x20 : (⟨S_, .i32⟩ : BufTy).Contents (Elt F) → (⟨S4096x20, .i32⟩ : BufTy).Contents (Elt F)),
    StableHlo.binary main_arg1 main_v0 main_v1 (cmpi .slt : (⟨S4096x20, .i32⟩ : BufTy).Contents (Elt F) → (⟨S4096x20, .i32⟩ : BufTy).Contents (Elt F) → (⟨S4096x20, .i1⟩ : BufTy).Contents (Elt F)),
    StableHlo.nullary main_c_0 (constantI S_ 32 100001#32),
    StableHlo.unary main_c_0 main_v2 (broadcastInDim S4096x20 ![] bcast_S_S4096x20 : (⟨S_, .i32⟩ : BufTy).Contents (Elt F) → (⟨S4096x20, .i32⟩ : BufTy).Contents (Elt F)),
    StableHlo.binary main_arg1 main_v2 main_v3 (addi : (⟨S4096x20, .i32⟩ : BufTy).Contents (Elt F) → (⟨S4096x20, .i32⟩ : BufTy).Contents (Elt F) → (⟨S4096x20, .i32⟩ : BufTy).Contents (Elt F)),
    StableHlo.ternary main_v1 main_v3 main_arg1 main_v4 (select : (⟨S4096x20, .i1⟩ : BufTy).Contents (Elt F) → (⟨S4096x20, .i32⟩ : BufTy).Contents (Elt F) → (⟨S4096x20, .i32⟩ : BufTy).Contents (Elt F) → (⟨S4096x20, .i32⟩ : BufTy).Contents (Elt F)),
    StableHlo.unary main_v4 main_v5 (broadcastInDim S4096x20x1 ![0, 1] bcast_S4096x20_S4096x20x1_0_1 : (⟨S4096x20, .i32⟩ : BufTy).Contents (Elt F) → (⟨S4096x20x1, .i32⟩ : BufTy).Contents (Elt F)),
    StableHlo.binary main_arg2 main_v5 main_v6 ((fun x i => Host.gather gather_S100001x64_S4096x20x1_S4096x20x64_2_0_n_n_0_2_164 x i) : (⟨S100001x64, .f32⟩ : BufTy).Contents (Elt F) → (⟨S4096x20x1, .i32⟩ : BufTy).Contents (Elt F) → (⟨S4096x20x64, .f32⟩ : BufTy).Contents (Elt F)),
    StableHlo.nullary main_cst (constant S_ .f32 0x3F800000#32),
    StableHlo.unary main_cst main_v7 (broadcastInDim S20x20 ![] bcast_S_S20x20 : (⟨S_, .f32⟩ : BufTy).Contents (Elt F) → (⟨S20x20, .f32⟩ : BufTy).Contents (Elt F)),
    StableHlo.TRef.nullary main_call0.v0 (iotaInDim S20x20 32 0),
    StableHlo.TRef.nullary main_call0.c (constantI S_ 32 0#32),
    StableHlo.TRef.unary main_call0.c main_call0.v1 (broadcastInDim S20x20 ![] bcast_S_S20x20),
    StableHlo.TRef.binary main_call0.v0 main_call0.v1 main_call0.v2 addi,
    StableHlo.TRef.nullary main_call0.v3 (iotaInDim S20x20 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S20x20 ![] bcast_S_S20x20),
    StableHlo.TRef.ternary main_call0.v4 main_call0.v5 ((.of main_v7) : StableHlo.TRef sig ⟨S20x20, .f32⟩) main_call0.v6 select,
    StableHlo.nullary main_cst_1 (constant S_ .f32 0x00000000#32),
    StableHlo.unary main_cst_1 main_v9 (broadcastInDim S20x20 ![] bcast_S_S20x20 : (⟨S_, .f32⟩ : BufTy).Contents (Elt F) → (⟨S20x20, .f32⟩ : BufTy).Contents (Elt F)),
    StableHlo.binary main_v8 main_v9 main_v10 (cmpf .une : (⟨S20x20, .f32⟩ : BufTy).Contents (Elt F) → (⟨S20x20, .f32⟩ : BufTy).Contents (Elt F) → (⟨S20x20, .i1⟩ : BufTy).Contents (Elt F)),
    StableHlo.TRef.reshape ((.of main_v10) : StableHlo.TRef sig ⟨S20x20, .i1⟩) main_call1.v0 rfl shapeCasts_S20x20_S400,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary (main_call1.v1 : StableHlo.TRef sig ⟨S400, .i32⟩) main_call1.call0.v0 main_call1.call0.v1 (fun x v => Host.reduceWindow IntOp.addi ![400] ![1] ![399] ![0] x v reduceWindows_S400_S400_w400s1p399_0 h_S_),
    StableHlo.nullary main_c_2 (constantI S_ 32 0#32),
    StableHlo.unary main_c_2 main_v12 (broadcastInDim S190 ![] bcast_S_S190 : (⟨S_, .i32⟩ : BufTy).Contents (Elt F) → (⟨S190, .i32⟩ : BufTy).Contents (Elt F)),
    StableHlo.nullary main_c_3 (constantI S_ 32 0#32),
    StableHlo.TRef.unary ((.of main_c_3) : StableHlo.TRef sig ⟨S_, .i32⟩) main_call2.v0 id,
    StableHlo.TRef.unary main_call2.v0 main_call2.v1 (broadcastInDim S400 ![] bcast_S_S400),
    StableHlo.TRef.binary main_call2.v1 ((.of main_v11) : StableHlo.TRef sig ⟨S400, .i32⟩) main_call2.v2 maxsi,
    StableHlo.nullary main_c_4 (constantI S_ 32 0#32),
    StableHlo.unary main_c_4 main_v14 (broadcastInDim S400 ![] bcast_S_S400 : (⟨S_, .i32⟩ : BufTy).Contents (Elt F) → (⟨S400, .i32⟩ : BufTy).Contents (Elt F)),
    StableHlo.binary main_v13 main_v14 main_v15 (cmpi .slt : (⟨S400, .i32⟩ : BufTy).Contents (Elt F) → (⟨S400, .i32⟩ : BufTy).Contents (Elt F) → (⟨S400, .i1⟩ : BufTy).Contents (Elt F)),
    StableHlo.nullary main_c_5 (constantI S_ 32 190#32),
    StableHlo.unary main_c_5 main_v16 (broadcastInDim S400 ![] bcast_S_S400 : (⟨S_, .i32⟩ : BufTy).Contents (Elt F) → (⟨S400, .i32⟩ : BufTy).Contents (Elt F)),
    StableHlo.binary main_v13 main_v16 main_v17 (addi : (⟨S400, .i32⟩ : BufTy).Contents (Elt F) → (⟨S400, .i32⟩ : BufTy).Contents (Elt F) → (⟨S400, .i32⟩ : BufTy).Contents (Elt F)),
    StableHlo.ternary main_v15 main_v17 main_v13 main_v18 (select : (⟨S400, .i1⟩ : BufTy).Contents (Elt F) → (⟨S400, .i32⟩ : BufTy).Contents (Elt F) → (⟨S400, .i32⟩ : BufTy).Contents (Elt F) → (⟨S400, .i32⟩ : BufTy).Contents (Elt F)),
    StableHlo.unary main_v18 main_v19 (broadcastInDim S400x1 ![0] bcast_S400_S400x1_0 : (⟨S400, .i32⟩ : BufTy).Contents (Elt F) → (⟨S400x1, .i32⟩ : BufTy).Contents (Elt F)),
    StableHlo.nullary main_c_6 (constantI S_ 32 1#32),
    StableHlo.unary main_c_6 main_v20 (broadcastInDim S400 ![] bcast_S_S400 : (⟨S_, .i32⟩ : BufTy).Contents (Elt F) → (⟨S400, .i32⟩ : BufTy).Contents (Elt F)),
    StableHlo.ternary main_v12 main_v19 main_v20 main_v21 ((fun x i u => Host.scatter scatter_S190_S400x1_S400_n_0_0_1 IntOp.addi x i u) : (⟨S190, .i32⟩ : BufTy).Contents (Elt F) → (⟨S400x1, .i32⟩ : BufTy).Contents (Elt F) → (⟨S400, .i32⟩ : BufTy).Contents (Elt F) → (⟨S190, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (((.of main_v21) : StableHlo.TRef sig ⟨S190, .i32⟩) : StableHlo.TRef sig ⟨S190, .i32⟩) main_call3.call0.v0 main_call3.call0.v1 (fun x v => Host.reduceWindow IntOp.addi ![190] ![1] ![189] ![0] x v reduceWindows_S190_S190_w190s1p189_0 h_S_),
    StableHlo.nullary main_c_7 (constantI S_ 32 20#32),
    StableHlo.TRef.unary ((.of main_c_7) : StableHlo.TRef sig ⟨S_, .i32⟩) main_call4.v0 (broadcastInDim S190 ![] bcast_S_S190),
    StableHlo.TRef.binary ((.of main_v22) : StableHlo.TRef sig ⟨S190, .i32⟩) main_call4.v0 main_call4.v1 Host.divsi,
    StableHlo.TRef.unary ((.of main_v22) : StableHlo.TRef sig ⟨S190, .i32⟩) main_call4.v2 signi,
    StableHlo.TRef.unary ((.of main_c_7) : StableHlo.TRef sig ⟨S_, .i32⟩) main_call4.v3 signi,
    StableHlo.TRef.unary main_call4.v3 main_call4.v4 (broadcastInDim S190 ![] bcast_S_S190),
    StableHlo.TRef.binary main_call4.v2 main_call4.v4 main_call4.v5 (cmpi .ne),
    StableHlo.TRef.unary ((.of main_c_7) : StableHlo.TRef sig ⟨S_, .i32⟩) main_call4.v6 (broadcastInDim S190 ![] bcast_S_S190),
    StableHlo.TRef.binary ((.of main_v22) : StableHlo.TRef sig ⟨S190, .i32⟩) main_call4.v6 main_call4.v7 Host.remsi,
    StableHlo.TRef.nullary main_call4.c (constantI S_ 32 0#32),
    StableHlo.TRef.unary main_call4.c main_call4.v8 (broadcastInDim S190 ![] bcast_S_S190),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S190 ![] bcast_S_S190),
    StableHlo.TRef.binary main_call4.v1 main_call4.v11 main_call4.v12 subi,
    StableHlo.TRef.ternary (main_call4.v10 : StableHlo.TRef sig ⟨S190, .i1⟩) (main_call4.v12 : StableHlo.TRef sig ⟨S190, .i32⟩) (main_call4.v1 : StableHlo.TRef sig ⟨S190, .i32⟩) main_call4.call0.v0 select,
    StableHlo.nullary main_c_8 (constantI S_ 32 20#32),
    StableHlo.TRef.unary ((.of main_c_8) : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary (main_call5.v1 : StableHlo.TRef sig ⟨S_, .i1⟩) (main_call5.c_0 : StableHlo.TRef sig ⟨S_, .i32⟩) (main_call5.v0 : StableHlo.TRef sig ⟨S_, .i32⟩) main_call5.call0.v0 select,
    StableHlo.TRef.unary main_call5.call0.v0 main_call5.v3 (broadcastInDim S190 ![] bcast_S_S190),
    StableHlo.TRef.binary ((.of main_v23) : StableHlo.TRef sig ⟨S190, .i32⟩) main_call5.v3 main_call5.v4 Host.remsi,
    StableHlo.TRef.nullary main_call5.c_1 (constantI S_ 32 0#32),
    StableHlo.TRef.unary main_call5.c_1 main_call5.v5 (broadcastInDim S190 ![] bcast_S_S190),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S190 ![] bcast_S_S190),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S190 ![] bcast_S_S190),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S190 ![] bcast_S_S190),
    StableHlo.TRef.binary main_call5.v4 main_call5.v13 main_call5.v14 addi,
    StableHlo.TRef.ternary main_call5.v12 main_call5.v14 main_call5.v4 main_call5.v15 select,
    StableHlo.nullary main_c_9 (constantI S_ 32 1#32),
    StableHlo.TRef.unary ((.of main_c_9) : StableHlo.TRef sig ⟨S_, .i32⟩) main_call6.v0 (broadcastInDim S190 ![] bcast_S_S190),
    StableHlo.TRef.binary ((.of main_v22) : StableHlo.TRef sig ⟨S190, .i32⟩) main_call6.v0 main_call6.v1 Host.divsi,
    StableHlo.TRef.unary ((.of main_v22) : StableHlo.TRef sig ⟨S190, .i32⟩) main_call6.v2 signi,
    StableHlo.TRef.unary ((.of main_c_9) : StableHlo.TRef sig ⟨S_, .i32⟩) main_call6.v3 signi,
    StableHlo.TRef.unary main_call6.v3 main_call6.v4 (broadcastInDim S190 ![] bcast_S_S190),
    StableHlo.TRef.binary main_call6.v2 main_call6.v4 main_call6.v5 (cmpi .ne),
    StableHlo.TRef.unary ((.of main_c_9) : StableHlo.TRef sig ⟨S_, .i32⟩) main_call6.v6 (broadcastInDim S190 ![] bcast_S_S190),
    StableHlo.TRef.binary ((.of main_v22) : StableHlo.TRef sig ⟨S190, .i32⟩) main_call6.v6 main_call6.v7 Host.remsi,
    StableHlo.TRef.nullary main_call6.c (constantI S_ 32 0#32),
    StableHlo.TRef.unary main_call6.c main_call6.v8 (broadcastInDim S190 ![] bcast_S_S190),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S190 ![] bcast_S_S190),
    StableHlo.TRef.binary main_call6.v1 main_call6.v11 main_call6.v12 subi,
    StableHlo.TRef.ternary (main_call6.v10 : StableHlo.TRef sig ⟨S190, .i1⟩) (main_call6.v12 : StableHlo.TRef sig ⟨S190, .i32⟩) (main_call6.v1 : StableHlo.TRef sig ⟨S190, .i32⟩) main_call6.call0.v0 select,
    StableHlo.nullary main_c_10 (constantI S_ 32 20#32),
    StableHlo.TRef.unary ((.of main_c_10) : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary (main_call7.v1 : StableHlo.TRef sig ⟨S_, .i1⟩) (main_call7.c_0 : StableHlo.TRef sig ⟨S_, .i32⟩) (main_call7.v0 : StableHlo.TRef sig ⟨S_, .i32⟩) main_call7.call0.v0 select,
    StableHlo.TRef.unary main_call7.call0.v0 main_call7.v3 (broadcastInDim S190 ![] bcast_S_S190),
    StableHlo.TRef.binary ((.of main_v25) : StableHlo.TRef sig ⟨S190, .i32⟩) main_call7.v3 main_call7.v4 Host.remsi,
    StableHlo.TRef.nullary main_call7.c_1 (constantI S_ 32 0#32),
    StableHlo.TRef.unary main_call7.c_1 main_call7.v5 (broadcastInDim S190 ![] bcast_S_S190),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S190 ![] bcast_S_S190),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S190 ![] bcast_S_S190),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S190 ![] bcast_S_S190),
    StableHlo.TRef.binary main_call7.v4 main_call7.v13 main_call7.v14 addi,
    StableHlo.TRef.ternary main_call7.v12 main_call7.v14 main_call7.v4 main_call7.v15 select,
    StableHlo.nullary main_c_11 (constantI S_ 32 0#32),
    StableHlo.unary main_c_11 main_v27 (broadcastInDim S190 ![] bcast_S_S190 : (⟨S_, .i32⟩ : BufTy).Contents (Elt F) → (⟨S190, .i32⟩ : BufTy).Contents (Elt F)),
    StableHlo.binary main_v24 main_v27 main_v28 (cmpi .slt : (⟨S190, .i32⟩ : BufTy).Contents (Elt F) → (⟨S190, .i32⟩ : BufTy).Contents (Elt F) → (⟨S190, .i1⟩ : BufTy).Contents (Elt F)),
    StableHlo.nullary main_c_12 (constantI S_ 32 20#32),
    StableHlo.unary main_c_12 main_v29 (broadcastInDim S190 ![] bcast_S_S190 : (⟨S_, .i32⟩ : BufTy).Contents (Elt F) → (⟨S190, .i32⟩ : BufTy).Contents (Elt F)),
    StableHlo.binary main_v24 main_v29 main_v30 (addi : (⟨S190, .i32⟩ : BufTy).Contents (Elt F) → (⟨S190, .i32⟩ : BufTy).Contents (Elt F) → (⟨S190, .i32⟩ : BufTy).Contents (Elt F)),
    StableHlo.ternary main_v28 main_v30 main_v24 main_v31 (select : (⟨S190, .i1⟩ : BufTy).Contents (Elt F) → (⟨S190, .i32⟩ : BufTy).Contents (Elt F) → (⟨S190, .i32⟩ : BufTy).Contents (Elt F) → (⟨S190, .i32⟩ : BufTy).Contents (Elt F)),
    StableHlo.unary main_v31 main_v32 (broadcastInDim S190x1 ![0] bcast_S190_S190x1_0 : (⟨S190, .i32⟩ : BufTy).Contents (Elt F) → (⟨S190x1, .i32⟩ : BufTy).Contents (Elt F)),
    StableHlo.binary main_arg3 main_v32 main_v33 ((fun x i => Host.gather gather_S20_S190x1_S190_n_0_n_n_0_1_1 x i) : (⟨S20, .f32⟩ : BufTy).Contents (Elt F) → (⟨S190x1, .i32⟩ : BufTy).Contents (Elt F) → (⟨S190, .f32⟩ : BufTy).Contents (Elt F)),
    StableHlo.nullary main_c_13 (constantI S_ 32 0#32),
    StableHlo.unary main_c_13 main_v34 (broadcastInDim S190 ![] bcast_S_S190 : (⟨S_, .i32⟩ : BufTy).Contents (Elt F) → (⟨S190, .i32⟩ : BufTy).Contents (Elt F)),
    StableHlo.binary main_v26 main_v34 main_v35 (cmpi .slt : (⟨S190, .i32⟩ : BufTy).Contents (Elt F) → (⟨S190, .i32⟩ : BufTy).Contents (Elt F) → (⟨S190, .i1⟩ : BufTy).Contents (Elt F)),
    StableHlo.nullary main_c_14 (constantI S_ 32 20#32),
    StableHlo.unary main_c_14 main_v36 (broadcastInDim S190 ![] bcast_S_S190 : (⟨S_, .i32⟩ : BufTy).Contents (Elt F) → (⟨S190, .i32⟩ : BufTy).Contents (Elt F)),
    StableHlo.binary main_v26 main_v36 main_v37 (addi : (⟨S190, .i32⟩ : BufTy).Contents (Elt F) → (⟨S190, .i32⟩ : BufTy).Contents (Elt F) → (⟨S190, .i32⟩ : BufTy).Contents (Elt F)),
    StableHlo.ternary main_v35 main_v37 main_v26 main_v38 (select : (⟨S190, .i1⟩ : BufTy).Contents (Elt F) → (⟨S190, .i32⟩ : BufTy).Contents (Elt F) → (⟨S190, .i32⟩ : BufTy).Contents (Elt F) → (⟨S190, .i32⟩ : BufTy).Contents (Elt F)),
    StableHlo.unary main_v38 main_v39 (broadcastInDim S190x1 ![0] bcast_S190_S190x1_0 : (⟨S190, .i32⟩ : BufTy).Contents (Elt F) → (⟨S190x1, .i32⟩ : BufTy).Contents (Elt F)),
    StableHlo.binary main_arg3 main_v39 main_v40 ((fun x i => Host.gather gather_S20_S190x1_S190_n_0_n_n_0_1_1 x i) : (⟨S20, .f32⟩ : BufTy).Contents (Elt F) → (⟨S190x1, .i32⟩ : BufTy).Contents (Elt F) → (⟨S190, .f32⟩ : BufTy).Contents (Elt F)),
    StableHlo.binary main_v33 main_v40 main_v41 (mulf : (⟨S190, .f32⟩ : BufTy).Contents (Elt F) → (⟨S190, .f32⟩ : BufTy).Contents (Elt F) → (⟨S190, .f32⟩ : BufTy).Contents (Elt F)),
    StableHlo.unary main_v41 main_v42 (broadcastInDim S1x190x1 ![1] bcast_S190_S1x190x1_1 : (⟨S190, .f32⟩ : BufTy).Contents (Elt F) → (⟨S1x190x1, .f32⟩ : BufTy).Contents (Elt F)),
    StableHlo.nullary main_c_15 (constantI S_ 32 0#32),
    StableHlo.unary main_c_15 main_v43 (broadcastInDim S190 ![] bcast_S_S190 : (⟨S_, .i32⟩ : BufTy).Contents (Elt F) → (⟨S190, .i32⟩ : BufTy).Contents (Elt F)),
    StableHlo.binary main_v24 main_v43 main_v44 (cmpi .slt : (⟨S190, .i32⟩ : BufTy).Contents (Elt F) → (⟨S190, .i32⟩ : BufTy).Contents (Elt F) → (⟨S190, .i1⟩ : BufTy).Contents (Elt F)),
    StableHlo.nullary main_c_16 (constantI S_ 32 20#32),
    StableHlo.unary main_c_16 main_v45 (broadcastInDim S190 ![] bcast_S_S190 : (⟨S_, .i32⟩ : BufTy).Contents (Elt F) → (⟨S190, .i32⟩ : BufTy).Contents (Elt F)),
    StableHlo.binary main_v24 main_v45 main_v46 (addi : (⟨S190, .i32⟩ : BufTy).Contents (Elt F) → (⟨S190, .i32⟩ : BufTy).Contents (Elt F) → (⟨S190, .i32⟩ : BufTy).Contents (Elt F)),
    StableHlo.ternary main_v44 main_v46 main_v24 main_v47 (select : (⟨S190, .i1⟩ : BufTy).Contents (Elt F) → (⟨S190, .i32⟩ : BufTy).Contents (Elt F) → (⟨S190, .i32⟩ : BufTy).Contents (Elt F) → (⟨S190, .i32⟩ : BufTy).Contents (Elt F)),
    StableHlo.unary main_v47 main_v48 (broadcastInDim S190x1 ![0] bcast_S190_S190x1_0 : (⟨S190, .i32⟩ : BufTy).Contents (Elt F) → (⟨S190x1, .i32⟩ : BufTy).Contents (Elt F)),
    StableHlo.binary main_v6 main_v48 main_v49 ((fun x i => Host.gather gather_S4096x20x64_S190x1_S4096x190x64_02_1_n_n_1_1_4096164 x i) : (⟨S4096x20x64, .f32⟩ : BufTy).Contents (Elt F) → (⟨S190x1, .i32⟩ : BufTy).Contents (Elt F) → (⟨S4096x190x64, .f32⟩ : BufTy).Contents (Elt F)),
    StableHlo.unary main_v42 main_v50 (broadcastInDim S4096x190x64 ![0, 1, 2] bcast_S1x190x1_S4096x190x64_0_1_2 : (⟨S1x190x1, .f32⟩ : BufTy).Contents (Elt F) → (⟨S4096x190x64, .f32⟩ : BufTy).Contents (Elt F)),
    StableHlo.binary main_v50 main_v49 main_v51 (mulf : (⟨S4096x190x64, .f32⟩ : BufTy).Contents (Elt F) → (⟨S4096x190x64, .f32⟩ : BufTy).Contents (Elt F) → (⟨S4096x190x64, .f32⟩ : BufTy).Contents (Elt F)),
    StableHlo.nullary main_c_17 (constantI S_ 32 0#32),
    StableHlo.unary main_c_17 main_v52 (broadcastInDim S190 ![] bcast_S_S190 : (⟨S_, .i32⟩ : BufTy).Contents (Elt F) → (⟨S190, .i32⟩ : BufTy).Contents (Elt F)),
    StableHlo.binary main_v26 main_v52 main_v53 (cmpi .slt : (⟨S190, .i32⟩ : BufTy).Contents (Elt F) → (⟨S190, .i32⟩ : BufTy).Contents (Elt F) → (⟨S190, .i1⟩ : BufTy).Contents (Elt F)),
    StableHlo.nullary main_c_18 (constantI S_ 32 20#32),
    StableHlo.unary main_c_18 main_v54 (broadcastInDim S190 ![] bcast_S_S190 : (⟨S_, .i32⟩ : BufTy).Contents (Elt F) → (⟨S190, .i32⟩ : BufTy).Contents (Elt F)),
    StableHlo.binary main_v26 main_v54 main_v55 (addi : (⟨S190, .i32⟩ : BufTy).Contents (Elt F) → (⟨S190, .i32⟩ : BufTy).Contents (Elt F) → (⟨S190, .i32⟩ : BufTy).Contents (Elt F)),
    StableHlo.ternary main_v53 main_v55 main_v26 main_v56 (select : (⟨S190, .i1⟩ : BufTy).Contents (Elt F) → (⟨S190, .i32⟩ : BufTy).Contents (Elt F) → (⟨S190, .i32⟩ : BufTy).Contents (Elt F) → (⟨S190, .i32⟩ : BufTy).Contents (Elt F)),
    StableHlo.unary main_v56 main_v57 (broadcastInDim S190x1 ![0] bcast_S190_S190x1_0 : (⟨S190, .i32⟩ : BufTy).Contents (Elt F) → (⟨S190x1, .i32⟩ : BufTy).Contents (Elt F)),
    StableHlo.binary main_v6 main_v57 main_v58 ((fun x i => Host.gather gather_S4096x20x64_S190x1_S4096x190x64_02_1_n_n_1_1_4096164 x i) : (⟨S4096x20x64, .f32⟩ : BufTy).Contents (Elt F) → (⟨S190x1, .i32⟩ : BufTy).Contents (Elt F) → (⟨S4096x190x64, .f32⟩ : BufTy).Contents (Elt F)),
    StableHlo.binary main_v51 main_v58 main_v59 (mulf : (⟨S4096x190x64, .f32⟩ : BufTy).Contents (Elt F) → (⟨S4096x190x64, .f32⟩ : BufTy).Contents (Elt F) → (⟨S4096x190x64, .f32⟩ : BufTy).Contents (Elt F)),
    StableHlo.binary main_v6 main_v59 main_v60 ((fun a b => concatenate S4096x210x64 1 [⟨S4096x20x64, a⟩, ⟨S4096x190x64, b⟩] concatenates_S4096x20x64_S4096x190x64_S4096x210x64_d1) : (⟨S4096x20x64, .f32⟩ : BufTy).Contents (Elt F) → (⟨S4096x190x64, .f32⟩ : BufTy).Contents (Elt F) → (⟨S4096x210x64, .f32⟩ : BufTy).Contents (Elt F)),
    StableHlo.reshape main_v60 main_v61 rfl shapeCasts_S4096x210x64_S4096x13440 ]

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., reshape_bufs_sub ..⟩

end Cert.ReferenceIdeal.Ops

end
-- ==== Proof.ReferenceTerm.lean ====
/- GENERATED by `bun scratch/layout_reference.js term > proof/Proof/ReferenceTerm.lean` in the unit directory, from proof/ReferenceIdeal.lean:
   one pure definition per host operation of the reference's @main, in order (`v_<buffer>`: the operation's function applied to the
   definitions of the buffers it reads; it takes those of the arguments `mem`, `emb`, `w` it depends on; floats are read at `Ideal`), and `refOut`, the result. -/
import proofs.«426756_j5592047419688_3_alg».proof.ReferenceIdeal
import Idealize.ShloMosaic.PureOps.Ideal

noncomputable section

namespace Cert.ReferenceIdeal.Term

open Idealize.ShloMosaic Cert.ReferenceIdeal Cert.ReferenceIdeal.Facts₀ Cert.ReferenceIdeal.Facts

variable [Cert.ReferenceIdeal.Facts]

/-- The contents of `main_c`. -/
def v_main_c : IVec S_ 32 :=
  (constantI S_ 32 0#32)

/-- The contents of `main_v0`. -/
def v_main_v0 : IVec S4096x20 32 :=
  (broadcastInDim S4096x20 ![] bcast_S_S4096x20) v_main_c

/-- The contents of `main_v1`. -/
def v_main_v1 (mem : IVec S4096x20 32) : IVec S4096x20 1 :=
  (cmpi .slt) mem v_main_v0

/-- The contents of `main_c_0`. -/
def v_main_c_0 : IVec S_ 32 :=
  (constantI S_ 32 100001#32)

/-- The contents of `main_v2`. -/
def v_main_v2 : IVec S4096x20 32 :=
  (broadcastInDim S4096x20 ![] bcast_S_S4096x20) v_main_c_0

/-- The contents of `main_v3`. -/
def v_main_v3 (mem : IVec S4096x20 32) : IVec S4096x20 32 :=
  (addi) mem v_main_v2

/-- The contents of `main_v4`. -/
def v_main_v4 (mem : IVec S4096x20 32) : IVec S4096x20 32 :=
  (select) (v_main_v1 mem) (v_main_v3 mem) mem

/-- The contents of `main_v5`. -/
def v_main_v5 (mem : IVec S4096x20 32) : IVec S4096x20x1 32 :=
  (broadcastInDim S4096x20x1 ![0, 1] bcast_S4096x20_S4096x20x1_0_1) (v_main_v4 mem)

/-- The contents of `main_v6`. -/
def v_main_v6 (mem : IVec S4096x20 32) (emb : FVec Ideal S100001x64 .f32) : FVec Ideal S4096x20x64 .f32 :=
  ((fun x i => Host.gather gather_S100001x64_S4096x20x1_S4096x20x64_2_0_n_n_0_2_164 x i)) emb (v_main_v5 mem)

/-- The contents of `main_cst`. -/
def v_main_cst : FVec Ideal S_ .f32 :=
  (constant S_ .f32 0x3F800000#32)

/-- The contents of `main_v7`. -/
def v_main_v7 : FVec Ideal S20x20 .f32 :=
  (broadcastInDim S20x20 ![] bcast_S_S20x20) v_main_cst

/-- The contents of `main_call0_v0`. -/
def v_main_call0_v0 : IVec S20x20 32 :=
  (iotaInDim S20x20 32 0)

/-- The contents of `main_call0_c`. -/
def v_main_call0_c : IVec S_ 32 :=
  (constantI S_ 32 0#32)

/-- The contents of `main_call0_v1`. -/
def v_main_call0_v1 : IVec S20x20 32 :=
  (broadcastInDim S20x20 ![] bcast_S_S20x20) v_main_call0_c

/-- The contents of `main_call0_v2`. -/
def v_main_call0_v2 : IVec S20x20 32 :=
  addi v_main_call0_v0 v_main_call0_v1

/-- The contents of `main_call0_v3`. -/
def v_main_call0_v3 : IVec S20x20 32 :=
  (iotaInDim S20x20 32 1)

/-- The contents of `main_call0_v4`. -/
def v_main_call0_v4 : IVec S20x20 1 :=
  (cmpi .sge) v_main_call0_v2 v_main_call0_v3

/-- The contents of `main_call0_cst`. -/
def v_main_call0_cst : FVec Ideal S_ .f32 :=
  (constant S_ .f32 0x00000000#32)

/-- The contents of `main_call0_v5`. -/
def v_main_call0_v5 : FVec Ideal S20x20 .f32 :=
  (broadcastInDim S20x20 ![] bcast_S_S20x20) v_main_call0_cst

/-- The contents of `main_v8`. -/
def v_main_v8 : FVec Ideal S20x20 .f32 :=
  select v_main_call0_v4 v_main_call0_v5 v_main_v7

/-- The contents of `main_cst_1`. -/
def v_main_cst_1 : FVec Ideal S_ .f32 :=
  (constant S_ .f32 0x00000000#32)

/-- The contents of `main_v9`. -/
def v_main_v9 : FVec Ideal S20x20 .f32 :=
  (broadcastInDim S20x20 ![] bcast_S_S20x20) v_main_cst_1

/-- The contents of `main_v10`. -/
def v_main_v10 : IVec S20x20 1 :=
  (cmpf .une) v_main_v8 v_main_v9

/-- The contents of `main_call1_v0`. -/
def v_main_call1_v0 : IVec S400 1 :=
  shapeCast S400 v_main_v10 shapeCasts_S20x20_S400

/-- The contents of `main_call1_v1`. -/
def v_main_call1_v1 : IVec S400 32 :=
  (extui 32 · natLt_1_32) v_main_call1_v0

/-- The contents of `main_call1_call0_c`. -/
def v_main_call1_call0_c : IVec S_ 32 :=
  (constantI S_ 32 0#32)

/-- The contents of `main_call1_call0_v0`. -/
def v_main_call1_call0_v0 : IVec S_ 32 :=
  (broadcastInDim S_ ![] bcast_S_S_) v_main_call1_call0_c

/-- The contents of `main_v11`. -/
def v_main_v11 : IVec S400 32 :=
  (fun x v => Host.reduceWindow IntOp.addi ![400] ![1] ![399] ![0] x v reduceWindows_S400_S400_w400s1p399_0 h_S_) v_main_call1_v1 v_main_call1_call0_v0

/-- The contents of `main_c_2`. -/
def v_main_c_2 : IVec S_ 32 :=
  (constantI S_ 32 0#32)

/-- The contents of `main_v12`. -/
def v_main_v12 : IVec S190 32 :=
  (broadcastInDim S190 ![] bcast_S_S190) v_main_c_2

/-- The contents of `main_c_3`. -/
def v_main_c_3 : IVec S_ 32 :=
  (constantI S_ 32 0#32)

/-- The contents of `main_call2_v0`. -/
def v_main_call2_v0 : IVec S_ 32 :=
  id v_main_c_3

/-- The contents of `main_call2_v1`. -/
def v_main_call2_v1 : IVec S400 32 :=
  (broadcastInDim S400 ![] bcast_S_S400) v_main_call2_v0

/-- The contents of `main_v13`. -/
def v_main_v13 : IVec S400 32 :=
  maxsi v_main_call2_v1 v_main_v11

/-- The contents of `main_c_4`. -/
def v_main_c_4 : IVec S_ 32 :=
  (constantI S_ 32 0#32)

/-- The contents of `main_v14`. -/
def v_main_v14 : IVec S400 32 :=
  (broadcastInDim S400 ![] bcast_S_S400) v_main_c_4

/-- The contents of `main_v15`. -/
def v_main_v15 : IVec S400 1 :=
  (cmpi .slt) v_main_v13 v_main_v14

/-- The contents of `main_c_5`. -/
def v_main_c_5 : IVec S_ 32 :=
  (constantI S_ 32 190#32)

/-- The contents of `main_v16`. -/
def v_main_v16 : IVec S400 32 :=
  (broadcastInDim S400 ![] bcast_S_S400) v_main_c_5

/-- The contents of `main_v17`. -/
def v_main_v17 : IVec S400 32 :=
  (addi) v_main_v13 v_main_v16

/-- The contents of `main_v18`. -/
def v_main_v18 : IVec S400 32 :=
  (select) v_main_v15 v_main_v17 v_main_v13

/-- The contents of `main_v19`. -/
def v_main_v19 : IVec S400x1 32 :=
  (broadcastInDim S400x1 ![0] bcast_S400_S400x1_0) v_main_v18

/-- The contents of `main_c_6`. -/
def v_main_c_6 : IVec S_ 32 :=
  (constantI S_ 32 1#32)

/-- The contents of `main_v20`. -/
def v_main_v20 : IVec S400 32 :=
  (broadcastInDim S400 ![] bcast_S_S400) v_main_c_6

/-- The contents of `main_v21`. -/
def v_main_v21 : IVec S190 32 :=
  ((fun x i u => Host.scatter scatter_S190_S400x1_S400_n_0_0_1 IntOp.addi x i u)) v_main_v12 v_main_v19 v_main_v20

/-- The contents of `main_call3_call0_c`. -/
def v_main_call3_call0_c : IVec S_ 32 :=
  (constantI S_ 32 0#32)

/-- The contents of `main_call3_call0_v0`. -/
def v_main_call3_call0_v0 : IVec S_ 32 :=
  (broadcastInDim S_ ![] bcast_S_S_) v_main_call3_call0_c

/-- The contents of `main_v22`. -/
def v_main_v22 : IVec S190 32 :=
  (fun x v => Host.reduceWindow IntOp.addi ![190] ![1] ![189] ![0] x v reduceWindows_S190_S190_w190s1p189_0 h_S_) v_main_v21 v_main_call3_call0_v0

/-- The contents of `main_c_7`. -/
def v_main_c_7 : IVec S_ 32 :=
  (constantI S_ 32 20#32)

/-- The contents of `main_call4_v0`. -/
def v_main_call4_v0 : IVec S190 32 :=
  (broadcastInDim S190 ![] bcast_S_S190) v_main_c_7

/-- The contents of `main_call4_v1`. -/
def v_main_call4_v1 : IVec S190 32 :=
  Host.divsi v_main_v22 v_main_call4_v0

/-- The contents of `main_call4_v2`. -/
def v_main_call4_v2 : IVec S190 32 :=
  signi v_main_v22

/-- The contents of `main_call4_v3`. -/
def v_main_call4_v3 : IVec S_ 32 :=
  signi v_main_c_7

/-- The contents of `main_call4_v4`. -/
def v_main_call4_v4 : IVec S190 32 :=
  (broadcastInDim S190 ![] bcast_S_S190) v_main_call4_v3

/-- The contents of `main_call4_v5`. -/
def v_main_call4_v5 : IVec S190 1 :=
  (cmpi .ne) v_main_call4_v2 v_main_call4_v4

/-- The contents of `main_call4_v6`. -/
def v_main_call4_v6 : IVec S190 32 :=
  (broadcastInDim S190 ![] bcast_S_S190) v_main_c_7

/-- The contents of `main_call4_v7`. -/
def v_main_call4_v7 : IVec S190 32 :=
  Host.remsi v_main_v22 v_main_call4_v6

/-- The contents of `main_call4_c`. -/
def v_main_call4_c : IVec S_ 32 :=
  (constantI S_ 32 0#32)

/-- The contents of `main_call4_v8`. -/
def v_main_call4_v8 : IVec S190 32 :=
  (broadcastInDim S190 ![] bcast_S_S190) v_main_call4_c

/-- The contents of `main_call4_v9`. -/
def v_main_call4_v9 : IVec S190 1 :=
  (cmpi .ne) v_main_call4_v7 v_main_call4_v8

/-- The contents of `main_call4_v10`. -/
def v_main_call4_v10 : IVec S190 1 :=
  andi v_main_call4_v5 v_main_call4_v9

/-- The contents of `main_call4_c_0`. -/
def v_main_call4_c_0 : IVec S_ 32 :=
  (constantI S_ 32 1#32)

/-- The contents of `main_call4_v11`. -/
def v_main_call4_v11 : IVec S190 32 :=
  (broadcastInDim S190 ![] bcast_S_S190) v_main_call4_c_0

/-- The contents of `main_call4_v12`. -/
def v_main_call4_v12 : IVec S190 32 :=
  subi v_main_call4_v1 v_main_call4_v11

/-- The contents of `main_v23`. -/
def v_main_v23 : IVec S190 32 :=
  select v_main_call4_v10 v_main_call4_v12 v_main_call4_v1

/-- The contents of `main_c_8`. -/
def v_main_c_8 : IVec S_ 32 :=
  (constantI S_ 32 20#32)

/-- The contents of `main_call5_v0`. -/
def v_main_call5_v0 : IVec S_ 32 :=
  id v_main_c_8

/-- The contents of `main_call5_c`. -/
def v_main_call5_c : IVec S_ 32 :=
  (constantI S_ 32 0#32)

/-- The contents of `main_call5_v1`. -/
def v_main_call5_v1 : IVec S_ 1 :=
  (cmpi .eq) v_main_call5_v0 v_main_call5_c

/-- The contents of `main_call5_c_0`. -/
def v_main_call5_c_0 : IVec S_ 32 :=
  (constantI S_ 32 1#32)

/-- The contents of `main_call5_v2`. -/
def v_main_call5_v2 : IVec S_ 32 :=
  select v_main_call5_v1 v_main_call5_c_0 v_main_call5_v0

/-- The contents of `main_call5_v3`. -/
def v_main_call5_v3 : IVec S190 32 :=
  (broadcastInDim S190 ![] bcast_S_S190) v_main_call5_v2

/-- The contents of `main_call5_v4`. -/
def v_main_call5_v4 : IVec S190 32 :=
  Host.remsi v_main_v23 v_main_call5_v3

/-- The contents of `main_call5_c_1`. -/
def v_main_call5_c_1 : IVec S_ 32 :=
  (constantI S_ 32 0#32)

/-- The contents of `main_call5_v5`. -/
def v_main_call5_v5 : IVec S190 32 :=
  (broadcastInDim S190 ![] bcast_S_S190) v_main_call5_c_1

/-- The contents of `main_call5_v6`. -/
def v_main_call5_v6 : IVec S190 1 :=
  (cmpi .ne) v_main_call5_v4 v_main_call5_v5

/-- The contents of `main_call5_c_2`. -/
def v_main_call5_c_2 : IVec S_ 32 :=
  (constantI S_ 32 0#32)

/-- The contents of `main_call5_v7`. -/
def v_main_call5_v7 : IVec S190 32 :=
  (broadcastInDim S190 ![] bcast_S_S190) v_main_call5_c_2

/-- The contents of `main_call5_v8`. -/
def v_main_call5_v8 : IVec S190 1 :=
  (cmpi .slt) v_main_call5_v4 v_main_call5_v7

/-- The contents of `main_call5_c_3`. -/
def v_main_call5_c_3 : IVec S_ 32 :=
  (constantI S_ 32 0#32)

/-- The contents of `main_call5_v9`. -/
def v_main_call5_v9 : IVec S_ 1 :=
  (cmpi .slt) v_main_call5_v2 v_main_call5_c_3

/-- The contents of `main_call5_v10`. -/
def v_main_call5_v10 : IVec S190 1 :=
  (broadcastInDim S190 ![] bcast_S_S190) v_main_call5_v9

/-- The contents of `main_call5_v11`. -/
def v_main_call5_v11 : IVec S190 1 :=
  (cmpi .ne) v_main_call5_v8 v_main_call5_v10

/-- The contents of `main_call5_v12`. -/
def v_main_call5_v12 : IVec S190 1 :=
  andi v_main_call5_v11 v_main_call5_v6

/-- The contents of `main_call5_v13`. -/
def v_main_call5_v13 : IVec S190 32 :=
  (broadcastInDim S190 ![] bcast_S_S190) v_main_call5_v2

/-- The contents of `main_call5_v14`. -/
def v_main_call5_v14 : IVec S190 32 :=
  addi v_main_call5_v4 v_main_call5_v13

/-- The contents of `main_v24`. -/
def v_main_v24 : IVec S190 32 :=
  select v_main_call5_v12 v_main_call5_v14 v_main_call5_v4

/-- The contents of `main_c_9`. -/
def v_main_c_9 : IVec S_ 32 :=
  (constantI S_ 32 1#32)

/-- The contents of `main_call6_v0`. -/
def v_main_call6_v0 : IVec S190 32 :=
  (broadcastInDim S190 ![] bcast_S_S190) v_main_c_9

/-- The contents of `main_call6_v1`. -/
def v_main_call6_v1 : IVec S190 32 :=
  Host.divsi v_main_v22 v_main_call6_v0

/-- The contents of `main_call6_v2`. -/
def v_main_call6_v2 : IVec S190 32 :=
  signi v_main_v22

/-- The contents of `main_call6_v3`. -/
def v_main_call6_v3 : IVec S_ 32 :=
  signi v_main_c_9

/-- The contents of `main_call6_v4`. -/
def v_main_call6_v4 : IVec S190 32 :=
  (broadcastInDim S190 ![] bcast_S_S190) v_main_call6_v3

/-- The contents of `main_call6_v5`. -/
def v_main_call6_v5 : IVec S190 1 :=
  (cmpi .ne) v_main_call6_v2 v_main_call6_v4

/-- The contents of `main_call6_v6`. -/
def v_main_call6_v6 : IVec S190 32 :=
  (broadcastInDim S190 ![] bcast_S_S190) v_main_c_9

/-- The contents of `main_call6_v7`. -/
def v_main_call6_v7 : IVec S190 32 :=
  Host.remsi v_main_v22 v_main_call6_v6

/-- The contents of `main_call6_c`. -/
def v_main_call6_c : IVec S_ 32 :=
  (constantI S_ 32 0#32)

/-- The contents of `main_call6_v8`. -/
def v_main_call6_v8 : IVec S190 32 :=
  (broadcastInDim S190 ![] bcast_S_S190) v_main_call6_c

/-- The contents of `main_call6_v9`. -/
def v_main_call6_v9 : IVec S190 1 :=
  (cmpi .ne) v_main_call6_v7 v_main_call6_v8

/-- The contents of `main_call6_v10`. -/
def v_main_call6_v10 : IVec S190 1 :=
  andi v_main_call6_v5 v_main_call6_v9

/-- The contents of `main_call6_c_0`. -/
def v_main_call6_c_0 : IVec S_ 32 :=
  (constantI S_ 32 1#32)

/-- The contents of `main_call6_v11`. -/
def v_main_call6_v11 : IVec S190 32 :=
  (broadcastInDim S190 ![] bcast_S_S190) v_main_call6_c_0

/-- The contents of `main_call6_v12`. -/
def v_main_call6_v12 : IVec S190 32 :=
  subi v_main_call6_v1 v_main_call6_v11

/-- The contents of `main_v25`. -/
def v_main_v25 : IVec S190 32 :=
  select v_main_call6_v10 v_main_call6_v12 v_main_call6_v1

/-- The contents of `main_c_10`. -/
def v_main_c_10 : IVec S_ 32 :=
  (constantI S_ 32 20#32)

/-- The contents of `main_call7_v0`. -/
def v_main_call7_v0 : IVec S_ 32 :=
  id v_main_c_10

/-- The contents of `main_call7_c`. -/
def v_main_call7_c : IVec S_ 32 :=
  (constantI S_ 32 0#32)

/-- The contents of `main_call7_v1`. -/
def v_main_call7_v1 : IVec S_ 1 :=
  (cmpi .eq) v_main_call7_v0 v_main_call7_c

/-- The contents of `main_call7_c_0`. -/
def v_main_call7_c_0 : IVec S_ 32 :=
  (constantI S_ 32 1#32)

/-- The contents of `main_call7_v2`. -/
def v_main_call7_v2 : IVec S_ 32 :=
  select v_main_call7_v1 v_main_call7_c_0 v_main_call7_v0

/-- The contents of `main_call7_v3`. -/
def v_main_call7_v3 : IVec S190 32 :=
  (broadcastInDim S190 ![] bcast_S_S190) v_main_call7_v2

/-- The contents of `main_call7_v4`. -/
def v_main_call7_v4 : IVec S190 32 :=
  Host.remsi v_main_v25 v_main_call7_v3

/-- The contents of `main_call7_c_1`. -/
def v_main_call7_c_1 : IVec S_ 32 :=
  (constantI S_ 32 0#32)

/-- The contents of `main_call7_v5`. -/
def v_main_call7_v5 : IVec S190 32 :=
  (broadcastInDim S190 ![] bcast_S_S190) v_main_call7_c_1

/-- The contents of `main_call7_v6`. -/
def v_main_call7_v6 : IVec S190 1 :=
  (cmpi .ne) v_main_call7_v4 v_main_call7_v5

/-- The contents of `main_call7_c_2`. -/
def v_main_call7_c_2 : IVec S_ 32 :=
  (constantI S_ 32 0#32)

/-- The contents of `main_call7_v7`. -/
def v_main_call7_v7 : IVec S190 32 :=
  (broadcastInDim S190 ![] bcast_S_S190) v_main_call7_c_2

/-- The contents of `main_call7_v8`. -/
def v_main_call7_v8 : IVec S190 1 :=
  (cmpi .slt) v_main_call7_v4 v_main_call7_v7

/-- The contents of `main_call7_c_3`. -/
def v_main_call7_c_3 : IVec S_ 32 :=
  (constantI S_ 32 0#32)

/-- The contents of `main_call7_v9`. -/
def v_main_call7_v9 : IVec S_ 1 :=
  (cmpi .slt) v_main_call7_v2 v_main_call7_c_3

/-- The contents of `main_call7_v10`. -/
def v_main_call7_v10 : IVec S190 1 :=
  (broadcastInDim S190 ![] bcast_S_S190) v_main_call7_v9

/-- The contents of `main_call7_v11`. -/
def v_main_call7_v11 : IVec S190 1 :=
  (cmpi .ne) v_main_call7_v8 v_main_call7_v10

/-- The contents of `main_call7_v12`. -/
def v_main_call7_v12 : IVec S190 1 :=
  andi v_main_call7_v11 v_main_call7_v6

/-- The contents of `main_call7_v13`. -/
def v_main_call7_v13 : IVec S190 32 :=
  (broadcastInDim S190 ![] bcast_S_S190) v_main_call7_v2

/-- The contents of `main_call7_v14`. -/
def v_main_call7_v14 : IVec S190 32 :=
  addi v_main_call7_v4 v_main_call7_v13

/-- The contents of `main_v26`. -/
def v_main_v26 : IVec S190 32 :=
  select v_main_call7_v12 v_main_call7_v14 v_main_call7_v4

/-- The contents of `main_c_11`. -/
def v_main_c_11 : IVec S_ 32 :=
  (constantI S_ 32 0#32)

/-- The contents of `main_v27`. -/
def v_main_v27 : IVec S190 32 :=
  (broadcastInDim S190 ![] bcast_S_S190) v_main_c_11

/-- The contents of `main_v28`. -/
def v_main_v28 : IVec S190 1 :=
  (cmpi .slt) v_main_v24 v_main_v27

/-- The contents of `main_c_12`. -/
def v_main_c_12 : IVec S_ 32 :=
  (constantI S_ 32 20#32)

/-- The contents of `main_v29`. -/
def v_main_v29 : IVec S190 32 :=
  (broadcastInDim S190 ![] bcast_S_S190) v_main_c_12

/-- The contents of `main_v30`. -/
def v_main_v30 : IVec S190 32 :=
  (addi) v_main_v24 v_main_v29

/-- The contents of `main_v31`. -/
def v_main_v31 : IVec S190 32 :=
  (select) v_main_v28 v_main_v30 v_main_v24

/-- The contents of `main_v32`. -/
def v_main_v32 : IVec S190x1 32 :=
  (broadcastInDim S190x1 ![0] bcast_S190_S190x1_0) v_main_v31

/-- The contents of `main_v33`. -/
def v_main_v33 (w : FVec Ideal S20 .f32) : FVec Ideal S190 .f32 :=
  ((fun x i => Host.gather gather_S20_S190x1_S190_n_0_n_n_0_1_1 x i)) w v_main_v32

/-- The contents of `main_c_13`. -/
def v_main_c_13 : IVec S_ 32 :=
  (constantI S_ 32 0#32)

/-- The contents of `main_v34`. -/
def v_main_v34 : IVec S190 32 :=
  (broadcastInDim S190 ![] bcast_S_S190) v_main_c_13

/-- The contents of `main_v35`. -/
def v_main_v35 : IVec S190 1 :=
  (cmpi .slt) v_main_v26 v_main_v34

/-- The contents of `main_c_14`. -/
def v_main_c_14 : IVec S_ 32 :=
  (constantI S_ 32 20#32)

/-- The contents of `main_v36`. -/
def v_main_v36 : IVec S190 32 :=
  (broadcastInDim S190 ![] bcast_S_S190) v_main_c_14

/-- The contents of `main_v37`. -/
def v_main_v37 : IVec S190 32 :=
  (addi) v_main_v26 v_main_v36

/-- The contents of `main_v38`. -/
def v_main_v38 : IVec S190 32 :=
  (select) v_main_v35 v_main_v37 v_main_v26

/-- The contents of `main_v39`. -/
def v_main_v39 : IVec S190x1 32 :=
  (broadcastInDim S190x1 ![0] bcast_S190_S190x1_0) v_main_v38

/-- The contents of `main_v40`. -/
def v_main_v40 (w : FVec Ideal S20 .f32) : FVec Ideal S190 .f32 :=
  ((fun x i => Host.gather gather_S20_S190x1_S190_n_0_n_n_0_1_1 x i)) w v_main_v39

/-- The contents of `main_v41`. -/
def v_main_v41 (w : FVec Ideal S20 .f32) : FVec Ideal S190 .f32 :=
  (mulf) (v_main_v33 w) (v_main_v40 w)

/-- The contents of `main_v42`. -/
def v_main_v42 (w : FVec Ideal S20 .f32) : FVec Ideal S1x190x1 .f32 :=
  (broadcastInDim S1x190x1 ![1] bcast_S190_S1x190x1_1) (v_main_v41 w)

/-- The contents of `main_c_15`. -/
def v_main_c_15 : IVec S_ 32 :=
  (constantI S_ 32 0#32)

/-- The contents of `main_v43`. -/
def v_main_v43 : IVec S190 32 :=
  (broadcastInDim S190 ![] bcast_S_S190) v_main_c_15

/-- The contents of `main_v44`. -/
def v_main_v44 : IVec S190 1 :=
  (cmpi .slt) v_main_v24 v_main_v43

/-- The contents of `main_c_16`. -/
def v_main_c_16 : IVec S_ 32 :=
  (constantI S_ 32 20#32)

/-- The contents of `main_v45`. -/
def v_main_v45 : IVec S190 32 :=
  (broadcastInDim S190 ![] bcast_S_S190) v_main_c_16

/-- The contents of `main_v46`. -/
def v_main_v46 : IVec S190 32 :=
  (addi) v_main_v24 v_main_v45

/-- The contents of `main_v47`. -/
def v_main_v47 : IVec S190 32 :=
  (select) v_main_v44 v_main_v46 v_main_v24

/-- The contents of `main_v48`. -/
def v_main_v48 : IVec S190x1 32 :=
  (broadcastInDim S190x1 ![0] bcast_S190_S190x1_0) v_main_v47

/-- The contents of `main_v49`. -/
def v_main_v49 (mem : IVec S4096x20 32) (emb : FVec Ideal S100001x64 .f32) : FVec Ideal S4096x190x64 .f32 :=
  ((fun x i => Host.gather gather_S4096x20x64_S190x1_S4096x190x64_02_1_n_n_1_1_4096164 x i)) (v_main_v6 mem emb) v_main_v48

/-- The contents of `main_v50`. -/
def v_main_v50 (w : FVec Ideal S20 .f32) : FVec Ideal S4096x190x64 .f32 :=
  (broadcastInDim S4096x190x64 ![0, 1, 2] bcast_S1x190x1_S4096x190x64_0_1_2) (v_main_v42 w)

/-- The contents of `main_v51`. -/
def v_main_v51 (mem : IVec S4096x20 32) (emb : FVec Ideal S100001x64 .f32) (w : FVec Ideal S20 .f32) : FVec Ideal S4096x190x64 .f32 :=
  (mulf) (v_main_v50 w) (v_main_v49 mem emb)

/-- The contents of `main_c_17`. -/
def v_main_c_17 : IVec S_ 32 :=
  (constantI S_ 32 0#32)

/-- The contents of `main_v52`. -/
def v_main_v52 : IVec S190 32 :=
  (broadcastInDim S190 ![] bcast_S_S190) v_main_c_17

/-- The contents of `main_v53`. -/
def v_main_v53 : IVec S190 1 :=
  (cmpi .slt) v_main_v26 v_main_v52

/-- The contents of `main_c_18`. -/
def v_main_c_18 : IVec S_ 32 :=
  (constantI S_ 32 20#32)

/-- The contents of `main_v54`. -/
def v_main_v54 : IVec S190 32 :=
  (broadcastInDim S190 ![] bcast_S_S190) v_main_c_18

/-- The contents of `main_v55`. -/
def v_main_v55 : IVec S190 32 :=
  (addi) v_main_v26 v_main_v54

/-- The contents of `main_v56`. -/
def v_main_v56 : IVec S190 32 :=
  (select) v_main_v53 v_main_v55 v_main_v26

/-- The contents of `main_v57`. -/
def v_main_v57 : IVec S190x1 32 :=
  (broadcastInDim S190x1 ![0] bcast_S190_S190x1_0) v_main_v56

/-- The contents of `main_v58`. -/
def v_main_v58 (mem : IVec S4096x20 32) (emb : FVec Ideal S100001x64 .f32) : FVec Ideal S4096x190x64 .f32 :=
  ((fun x i => Host.gather gather_S4096x20x64_S190x1_S4096x190x64_02_1_n_n_1_1_4096164 x i)) (v_main_v6 mem emb) v_main_v57

/-- The contents of `main_v59`. -/
def v_main_v59 (mem : IVec S4096x20 32) (emb : FVec Ideal S100001x64 .f32) (w : FVec Ideal S20 .f32) : FVec Ideal S4096x190x64 .f32 :=
  (mulf) (v_main_v51 mem emb w) (v_main_v58 mem emb)

/-- The contents of `main_v60`. -/
def v_main_v60 (mem : IVec S4096x20 32) (emb : FVec Ideal S100001x64 .f32) (w : FVec Ideal S20 .f32) : FVec Ideal S4096x210x64 .f32 :=
  ((fun a b => concatenate S4096x210x64 1 [⟨S4096x20x64, a⟩, ⟨S4096x190x64, b⟩] concatenates_S4096x20x64_S4096x190x64_S4096x210x64_d1)) (v_main_v6 mem emb) (v_main_v59 mem emb w)

/-- The contents of `main_v61`. -/
def v_main_v61 (mem : IVec S4096x20 32) (emb : FVec Ideal S100001x64 .f32) (w : FVec Ideal S20 .f32) : FVec Ideal S4096x13440 .f32 :=
  shapeCast S4096x13440 (v_main_v60 mem emb w) shapeCasts_S4096x210x64_S4096x13440

/-- The reference's result as a function of the index words, the embedding table and the item weights. -/
def refOut (mem : IVec S4096x20 32) (emb : FVec Ideal S100001x64 .f32) (w : FVec Ideal S20 .f32) : FVec Ideal S4096x13440 .f32 :=
  v_main_v61 mem emb w

end Cert.ReferenceIdeal.Term

end
-- ==== Proof.ReferenceRun.lean ====
/-
  The reference program's run: @main is the straight line of its 169 host operations, so every weakly fair execution
  terminates with the result buffer at the operations' composed pure term of the arguments (`Term.refOut`), the
  arguments unchanged.

  The composed term is the fold `after ops V` read at the result buffer. An operation's result at the buffer it writes
  is its function of the contents it reads, and at any other buffer what was there; unrolling this from the last
  operation back to the arguments gives, at `main_v6` (the gathered rows) and at `main_v59` (the weighted pair
  products), the terms `Term.v_main_v6` and `Term.v_main_v59` with their names unfolded. The last two operations — the
  concatenation of those two buffers along axis 1 and the reshape of the result — write neither of them, so the result
  buffer holds the reshape of the concatenation of the two terms, which is `Term.refOut`.
-/
import proofs.«426756_j5592047419688_3_alg».proof.Proof.ReferenceOps
import proofs.«426756_j5592047419688_3_alg».proof.Proof.ReferenceTerm
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable [Cert.ReferenceIdeal.Facts]

/-! ## @main is the list -/

-- 169 binds re-associated: the rewriting under the chain recurses once per statement
set_option maxRecDepth 8192 in
/-- @main is the straight line `seq ops`: its two windows in order, each outlined function's definition unfolded at its
    call (and, inside it, at the calls it makes in turn) over the call's record of buffers; once sequencing is
    re-associated (`bind_assoc`, `pure_bind`) both sides are the same chain of 169 `hlo` steps. -/
theorem main_eq {F : FTy → Type} [FloatOps F] (c : Dev nD) : main (F := F) c = seq (Ops.ops (F := F)) := by
  simp only [main, main_part0, main_part1, fn_triu.body, fn_cumsum.body, fn_cumsum_0.body, fn_clip.body, fn_cumsum_1.body,
    fn_cumsum_2.body, fn_floor_divide.body, fn_where.body, fn_remainder.body, fn_where_3.body, seq, bind_assoc, pure_bind]

/-- No TensorCore buffer of the signature is scoped. -/
theorem scopedRefs_eq : (Finset.univ.filter fun b : Ref sig .tc => b.isScoped) = ∅ := by decide
/-- No semaphore of the signature is scoped on the TensorCore. -/
theorem scopedSems_eq : (Finset.univ.filter fun sm : SemLoc sig => sm.isScoped .tc) = ∅ := by decide

/-! ## The fold, read at a buffer -/

/-- Unrolls the fold at a buffer: an operation's result at its own result buffer is its function of the contents it
    reads, at any other buffer what was there before it (the two references differ: decided); and a typed reference's
    transport of contents along its type equation is the identity, the equation being reflexive at a literal reference. -/
macro "after_vals" : tactic =>
  `(tactic| (simp (disch := decide) only [after_cons, after_nil,
      nullary_result', unary_result', binary_result', ternary_result', quaternary_result', reshape_result',
      nullary_result_ne', unary_result_ne', binary_result_ne', ternary_result_ne', quaternary_result_ne', reshape_result_ne',
      TRef.ofBuf, TRef.toBuf, cast_eq]))

/-- No operation writes `main_arg0`. -/
theorem arg0_eq {F : FTy → Type} [FloatOps F] (V : Valuation τ sig (Elt F)) :
    after (Ops.ops (F := F)) V (main_arg0 : DevRef τ sig) = V (main_arg0 : DevRef τ sig) := by
  after_vals

/-- No operation writes `main_arg1`. -/
theorem arg1_eq {F : FTy → Type} [FloatOps F] (V : Valuation τ sig (Elt F)) :
    after (Ops.ops (F := F)) V (main_arg1 : DevRef τ sig) = V (main_arg1 : DevRef τ sig) := by
  after_vals

/-- No operation writes `main_arg2`. -/
theorem arg2_eq {F : FTy → Type} [FloatOps F] (V : Valuation τ sig (Elt F)) :
    after (Ops.ops (F := F)) V (main_arg2 : DevRef τ sig) = V (main_arg2 : DevRef τ sig) := by
  after_vals

/-- No operation writes `main_arg3`. -/
theorem arg3_eq {F : FTy → Type} [FloatOps F] (V : Valuation τ sig (Elt F)) :
    after (Ops.ops (F := F)) V (main_arg3 : DevRef τ sig) = V (main_arg3 : DevRef τ sig) := by
  after_vals

/-- The gathered rows: `main_v6` ends at its term of the index words and the table. Unrolled, the fold is the composed
    operations applied to the arguments' contents, which is `Term.v_main_v6` with its names unfolded. -/
theorem v6_eq (V : Valuation τ sig (Elt Ideal)) :
    after (Ops.ops (F := Ideal)) V (main_v6 : DevRef τ sig)
      = Term.v_main_v6 (V (main_arg1 : DevRef τ sig)) (V (main_arg2 : DevRef τ sig)) := by
  after_vals
  rfl

-- the comparison never looks inside these: their bodies are searches and folds over the operand's elements
attribute [local irreducible] Host.reduceWindow Host.gather Host.scatter Host.divsi Host.remsi concatenate shapeCast in
set_option maxRecDepth 8192 in
set_option maxHeartbeats 2000000 in
/-- The weighted pair products: `main_v59` ends at its term of the three arguments. Unrolled, the left side is the same
    composition of operations as the right with the names `Term.v_…` unfolded; the operations whose bodies are folds and
    searches over elements stay folded in the comparison. -/
theorem v59_eq (V : Valuation τ sig (Elt Ideal)) :
    after (Ops.ops (F := Ideal)) V (main_v59 : DevRef τ sig)
      = Term.v_main_v59 (V (main_arg1 : DevRef τ sig)) (V (main_arg2 : DevRef τ sig)) (V (main_arg3 : DevRef τ sig)) := by
  after_vals
  rfl

attribute [local irreducible] Host.reduceWindow Host.gather Host.scatter Host.divsi Host.remsi concatenate shapeCast in
set_option maxRecDepth 8192 in
set_option maxHeartbeats 2000000 in
/-- The result buffer: the last operation reshapes `main_v60`, which the one before it sets to the concatenation of
    `main_v6` and `main_v59`; neither of the two writes those buffers, whose contents are the two terms above. -/
theorem out_eq (V : Valuation τ sig (Elt Ideal)) :
    after (Ops.ops (F := Ideal)) V (main_v61 : DevRef τ sig)
      = Term.refOut (V (main_arg1 : DevRef τ sig)) (V (main_arg2 : DevRef τ sig)) (V (main_arg3 : DevRef τ sig)) := by
  have h6 := v6_eq V
  have h59 := v59_eq V
  simp only [after_cons, after_nil] at h6 h59 ⊢
  rw [reshape_result_ne, binary_result_ne] at h6 h59
  rw [reshape_result, binary_result, h6, h59]
  · rfl
  all_goals decide

/-! ## The run -/

/-- At the compiled mesh, from any memory with zero counters: every weakly fair execution of @main on the TensorCores
    terminates with the result buffer at `Term.refOut` of the arguments' launch contents and the four arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v61) = Term.refOut (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v61).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => Ops.ops) main_eq (fun _ => Ops.ops_sub) m ρ)

end Cert.ReferenceIdeal.Run

end
-- ==== Proof.ReferenceValue.lean ====
/-
  The reference's result read at an index.

  The reference gathers the item embeddings `E` (4096 rows of 20 items with 64 features), looks the 20 item
  weights up at the two pair tables, multiplies each pair's two weights, spreads that product over rows and
  features, multiplies it by the pair's two embedding rows, lays the 20 embeddings and the 190 pair products
  side by side along the item axis (210 slabs of 64) and flattens the last two axes into 13440 entries.

  Read at row `b` and entry `k`, the flattening sends `k` to slab `k / 64` and feature `k % 64`. A slab below 20
  is an embedding, `E[b, k / 64, k % 64]`. A slab from 20 on is pair `p = k / 64 − 20`, whose entry is
  `((w i · w j) · E[b, i, d]) · E[b, j, d]` with `i`, `j` the pair's two items: the start indices of the two
  lookups, read signed and clamped to the 20 items. Multiplication of extended reals is commutative and
  associative without any finiteness condition, so this is `(E[b, i, d] · E[b, j, d]) · (w i · w j)`, the
  state representation's entry.

  First two general facts: a lookup by a column of start indices, read at an index, for a vector of entries and
  for an array of slabs along its middle axis.
-/
import proofs.«426756_j5592047419688_3_alg».proof.Proof.ReferenceTerm
import proofs.«426756_j5592047419688_3_alg».proof.Proof.PairFeatures
import Idealize.ShloMosaic.Lib.ValueIdx
import Idealize.ShloMosaic.Lib.ValueLayout
import Idealize.ShloMosaic.Lib.Pipeline.Value

noncomputable section

namespace Cert.ReferenceIdeal.RefValue

open Idealize.ShloMosaic Idealize.ShloMosaic.ValueIdx

section Gathers
variable {α : Type}

/-- The dimension numbers of a lookup of single entries of a vector `[N]` by a column `[P, 1]` of start
    indices: no offset axis, the one operand axis collapsed and named by the start index map, the index
    vector along the column's unit axis, slices of one entry. -/
abbrev entryDims (N P : Nat) (wf : GatherDims.WF ⟨1, ![N]⟩ ⟨2, ![P, 1]⟩ ⟨1, ![P]⟩ [] [0] [] [0] [] 1 ![1]) :
    GatherDims ⟨1, ![N]⟩ ⟨2, ![P, 1]⟩ ⟨1, ![P]⟩ where
  offsetDims := []
  collapsedSliceDims := [0]
  operandBatchingDims := []
  startIndicesBatchingDims := []
  startIndexMap := [0]
  indexVectorDim := 1
  sliceSizes := ![1]
  wf := wf

/-- A LOOKUP OF ENTRIES READ AT `p`: the vector at the start index `idx[p, 0]`, read signed and clamped
    into `[0, N − 1]`. -/
theorem gather_entry_apply {N P w : Nat} (hN : 0 < N)
    (wf : GatherDims.WF ⟨1, ![N]⟩ ⟨2, ![P, 1]⟩ ⟨1, ![P]⟩ [] [0] [] [0] [] 1 ![1])
    (x : (⟨1, ![N]⟩ : Shape).Idx → α) (idx : IVec ⟨2, ![P, 1]⟩ w) (p : Fin P) :
    Host.gather (entryDims N P wf) x idx (ix1 p)
      = x (ix1 ⟨min (idx (ix2 p (0 : Fin 1))).toInt.toNat (N - 1), by omega⟩) := by
  unfold Host.gather
  refine congrArg x ?_
  funext a
  obtain rfl : a = 0 := Subsingleton.elim _ _
  refine Fin.ext ?_
  show (entryDims N P wf).start (ix1 p) idx 0 + (entryDims N P wf).batchCoord (ix1 p) 0
      + (entryDims N P wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N P wf).startIndexMap from List.mem_singleton.mpr rfl)]
  have hsi : (entryDims N P wf).siIdx (ix1 p) ⟨List.idxOf (0 : Fin 1) (entryDims N P wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

/-- The dimension numbers of a lookup of whole slabs of an array `[B, N, D]` along its middle axis by a
    column `[P, 1]` of start indices: the result `[B, P, D]` keeps the outer axes as offset axes 0 and 2,
    the middle axis is collapsed and named by the start index map, slices `[B, 1, D]`. -/
abbrev slabDims (B N D P : Nat)
    (wf : GatherDims.WF ⟨3, ![B, N, D]⟩ ⟨2, ![P, 1]⟩ ⟨3, ![B, P, D]⟩ [0, 2] [1] [] [1] [] 1 ![B, 1, D]) :
    GatherDims ⟨3, ![B, N, D]⟩ ⟨2, ![P, 1]⟩ ⟨3, ![B, P, D]⟩ where
  offsetDims := [0, 2]
  collapsedSliceDims := [1]
  operandBatchingDims := []
  startIndicesBatchingDims := []
  startIndexMap := [1]
  indexVectorDim := 1
  sliceSizes := ![B, 1, D]
  wf := wf

/-- A LOOKUP OF SLABS READ AT `(b, p, d)`: the array at `(b, n, d)` with `n` the start index `idx[p, 0]`,
    read signed and clamped into `[0, N − 1]`. -/
theorem gather_slab_apply {B N D P w : Nat} (hN : 0 < N)
    (wf : GatherDims.WF ⟨3, ![B, N, D]⟩ ⟨2, ![P, 1]⟩ ⟨3, ![B, P, D]⟩ [0, 2] [1] [] [1] [] 1 ![B, 1, D])
    (x : (⟨3, ![B, N, D]⟩ : Shape).Idx → α) (idx : IVec ⟨2, ![P, 1]⟩ w) (b : Fin B) (p : Fin P) (d : Fin D) :
    Host.gather (slabDims B N D P wf) x idx (ix3 b p d)
      = x (ix3 b ⟨min (idx (ix2 p (0 : Fin 1))).toInt.toNat (N - 1), by omega⟩ d) := by
  unfold Host.gather
  refine congrArg x ?_
  funext a
  refine Fin.ext ?_
  show (slabDims B N D P wf).start (ix3 b p d) idx a + (slabDims B N D P wf).batchCoord (ix3 b p d) a
      + (slabDims B N D P wf).offCoord (ix3 b p d) a = _
  rw [GatherDims.batchCoord_eq_zero _ _ _ List.not_mem_nil, Nat.add_zero]
  match a with
  | ⟨0, _⟩ =>
    have hmem : (⟨0, by decide⟩ : Fin 3) ∈ (slabDims B N D P wf).sKept :=
      (GatherDims.mem_sKept _ _).mpr ⟨by simp, List.not_mem_nil⟩
    have hns : (⟨0, by decide⟩ : Fin 3) ∉ (slabDims B N D P wf).startIndexMap := by simp
    unfold GatherDims.start GatherDims.offCoord
    rw [dif_neg hns, dif_pos hmem, Nat.zero_add]
    rfl
  | ⟨1, _⟩ =>
    have hmem : (⟨1, by decide⟩ : Fin 3) ∉ (slabDims B N D P wf).sKept :=
      fun h => ((GatherDims.mem_sKept _ _).mp h).1 (List.mem_singleton.mpr rfl)
    have hs : (⟨1, by decide⟩ : Fin 3) ∈ (slabDims B N D P wf).startIndexMap := List.mem_singleton.mpr rfl
    rw [GatherDims.offCoord_eq_zero _ _ _ hmem, Nat.add_zero]
    unfold GatherDims.start
    rw [dif_pos hs]
    have hsi : (slabDims B N D P wf).siIdx (ix3 b p d) ⟨List.idxOf (⟨1, by decide⟩ : Fin 3) (slabDims B N D P wf).startIndexMap,
        List.idxOf_lt_length_iff.2 hs⟩ = ix2 p (0 : Fin 1) := by
      funext c; refine Fin.ext ?_
      match c with
      | ⟨0, _⟩ => rfl
      | ⟨1, _⟩ => rfl
    rw [hsi]
    rfl
  | ⟨2, _⟩ =>
    have hmem : (⟨2, by decide⟩ : Fin 3) ∈ (slabDims B N D P wf).sKept :=
      (GatherDims.mem_sKept _ _).mpr ⟨by simp, List.not_mem_nil⟩
    have hns : (⟨2, by decide⟩ : Fin 3) ∉ (slabDims B N D P wf).startIndexMap := by simp
    unfold GatherDims.start GatherDims.offCoord
    rw [dif_neg hns, dif_pos hmem, Nat.zero_add]
    rfl

end Gathers

/-! ## The reference's own lookups, broadcasts, concatenation and flattening, read at an index -/

section Reference
open Cert.ReferenceIdeal Cert.ReferenceIdeal.Facts₀ Cert.ReferenceIdeal.Facts Cert.PairFeatures

variable [Cert.ReferenceIdeal.Facts]

/-- The weight lookup at pair `p`: the weight of the item its start index selects. -/
theorem gather_w_apply (w : FVec Ideal S20 .f32) (idx : IVec S190x1 32) (p : Fin 190) :
    Host.gather gather_S20_S190x1_S190_n_0_n_n_0_1_1 w idx (ix1 p) = w (ix1 (itemOf (idx (ix2 p (0 : Fin 1))))) :=
  gather_entry_apply (by decide) gather_S20_S190x1_S190_n_0_n_n_0_1_1_wf w idx p

/-- The embedding lookup at row `b`, pair `p`, feature `d`: the embedding of the item its start index selects. -/
theorem gather_E_apply (E : FVec Ideal S4096x20x64 .f32) (idx : IVec S190x1 32) (b : Fin 4096) (p : Fin 190) (d : Fin 64) :
    Host.gather gather_S4096x20x64_S190x1_S4096x190x64_02_1_n_n_1_1_4096164 E idx (ix3 b p d)
      = E (ix3 b (itemOf (idx (ix2 p (0 : Fin 1)))) d) :=
  gather_slab_apply (by decide) gather_S4096x20x64_S190x1_S4096x190x64_02_1_n_n_1_1_4096164_wf E idx b p d

/-- A table of 190 words made a column reads, at `(p, 0)`, the table at `p`. -/
theorem column_apply {n : Nat} (v : IVec S190 n) (p : Fin 190) :
    broadcastInDim S190x1 ![0] bcast_S190_S190x1_0 v (ix2 p (0 : Fin 1)) = v (ix1 p) :=
  broadcastInDim_apply _ _ v _ _ fun a => by
    obtain rfl : a = 0 := Subsingleton.elim _ _
    show p.val = if (190 : ℕ) = 1 then 0 else p.val
    rw [if_neg (by decide)]

/-- 190 values placed on the middle axis of `[1, 190, 1]` read, at `(0, p, 0)`, value `p`. -/
theorem middle_apply (v : FVec Ideal S190 .f32) (u : Fin 1) (p : Fin 190) (u₂ : Fin 1) :
    broadcastInDim S1x190x1 ![1] bcast_S190_S1x190x1_1 v (ix3 u p u₂) = v (ix1 p) :=
  broadcastInDim_apply _ _ v _ _ fun a => by
    obtain rfl : a = 0 := Subsingleton.elim _ _
    show p.val = if (190 : ℕ) = 1 then 0 else p.val
    rw [if_neg (by decide)]

/-- `[1, 190, 1]` spread over 4096 rows and 64 features reads, at `(b, p, d)`, the operand at `(0, p, 0)`. -/
theorem spread_apply (v : FVec Ideal S1x190x1 .f32) (b : Fin 4096) (p : Fin 190) (d : Fin 64) :
    broadcastInDim S4096x190x64 ![0, 1, 2] bcast_S1x190x1_S4096x190x64_0_1_2 v (ix3 b p d)
      = v (ix3 (0 : Fin 1) p (0 : Fin 1)) :=
  broadcastInDim_apply _ _ v _ _ fun a => by
    match a with
    | ⟨0, _⟩ => rfl
    | ⟨1, _⟩ =>
      show p.val = if (190 : ℕ) = 1 then 0 else p.val
      rw [if_neg (by decide)]
    | ⟨2, _⟩ => rfl

/-- The first pair table's word at the row-major position of `p` is its word at `p`. -/
theorem lit0_rowMajor (p : Fin 190) : Cert.KernelIdeal.lit0 (S190.rowMajor (ix1 p)) = Cert.KernelIdeal.lit0 p :=
  congrArg Cert.KernelIdeal.lit0 (Fin.ext (Shape.rowMajor_val_one (ix1 p)))

/-- The second pair table's word at the row-major position of `p` is its word at `p`. -/
theorem lit1_rowMajor (p : Fin 190) : Cert.KernelIdeal.lit1 (S190.rowMajor (ix1 p)) = Cert.KernelIdeal.lit1 p :=
  congrArg Cert.KernelIdeal.lit1 (Fin.ext (Shape.rowMajor_val_one (ix1 p)))

/-! ## The reference's values, one operation at a time -/

/-- The weight of the first item of pair `p`. -/
theorem v33_apply (hI : Term.v_main_v31 = fun i : S190.Idx => Cert.KernelIdeal.lit0 (S190.rowMajor i))
    (w : FVec Ideal S20 .f32) (p : Fin 190) : Term.v_main_v33 w (ix1 p) = w (ix1 (fstItem p)) := by
  show Host.gather gather_S20_S190x1_S190_n_0_n_n_0_1_1 w Term.v_main_v32 (ix1 p) = _
  rw [gather_w_apply]
  show w (ix1 (itemOf (broadcastInDim S190x1 ![0] bcast_S190_S190x1_0 Term.v_main_v31 (ix2 p (0 : Fin 1))))) = _
  rw [column_apply, hI]
  show w (ix1 (itemOf (Cert.KernelIdeal.lit0 (S190.rowMajor (ix1 p))))) = _
  rw [lit0_rowMajor]
  rfl

/-- The weight of the second item of pair `p`. -/
theorem v40_apply (hJ : Term.v_main_v38 = fun i : S190.Idx => Cert.KernelIdeal.lit1 (S190.rowMajor i))
    (w : FVec Ideal S20 .f32) (p : Fin 190) : Term.v_main_v40 w (ix1 p) = w (ix1 (sndItem p)) := by
  show Host.gather gather_S20_S190x1_S190_n_0_n_n_0_1_1 w Term.v_main_v39 (ix1 p) = _
  rw [gather_w_apply]
  show w (ix1 (itemOf (broadcastInDim S190x1 ![0] bcast_S190_S190x1_0 Term.v_main_v38 (ix2 p (0 : Fin 1))))) = _
  rw [column_apply, hJ]
  show w (ix1 (itemOf (Cert.KernelIdeal.lit1 (S190.rowMajor (ix1 p))))) = _
  rw [lit1_rowMajor]
  rfl

/-- The weight product of pair `p`, spread over rows and features. -/
theorem v50_apply (hI : Term.v_main_v31 = fun i : S190.Idx => Cert.KernelIdeal.lit0 (S190.rowMajor i))
    (hJ : Term.v_main_v38 = fun i : S190.Idx => Cert.KernelIdeal.lit1 (S190.rowMajor i))
    (w : FVec Ideal S20 .f32) (b : Fin 4096) (p : Fin 190) (d : Fin 64) :
    Term.v_main_v50 w (ix3 b p d) = w (ix1 (fstItem p)) * w (ix1 (sndItem p)) := by
  show broadcastInDim S4096x190x64 ![0, 1, 2] bcast_S1x190x1_S4096x190x64_0_1_2 (Term.v_main_v42 w) (ix3 b p d) = _
  rw [spread_apply]
  show broadcastInDim S1x190x1 ![1] bcast_S190_S1x190x1_1 (Term.v_main_v41 w) (ix3 (0 : Fin 1) p (0 : Fin 1)) = _
  rw [middle_apply]
  show mulf (Term.v_main_v33 w) (Term.v_main_v40 w) (ix1 p) = _
  rw [mulf_apply, v33_apply hI, v40_apply hJ]

/-- The embedding of the first item of pair `p`. -/
theorem v49_apply (hI' : Term.v_main_v47 = fun i : S190.Idx => Cert.KernelIdeal.lit0 (S190.rowMajor i))
    (mem : IVec S4096x20 32) (emb : FVec Ideal S100001x64 .f32) (b : Fin 4096) (p : Fin 190) (d : Fin 64) :
    Term.v_main_v49 mem emb (ix3 b p d) = Term.v_main_v6 mem emb (ix3 b (fstItem p) d) := by
  show Host.gather gather_S4096x20x64_S190x1_S4096x190x64_02_1_n_n_1_1_4096164 (Term.v_main_v6 mem emb) Term.v_main_v48 (ix3 b p d) = _
  rw [gather_E_apply]
  show Term.v_main_v6 mem emb (ix3 b (itemOf (broadcastInDim S190x1 ![0] bcast_S190_S190x1_0 Term.v_main_v47 (ix2 p (0 : Fin 1)))) d) = _
  rw [column_apply, hI']
  show Term.v_main_v6 mem emb (ix3 b (itemOf (Cert.KernelIdeal.lit0 (S190.rowMajor (ix1 p)))) d) = _
  rw [lit0_rowMajor]
  rfl

/-- The embedding of the second item of pair `p`. -/
theorem v58_apply (hJ' : Term.v_main_v56 = fun i : S190.Idx => Cert.KernelIdeal.lit1 (S190.rowMajor i))
    (mem : IVec S4096x20 32) (emb : FVec Ideal S100001x64 .f32) (b : Fin 4096) (p : Fin 190) (d : Fin 64) :
    Term.v_main_v58 mem emb (ix3 b p d) = Term.v_main_v6 mem emb (ix3 b (sndItem p) d) := by
  show Host.gather gather_S4096x20x64_S190x1_S4096x190x64_02_1_n_n_1_1_4096164 (Term.v_main_v6 mem emb) Term.v_main_v57 (ix3 b p d) = _
  rw [gather_E_apply]
  show Term.v_main_v6 mem emb (ix3 b (itemOf (broadcastInDim S190x1 ![0] bcast_S190_S190x1_0 Term.v_main_v56 (ix2 p (0 : Fin 1)))) d) = _
  rw [column_apply, hJ']
  show Term.v_main_v6 mem emb (ix3 b (itemOf (Cert.KernelIdeal.lit1 (S190.rowMajor (ix1 p)))) d) = _
  rw [lit1_rowMajor]
  rfl

/-- Products of extended reals regroup freely: multiplication is commutative and associative. -/
theorem pair_mul (wi wj ei ej : EReal) : ((wi * wj) * ei) * ej = (ei * ej) * (wi * wj) :=
  (mul_assoc (wi * wj) ei ej).trans (mul_comm (wi * wj) (ei * ej))

/-- The pair product at row `b`, pair `p`, feature `d`. -/
theorem v59_apply (hI : Term.v_main_v31 = fun i : S190.Idx => Cert.KernelIdeal.lit0 (S190.rowMajor i))
    (hJ : Term.v_main_v38 = fun i : S190.Idx => Cert.KernelIdeal.lit1 (S190.rowMajor i))
    (hI' : Term.v_main_v47 = fun i : S190.Idx => Cert.KernelIdeal.lit0 (S190.rowMajor i))
    (hJ' : Term.v_main_v56 = fun i : S190.Idx => Cert.KernelIdeal.lit1 (S190.rowMajor i))
    (mem : IVec S4096x20 32) (emb : FVec Ideal S100001x64 .f32) (w : FVec Ideal S20 .f32)
    (b : Fin 4096) (p : Fin 190) (d : Fin 64) :
    Term.v_main_v59 mem emb w (ix3 b p d)
      = (Term.v_main_v6 mem emb (ix3 b (fstItem p) d) * Term.v_main_v6 mem emb (ix3 b (sndItem p) d))
        * (w (ix1 (fstItem p)) * w (ix1 (sndItem p))) := by
  show mulf (Term.v_main_v51 mem emb w) (Term.v_main_v58 mem emb) (ix3 b p d) = _
  rw [mulf_apply]
  show mulf (Term.v_main_v50 w) (Term.v_main_v49 mem emb) (ix3 b p d) * _ = _
  rw [mulf_apply, v50_apply hI hJ, v49_apply hI', v58_apply hJ']
  exact pair_mul _ _ _ _

/-- The concatenation at a slab below 20 is the embedding. -/
theorem v60_left (mem : IVec S4096x20 32) (emb : FVec Ideal S100001x64 .f32) (w : FVec Ideal S20 .f32)
    (b : Fin 4096) (m : Fin 210) (d : Fin 64) (n : Fin 20) (hn : n.val = m.val) :
    Term.v_main_v60 mem emb w (ix3 b m d) = Term.v_main_v6 mem emb (ix3 b n d) := by
  show concatenate S4096x210x64 1 [⟨S4096x20x64, Term.v_main_v6 mem emb⟩, ⟨S4096x190x64, Term.v_main_v59 mem emb w⟩]
      concatenates_S4096x20x64_S4096x190x64_S4096x210x64_d1 (ix3 b m d) = _
  refine concatenate_pair_apply_left (t := S4096x210x64) (s₁ := S4096x20x64) (s₂ := S4096x190x64) 1 (Term.v_main_v6 mem emb)
    (Term.v_main_v59 mem emb w) concatenates_S4096x20x64_S4096x190x64_S4096x210x64_d1 (ix3 b m d) rfl (ix3 b n d) fun a => ?_
  match a with
  | ⟨0, _⟩ => rfl
  | ⟨1, _⟩ => exact hn
  | ⟨2, _⟩ => rfl

/-- The concatenation at a slab from 20 on is the pair product of the pair 20 slabs earlier. -/
theorem v60_right (mem : IVec S4096x20 32) (emb : FVec Ideal S100001x64 .f32) (w : FVec Ideal S20 .f32)
    (b : Fin 4096) (m : Fin 210) (d : Fin 64) (p : Fin 190) (hp : p.val + 20 = m.val) :
    Term.v_main_v60 mem emb w (ix3 b m d) = Term.v_main_v59 mem emb w (ix3 b p d) := by
  show concatenate S4096x210x64 1 [⟨S4096x20x64, Term.v_main_v6 mem emb⟩, ⟨S4096x190x64, Term.v_main_v59 mem emb w⟩]
      concatenates_S4096x20x64_S4096x190x64_S4096x210x64_d1 (ix3 b m d) = _
  refine concatenate_pair_apply_right (t := S4096x210x64) (s₁ := S4096x20x64) (s₂ := S4096x190x64) 1 (Term.v_main_v6 mem emb)
    (Term.v_main_v59 mem emb w) concatenates_S4096x20x64_S4096x190x64_S4096x210x64_d1 (ix3 b m d) rfl rfl (ix3 b p d) (fun a ha => ?_) hp
  match a with
  | ⟨0, _⟩ => rfl
  | ⟨1, _⟩ => exact absurd rfl ha
  | ⟨2, _⟩ => rfl

/-- The flattening at `(b, k)` reads slab `k / 64`, feature `k % 64`. -/
theorem v61_apply (mem : IVec S4096x20 32) (emb : FVec Ideal S100001x64 .f32) (w : FVec Ideal S20 .f32)
    (b : Fin 4096) (k : Fin 13440) :
    Term.v_main_v61 mem emb w (ix2 b k)
      = Term.v_main_v60 mem emb w (ix3 b (⟨k.val / 64, by omega⟩ : Fin 210) (⟨k.val % 64, by omega⟩ : Fin 64)) := by
  show shapeCast S4096x13440 (Term.v_main_v60 mem emb w) shapeCasts_S4096x210x64_S4096x13440 (ix2 b k) = _
  refine shapeCast_apply _ _ _ _ ?_
  rw [Shape.rowMajor_val_three, Shape.rowMajor_val_two]
  show (b.val * 210 + k.val / 64) * 64 + k.val % 64 = b.val * 13440 + k.val
  omega

/-! ## The result -/

/-- THE REFERENCE'S RESULT is the state representation of its gathered embeddings and the weights, once its four
    computed index tables are the two literal pair tables. -/
theorem refOut_eq (mem : IVec Cert.ReferenceIdeal.S4096x20 32) (emb : FVec Ideal Cert.ReferenceIdeal.S100001x64 .f32)
    (w : FVec Ideal Cert.ReferenceIdeal.S20 .f32)
    (hI : Term.v_main_v31 = fun i : Cert.ReferenceIdeal.S190.Idx => Cert.KernelIdeal.lit0 (Cert.ReferenceIdeal.S190.rowMajor i))
    (hJ : Term.v_main_v38 = fun i : Cert.ReferenceIdeal.S190.Idx => Cert.KernelIdeal.lit1 (Cert.ReferenceIdeal.S190.rowMajor i))
    (hI' : Term.v_main_v47 = fun i : Cert.ReferenceIdeal.S190.Idx => Cert.KernelIdeal.lit0 (Cert.ReferenceIdeal.S190.rowMajor i))
    (hJ' : Term.v_main_v56 = fun i : Cert.ReferenceIdeal.S190.Idx => Cert.KernelIdeal.lit1 (Cert.ReferenceIdeal.S190.rowMajor i)) :
    Term.refOut mem emb w = Cert.PairFeatures.stateRepr (Term.v_main_v6 mem emb) w := by
  funext i
  obtain ⟨b, k, rfl⟩ : ∃ (b : Fin 4096) (k : Fin 13440), i = ix2 b k := ⟨i 0, i 1, eq_ix2 i⟩
  show Term.v_main_v61 mem emb w (ix2 b k) = stateAt (Term.v_main_v6 mem emb) w b k
  rw [v61_apply]
  unfold stateAt
  by_cases h : k.val < 1280
  · rw [dif_pos h]
    exact v60_left mem emb w b _ _ _ rfl
  · rw [dif_neg h, v60_right mem emb w b _ _ (⟨(k.val - 1280) / 64, by omega⟩ : Fin 190) (by show (k.val - 1280) / 64 + 20 = k.val / 64; omega)]
    exact v59_apply hI hJ hI' hJ' mem emb w b _ _

end Reference

end Cert.ReferenceIdeal.RefValue

end
-- ==== Proof.TriuTables.lean ====
import proofs.«426756_j5592047419688_3_alg».proof.Proof.ReferenceTerm
import proofs.«426756_j5592047419688_3_alg».proof.KernelIdeal
import Idealize.ShloMosaic.Lib.ValueIdx
import Idealize.ShloMosaic.Lib.ValueIdxRank1
import Idealize.ShloMosaic.Lib.Pipeline.Value
import Idealize.ShloMosaic.PureOps.Ideal
import Mathlib.Data.BitVec
import Mathlib.Algebra.BigOperators.Fin
import Mathlib.Algebra.BigOperators.Intervals

/-!
The strict upper triangle of a 20 × 20 square, listed row by row, has 190 places `(r, c)`, `r < c`. The reference
computes the two lists of coordinates at run time: a 0/1 mask of the square (1 where `r < c`), flattened to 400
entries; its running sum; a count, for each value `k < 190`, of the flat positions whose running sum is `k`; the
running sum of those counts, which is the flat position `20 r + c` of place number `k`; and that position's quotient
and remainder by 20. This module shows that the two lists so computed are the two literal lists of 190 words.

The running sums and the count are read as finite sums (a window of `n` entries padded `n - 1` to the left, slid over
`n` entries, sums entries `0 … p` at position `p`; adding one at each named place counts the names); the sums are
then evaluated through two facts about the closed form `cumN` of the mask's running sum: it never decreases, and
it steps from `k` to `k + 1` exactly at the flat position of place number `k`.
-/

namespace Cert.ReferenceIdeal.Tables

open Idealize.ShloMosaic Idealize.ShloMosaic.ValueIdx Cert.ReferenceIdeal

/-! ## The closed forms -/

/-- The flattened mask: 1 at flat position `q = 20 r + c` when `r < c`. -/
def maskW (q : Nat) : BitVec 32 := if q / 20 < q % 20 then 1#32 else 0#32

/-- The number of places `(r, c)`, `r < c`, at flat positions `0 … p`: the rows above row `r = p / 20` hold
    `19 + 18 + … + (20 - r)` of them, row `r` up to column `c = p % 20` holds `c - r` (none when `c ≤ r`). -/
def cumN (p : Nat) : Nat := 19 * (p / 20) - (p / 20) * (p / 20 - 1) / 2 + (p % 20 - p / 20)

/-- The same as a word. -/
def cumW (p : Nat) : BitVec 32 := BitVec.ofNat 32 (cumN p)

/-- How many flat positions `p < 400` have running sum `q`, as a word. -/
def cntW (q : Nat) : BitVec 32 := ∑ p ∈ Finset.range 400, if cumN p = q then (1 : BitVec 32) else 0

/-- The flat position `20 r + c` of place number `K`, read off the two literal lists. -/
def posN (K : Fin 190) : Nat := 20 * (Cert.KernelIdeal.lit0 K).toNat + (Cert.KernelIdeal.lit1 K).toNat

/-- The same as a word. -/
def posW (K : Fin 190) : BitVec 32 := BitVec.ofNat 32 (posN K)

/-- The one coordinate of an index of the 190 places, and of the 400 flat positions. -/
def c190 (i : S190.Idx) : Fin 190 := ⟨(i 0).val, (i 0).isLt⟩

/-! ## The mask -/

theorem one_f32 : Ideal.ofBits .f32 0x3F800000#32 = 1 := by
  simp [Ideal.ofBits, Ideal.ieee, -EReal.coe_mul]; norm_num

theorem zero_f32 : Ideal.ofBits .f32 0x00000000#32 = 0 := by simp [Ideal.ofBits, Ideal.ieee]

/-- One differs from zero. -/
theorem une_one_zero :
    Ideal.cmp .une (Ideal.ofBits .f32 0x3F800000#32) (Ideal.ofBits .f32 0x00000000#32) = 1#1 := by
  rw [one_f32, zero_f32]
  simp [Ideal.cmp]

/-- Zero does not differ from zero. -/
theorem une_zero_zero :
    Ideal.cmp .une (Ideal.ofBits .f32 0x00000000#32) (Ideal.ofBits .f32 0x00000000#32) = 0#1 := by
  simp [Ideal.cmp]

/-- The row's number against the column's, as words below 20. -/
theorem sge_words : ∀ a b : Fin 20,
    IntOp.cmpi .sge (IntOp.addi (BitVec.ofNat 32 a.val) 0#32) (BitVec.ofNat 32 b.val)
      = if a.val < b.val then 0#1 else 1#1 := by
  decide

/-- The mask of the square: 1 strictly above the diagonal. -/
theorem mask [Cert.ReferenceIdeal.Facts] :
    Term.v_main_v10 = fun i : S20x20.Idx => if (i 0).val < (i 1).val then 1#1 else 0#1 := by
  funext i
  show Ideal.cmp .une (Scalar.select
      (IntOp.cmpi .sge (IntOp.addi (BitVec.ofNat 32 (i 0).val) 0#32) (BitVec.ofNat 32 (i 1).val))
      (Ideal.ofBits .f32 0x00000000#32) (Ideal.ofBits .f32 0x3F800000#32)) (Ideal.ofBits .f32 0x00000000#32) = _
  rw [sge_words (i 0) (i 1)]
  by_cases h : (i 0).val < (i 1).val
  · rw [if_pos h, if_pos h, select_zero]; exact une_one_zero
  · rw [if_neg h, if_neg h, select_one]; exact une_zero_zero

/-- Flattened and widened: flat position `q` is row `q / 20`, column `q % 20`. -/
theorem flat [Cert.ReferenceIdeal.Facts] : Term.v_main_call1_v1 = fun i : S400.Idx => maskW (i 0).val := by
  funext i
  have hi : (i 0).val < 400 := (i 0).isLt
  show (shapeCast S400 Term.v_main_v10 _ i).setWidth 32 = _
  rw [shapeCast_apply Term.v_main_v10 _ i (ix2 ⟨(i 0).val / 20, by omega⟩ ⟨(i 0).val % 20, by omega⟩)
    (by rw [Shape.rowMajor_val_two, Shape.rowMajor_val_one]
        show (i 0).val / 20 * 20 + (i 0).val % 20 = (i 0).val; omega)]
  rw [mask]
  show (if (i 0).val / 20 < (i 0).val % 20 then 1#1 else 0#1).setWidth 32 = maskW (i 0).val
  unfold maskW
  by_cases h : (i 0).val / 20 < (i 0).val % 20
  · rw [if_pos h, if_pos h]; rfl
  · rw [if_neg h, if_neg h]; rfl

/-! ## A running sum as the host writes it -/

/-- A left fold by addition from zero is the sum. -/
theorem foldl_add_eq_sum {N : Nat} (G : Fin N → BitVec 32) :
    (List.finRange N).foldl (fun r m => IntOp.addi r (G m)) 0#32 = ∑ m : Fin N, G m := by
  rw [Fin.sum_univ_def, List.sum_eq_foldl, List.foldl_map]
  rfl

/-- A window of `n` entries, slid by one over `n` entries padded with `l = n - 1` zeros in front, adds at position `p`
    the entries `0 … p`: window place `m` reads entry `p + m - l`, which exists from `m = l - p` on. -/
theorem cumsum_apply {n l : Nat} (hl : l + 1 = n) (xN : Nat → BitVec 32)
    (h : (⟨1, ![n]⟩ : Shape).ReduceWindows ![n] ![1] ![l] ![0] ⟨1, ![n]⟩)
    (init : (⟨0, ![]⟩ : Shape).Idx → BitVec 32) (hu : 0 < (⟨0, ![]⟩ : Shape).numel) (hinit : ∀ i, init i = 0#32)
    (j : (⟨1, ![n]⟩ : Shape).Idx) :
    Host.reduceWindow IntOp.addi ![n] ![1] ![l] ![0] (fun i : (⟨1, ![n]⟩ : Shape).Idx => xN (i 0).val) init h hu j
      = ∑ q ∈ Finset.range ((j 0).val + 1), xN q := by
  have hj : (j 0).val < n := (j 0).isLt
  unfold Host.reduceWindow
  simp only []
  rw [hinit]
  -- every window place's term, as a function of the place's one coordinate
  have term : ∀ m : Fin (⟨1, ![n]⟩ : Shape).numel,
      (if hin : ∀ a : Fin 1,
            ![l] a ≤ (j (Fin.cast h.1.symm a)).val * ![1] a + ((⟨1, ![n]⟩ : Shape).rowMajor.symm m a).val ∧
              (j (Fin.cast h.1.symm a)).val * ![1] a + ((⟨1, ![n]⟩ : Shape).rowMajor.symm m a).val - ![l] a < ![n] a then
          xN ((j (Fin.cast h.1.symm 0)).val * ![1] 0 + ((⟨1, ![n]⟩ : Shape).rowMajor.symm m 0).val - ![l] 0)
        else 0#32)
      = (fun i : (⟨1, ![n]⟩ : Shape).Idx => if l ≤ (j 0).val + (i 0).val then xN ((j 0).val + (i 0).val - l) else 0#32)
          ((⟨1, ![n]⟩ : Shape).rowMajor.symm m) := by
    intro m
    have hm : (((⟨1, ![n]⟩ : Shape).rowMajor.symm m) 0).val < n := (((⟨1, ![n]⟩ : Shape).rowMajor.symm m) 0).isLt
    have e0 : (j (Fin.cast h.1.symm 0)).val * ![1] 0 + ((⟨1, ![n]⟩ : Shape).rowMajor.symm m 0).val
        = (j 0).val + ((⟨1, ![n]⟩ : Shape).rowMajor.symm m 0).val := by
      show (j 0).val * 1 + _ = _
      rw [Nat.mul_one]
    by_cases hc : l ≤ (j 0).val + (((⟨1, ![n]⟩ : Shape).rowMajor.symm m) 0).val
    · rw [dif_pos (Fin.forall_fin_one.2 (by
        show l ≤ (j 0).val * 1 + _ ∧ (j 0).val * 1 + _ - l < n
        rw [Nat.mul_one]; exact ⟨hc, by omega⟩))]
      show xN _ = if _ then _ else _
      rw [if_pos hc, e0]; rfl
    · rw [dif_neg (fun hin => hc (by
        have := (hin 0).1
        rw [e0] at this; exact this))]
      show _ = if _ then _ else _
      rw [if_neg hc]
  simp only [term]
  rw [foldl_add_eq_sum, Equiv.sum_comp (⟨1, ![n]⟩ : Shape).rowMajor.symm
    (fun i : (⟨1, ![n]⟩ : Shape).Idx => if l ≤ (j 0).val + (i 0).val then xN ((j 0).val + (i 0).val - l) else 0#32)]
  rw [← Equiv.sum_comp (idxEquiv1 (n := n)).symm]
  show ∑ c : Fin n, (fun c : Nat => if l ≤ (j 0).val + c then xN ((j 0).val + c - l) else 0#32) c.val = _
  rw [Fin.sum_univ_eq_sum_range (fun c : Nat => if l ≤ (j 0).val + c then xN ((j 0).val + c - l) else 0#32) n]
  rw [Finset.sum_ite, Finset.sum_eq_zero (f := fun _ : Nat => 0#32)
    (s := (Finset.range n).filter fun c => ¬ l ≤ (j 0).val + c) (fun _ _ => rfl), add_zero]
  have hf : (Finset.range n).filter (fun c => l ≤ (j 0).val + c) = Finset.Ico (l - (j 0).val) n := by
    ext c; simp only [Finset.mem_filter, Finset.mem_range, Finset.mem_Ico]; omega
  rw [hf, Finset.sum_Ico_eq_sum_range]
  have hlen : n - (l - (j 0).val) = (j 0).val + 1 := by omega
  rw [hlen]
  refine Finset.sum_congr rfl fun q hq => ?_
  have : (j 0).val + (l - (j 0).val + q) - l = q := by omega
  rw [this]

/-! ## The mask's running sum -/

/-- The closed form steps by the mask's next entry. -/
theorem cum_step : ∀ p : Fin 399, cumW (p.val + 1) = cumW p.val + maskW (p.val + 1) := by decide

/-- So it is the sum of the mask's entries `0 … p`. -/
theorem prefix_mask : ∀ p, p < 400 → ∑ q ∈ Finset.range (p + 1), maskW q = cumW p := by
  intro p
  induction p with
  | zero => intro _; rfl
  | succ p ih =>
    intro hp
    rw [Finset.sum_range_succ, ih (by omega)]
    exact (cum_step ⟨p, by omega⟩).symm

theorem cum [Cert.ReferenceIdeal.Facts] : Term.v_main_v11 = fun i : S400.Idx => cumW (i 0).val := by
  funext i
  unfold Term.v_main_v11
  rw [flat]
  exact (cumsum_apply (n := 400) (l := 399) rfl maskW _ _ _ (fun _ => rfl) i).trans
    (prefix_mask (i 0).val (i 0).isLt)

/-- The running sum is between 0 and 190, so clipping it below at 0 and wrapping a negative value change nothing. -/
theorem wrap_cum : ∀ p : Fin 400,
    Scalar.select (IntOp.cmpi .slt (IntOp.maxsi 0#32 (cumW p.val)) 0#32)
      (IntOp.addi (IntOp.maxsi 0#32 (cumW p.val)) 190#32) (IntOp.maxsi 0#32 (cumW p.val)) = cumW p.val := by
  decide

theorem wrapped [Cert.ReferenceIdeal.Facts] : Term.v_main_v18 = fun i : S400.Idx => cumW (i 0).val := by
  funext i
  show Scalar.select (IntOp.cmpi .slt (IntOp.maxsi 0#32 (Term.v_main_v11 i)) 0#32)
      (IntOp.addi (IntOp.maxsi 0#32 (Term.v_main_v11 i)) 190#32) (IntOp.maxsi 0#32 (Term.v_main_v11 i)) = _
  rw [cum]
  exact wrap_cum ⟨(i 0).val, (i 0).isLt⟩

/-- As a column of one-entry index vectors. -/
theorem column [Cert.ReferenceIdeal.Facts] : Term.v_main_v19 = fun q : S400x1.Idx => cumW (q 0).val := by
  funext q
  unfold Term.v_main_v19
  rw [broadcastInDim_apply _ _ _ q (ix1 (n := 400) ⟨(q 0).val, (q 0).isLt⟩) (Fin.forall_fin_one.2 (by
    show (q 0).val = if (400 : Nat) = 1 then 0 else (q 0).val
    rw [if_neg (by decide)]))]
  rw [wrapped]

/-! ## The count -/

/-- Adding one at the place each list entry names (an entry naming no place is passed over) leaves at place `k` what
    was there plus the number of entries that name `k`. The step is given by what it does: at the named place it
    adds one, elsewhere it leaves the contents. -/
theorem foldl_bump {ι κ : Type} [DecidableEq κ] (R : ι → Option κ)
    (step : (κ → BitVec 32) → ι → κ → BitVec 32)
    (hsome : ∀ r n i, R n = some i → step r n i = IntOp.addi (r i) 1#32 ∧ ∀ i', i' ≠ i → step r n i' = r i')
    (hnone : ∀ r n, R n = none → step r n = r)
    (L : List ι) (x : κ → BitVec 32) (k : κ) :
    (L.foldl step x) k = x k + (L.map fun n => if R n = some k then 1#32 else 0#32).sum := by
  induction L generalizing x with
  | nil => simp
  | cons a L ih =>
    rw [List.foldl_cons, ih, List.map_cons, List.sum_cons, ← add_assoc]
    congr 1
    cases hR : R a with
    | none => rw [hnone x a hR]; simp
    | some i =>
      obtain ⟨h1, h2⟩ := hsome x a i hR
      by_cases hk : k = i
      · subst hk; rw [h1]; simp [IntOp.addi]
      · have : ¬ (some i = some k) := fun h => hk (Option.some.inj h).symm
        rw [h2 k hk]; simp [this]

/-- The scatter's dimension numbers, their conditions decided: one index per update, naming a place of the one axis. -/
def dlit : ScatterDims S190 S400x1 S400 where
  updateWindowDims := []
  insertedWindowDims := [0]
  scatterDimsToOperandDims := [0]
  indexVectorDim := 1

/-- Update `n` lands at the place its index word names, when that is one of the 190 places. -/
theorem result_closed : ∀ n : Fin 400,
    dlit.resultIdx? (ix1 n : S400.Idx) (fun q : S400x1.Idx => BitVec.ofNat 32 (cumN (q 0).val))
      = if h : cumN n.val < 190 then some (ix1 ⟨cumN n.val, h⟩ : S190.Idx) else none := by
  decide +kernel

/-- It lands at `k` exactly when the word is `k`'s number. -/
theorem hit (m : Nat) (k : S190.Idx) :
    ((if h : m < 190 then some (ix1 ⟨m, h⟩ : S190.Idx) else none) = some k) ↔ m = (k 0).val := by
  have hk : (k 0).val < 190 := (k 0).isLt
  constructor
  · intro h
    by_cases hm : m < 190
    · rw [dif_pos hm] at h
      rw [← Option.some.inj h]
    · rw [dif_neg hm] at h; cases h
  · intro h
    subst h
    rw [dif_pos hk]
    exact congrArg some (eq_ix1 k).symm

theorem counts [Cert.ReferenceIdeal.Facts] : Term.v_main_v21 = fun k : S190.Idx => cntW (k 0).val := by
  funext k
  unfold Term.v_main_v21
  rw [column]
  have hd : scatter_S190_S400x1_S400_n_0_0_1 = dlit := rfl
  rw [hd]
  unfold Host.scatter
  simp only []
  refine (foldl_bump (fun n : Fin S400.numel =>
    dlit.resultIdx? (S400.rowMajor.symm n) (fun q : S400x1.Idx => cumW (q 0).val)) _ ?_ ?_ _ _ k).trans ?_
  · intro r n i h
    simp only [h]
    exact ⟨if_pos trivial, fun i' hne => if_neg hne⟩
  · intro r n h
    simp only [h]
  show 0#32 + _ = _
  rw [BitVec.zero_add, ← Fin.sum_univ_def]
  rw [Equiv.sum_comp S400.rowMajor.symm (fun i : S400.Idx =>
    if dlit.resultIdx? i (fun q : S400x1.Idx => cumW (q 0).val) = some k then 1#32 else 0#32)]
  rw [← Equiv.sum_comp (idxEquiv1 (n := 400)).symm]
  show ∑ c : Fin 400, (if dlit.resultIdx? (ix1 c : S400.Idx) (fun q : S400x1.Idx => BitVec.ofNat 32 (cumN (q 0).val)) = some k
    then 1#32 else 0#32) = _
  simp only [result_closed, hit]
  exact Fin.sum_univ_eq_sum_range (fun c : Nat => if cumN c = (k 0).val then (1 : BitVec 32) else 0) 400

/-! ## The counts' running sum -/

/-- The mask's running sum never decreases. -/
theorem cum_mono_step : ∀ p : Fin 399, cumN p.val ≤ cumN (p.val + 1) := by decide

theorem cum_mono {p q : Nat} (hpq : p ≤ q) (hq : q < 400) : cumN p ≤ cumN q := by
  induction q, hpq using Nat.le_induction with
  | base => exact le_rfl
  | succ q hpq ih => exact (ih (by omega)).trans (cum_mono_step ⟨q, by omega⟩)

/-- It steps from `K` to `K + 1` at the flat position of place number `K`. -/
theorem anchors : ∀ K : Fin 190,
    0 < posN K ∧ posN K < 400 ∧ cumN (posN K - 1) = K.val ∧ cumN (posN K) = K.val + 1 := by
  decide

/-- So the flat positions whose running sum is at most `K` are those before place number `K`'s. -/
theorem le_iff_lt_pos (K : Fin 190) {p : Nat} (hp : p < 400) : cumN p ≤ K.val ↔ p < posN K := by
  obtain ⟨h0, h1, h2, h3⟩ := anchors K
  constructor
  · intro h
    by_contra hn
    have := cum_mono (Nat.le_of_not_lt hn) hp
    omega
  · intro h
    have := cum_mono (show p ≤ posN K - 1 by omega) (by omega)
    omega

/-- The counts of the values `0 … K` add up to the number of flat positions with running sum at most `K`: the flat
    position of place number `K`. -/
theorem sum_counts (K : Fin 190) : ∑ q ∈ Finset.range (K.val + 1), cntW q = posW K := by
  unfold cntW
  rw [Finset.sum_comm]
  have h1 : ∀ p ∈ Finset.range 400,
      (∑ q ∈ Finset.range (K.val + 1), if cumN p = q then (1 : BitVec 32) else 0) = if p < posN K then 1 else 0 := by
    intro p hp
    rw [Finset.sum_ite_eq]
    have := le_iff_lt_pos K (Finset.mem_range.1 hp)
    simp only [Finset.mem_range, Nat.lt_succ_iff, this]
  rw [Finset.sum_congr rfl h1, Finset.sum_boole]
  have hr : (Finset.range 400).filter (fun p => p < posN K) = Finset.range (posN K) := by
    ext p
    simp only [Finset.mem_filter, Finset.mem_range]
    have := (anchors K).2.1
    omega
  rw [hr, Finset.card_range]
  rfl

theorem positions [Cert.ReferenceIdeal.Facts] : Term.v_main_v22 = fun i : S190.Idx => posW (c190 i) := by
  funext i
  unfold Term.v_main_v22
  rw [counts]
  exact (cumsum_apply (n := 190) (l := 189) rfl cntW _ _ _ (fun _ => rfl) i).trans (sum_counts (c190 i))

/-! ## Quotient and remainder -/

/-- The sign of a word: 0, 1 or -1. -/
def sgn (x : BitVec 32) : BitVec 32 := if x = 0 then 0 else if x.msb then -1 else 1

/-- The quotient rounded down, as the host computes it from the quotient rounded toward zero. -/
def floorDiv (x d : BitVec 32) : BitVec 32 :=
  Scalar.select (IntOp.andi (IntOp.cmpi .ne (sgn x) (sgn d)) (IntOp.cmpi .ne (IntOp.remsi .host x d) 0#32))
    (IntOp.subi (IntOp.divsi .host x d) 1#32) (IntOp.divsi .host x d)

/-- The remainder with the divisor's sign, as the host computes it from the remainder with the dividend's (a zero
    divisor read as one). -/
def floorMod (x d : BitVec 32) : BitVec 32 :=
  Scalar.select
    (IntOp.andi
      (IntOp.cmpi .ne (IntOp.cmpi .slt (IntOp.remsi .host x (Scalar.select (IntOp.cmpi .eq d 0#32) 1#32 d)) 0#32)
        (IntOp.cmpi .slt (Scalar.select (IntOp.cmpi .eq d 0#32) 1#32 d) 0#32))
      (IntOp.cmpi .ne (IntOp.remsi .host x (Scalar.select (IntOp.cmpi .eq d 0#32) 1#32 d)) 0#32))
    (IntOp.addi (IntOp.remsi .host x (Scalar.select (IntOp.cmpi .eq d 0#32) 1#32 d))
      (Scalar.select (IntOp.cmpi .eq d 0#32) 1#32 d))
    (IntOp.remsi .host x (Scalar.select (IntOp.cmpi .eq d 0#32) 1#32 d))

/-- A negative index counted from the end of an axis of 20. -/
def wrap20 (x : BitVec 32) : BitVec 32 := Scalar.select (IntOp.cmpi .slt x 0#32) (IntOp.addi x 20#32) x

theorem row_apply [Cert.ReferenceIdeal.Facts] (i : S190.Idx) :
    Term.v_main_v24 i = floorMod (floorDiv (Term.v_main_v22 i) 20#32) 20#32 := rfl

theorem col_apply [Cert.ReferenceIdeal.Facts] (i : S190.Idx) :
    Term.v_main_v26 i = floorMod (floorDiv (Term.v_main_v22 i) 1#32) 20#32 := rfl

/-- Flat position `20 r + c` has quotient `r` … -/
theorem fst_closed : ∀ K : Fin 190,
    wrap20 (floorMod (floorDiv (posW K) 20#32) 20#32) = Cert.KernelIdeal.lit0 K := by
  decide

/-- … and remainder `c`. -/
theorem snd_closed : ∀ K : Fin 190,
    wrap20 (floorMod (floorDiv (posW K) 1#32) 20#32) = Cert.KernelIdeal.lit1 K := by
  decide

/-- On the one axis of 190 the row-major position is the coordinate. -/
theorem rowMajor_eq (i : S190.Idx) : S190.rowMajor i = c190 i := Fin.ext (Shape.rowMajor_val_one i)

/-! ## The four tables -/

theorem fst_w [Cert.ReferenceIdeal.Facts] :
    Term.v_main_v31 = fun i : Cert.ReferenceIdeal.S190.Idx => Cert.KernelIdeal.lit0 (Cert.ReferenceIdeal.S190.rowMajor i) := by
  funext i
  rw [rowMajor_eq]
  show wrap20 (Term.v_main_v24 i) = _
  rw [row_apply, positions]
  exact fst_closed (c190 i)

theorem snd_w [Cert.ReferenceIdeal.Facts] :
    Term.v_main_v38 = fun i : Cert.ReferenceIdeal.S190.Idx => Cert.KernelIdeal.lit1 (Cert.ReferenceIdeal.S190.rowMajor i) := by
  funext i
  rw [rowMajor_eq]
  show wrap20 (Term.v_main_v26 i) = _
  rw [col_apply, positions]
  exact snd_closed (c190 i)

theorem fst_e [Cert.ReferenceIdeal.Facts] :
    Term.v_main_v47 = fun i : Cert.ReferenceIdeal.S190.Idx => Cert.KernelIdeal.lit0 (Cert.ReferenceIdeal.S190.rowMajor i) := by
  funext i
  rw [rowMajor_eq]
  show wrap20 (Term.v_main_v24 i) = _
  rw [row_apply, positions]
  exact fst_closed (c190 i)

theorem snd_e [Cert.ReferenceIdeal.Facts] :
    Term.v_main_v56 = fun i : Cert.ReferenceIdeal.S190.Idx => Cert.KernelIdeal.lit1 (Cert.ReferenceIdeal.S190.rowMajor i) := by
  funext i
  rw [rowMajor_eq]
  show wrap20 (Term.v_main_v26 i) = _
  rw [col_apply, positions]
  exact snd_closed (c190 i)

end Cert.ReferenceIdeal.Tables
-- ==== Proof.lean ====
/-
  The kernel's entry point against its reference: both end holding the STATE REPRESENTATION of the looked-up item
  embeddings — for each of 4096 rows, the 20 embeddings laid end to end, then for each of the 190 pairs `i < j` of
  items the product `E i · E j` scaled by `w i · w j`, 64 features a pair.

  The lookup. Both programs wrap a negative index word (`x + 100001`) and gather with a clamping gather; the kernel's
  host code then fills the NaN pattern wherever the wrapped word is no row of the table, the reference does not. The
  precondition keeps every index word in `-100001 … 100000` — exactly the words that index the table of 100001 rows,
  from either end — and there the fill never happens, so the two lookups are one array `E`.

  The kernel. Its pallas_call writes the result by blocks of 128 rows; a block is the state representation of its rows
  (the 96 stored pieces of one body run are one function of the block's index), read against the row of pair weights
  the host code prepares from the kernel's two literal tables of pairs.

  The reference. It computes the same two tables at run time (the indices of the strict upper triangle of 20 × 20, by a
  cumulative count of a triangular mask); they are the kernel's literal tables. Its result read at an index is
  `((w i · w j) · E i) · E j`, the kernel's `(E i · E j) · (w i · w j)` by commutativity and associativity of
  multiplication on the extended reals — no distributivity, so no finiteness of the float inputs is used.

  Nothing was rewritten by the idealization, so `preserves` is trivial; the three frames are the programs' runs with the
  value dropped.
-/
import proofs.«426756_j5592047419688_3_alg».proof.Defs
import proofs.«426756_j5592047419688_3_alg».proof.Proof.Gen.Kernel
import proofs.«426756_j5592047419688_3_alg».proof.Proof.Gen.Kernel.Frame
import proofs.«426756_j5592047419688_3_alg».proof.Proof.Gen.KernelIdeal
import proofs.«426756_j5592047419688_3_alg».proof.Proof.Gen.KernelIdeal.Frame
import proofs.«426756_j5592047419688_3_alg».proof.Proof.Gen.ReferenceIdeal
import proofs.«426756_j5592047419688_3_alg».proof.Proof.Gen.Pre_finite_inputs
import proofs.«426756_j5592047419688_3_alg».proof.Proof.IndexRange
import proofs.«426756_j5592047419688_3_alg».proof.Proof.KernelValue
import proofs.«426756_j5592047419688_3_alg».proof.Proof.ReferenceRun
import proofs.«426756_j5592047419688_3_alg».proof.Proof.ReferenceValue
import proofs.«426756_j5592047419688_3_alg».proof.Proof.TriuTables
import Idealize.ShloMosaic.Adequacy
import Idealize.ShloMosaic.Init

noncomputable section

namespace Cert.Proof

open Idealize.ShloMosaic Idealize.ShloMosaic.TcCoe Idealize.SL.Sem

/-- The reference's lookup is the clamping gather of the wrapped index words, the kernel side's `takeClip`: the same
    operations, printed in the two programs over records and facts of their own. -/
theorem refLookup_eq (mem : IVec Cert.KernelIdeal.S4096x20 32) (emb : FVec Ideal Cert.KernelIdeal.S100001x64 .f32) :
    Cert.ReferenceIdeal.Term.v_main_v6 mem emb = Cert.Lookup.takeClip (F := Ideal) emb mem := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the value dropped. -/
theorem frame_referenceIdeal : Cert.frame_ReferenceIdeal := fun m ρ _ =>
  (θ_run Cert.ReferenceIdeal.defs _ _).mono (fun _ h c => (h c).2) (Cert.ReferenceIdeal.Run.run m ρ)

/-- The idealization rewrote no operation. -/
theorem preserves : Cert.preserves_Kernel_KernelIdeal := trivial

/-- From memories agreeing on the arguments both programs end holding the state representation of the clamped lookup
    of the index words and of the weights: the kernel because its index words are in range, so its fill never happens;
    the reference because its computed pair tables are the kernel's literal ones. -/
theorem algebraic : Cert.algebraic_KernelIdeal_ReferenceIdeal := by
  intro m ρ m' ρ' hpre hagree
  have hrange : ∀ c : Dev Cert.KernelIdeal.nD, Cert.IndexRange.InRange
      (m ((c.tc : Thread Cert.KernelIdeal.nD Cert.KernelIdeal.τ).loc Cert.KernelIdeal.main_arg1)) :=
    fun c => Cert.IndexRange.inRange_of_pre _ _ _ _ (hpre c)
  refine ⟨fun c => Cert.PairFeatures.stateRepr
      (Cert.Lookup.takeClip (F := Ideal) (m ((c.tc : Thread Cert.KernelIdeal.nD Cert.KernelIdeal.τ).loc Cert.KernelIdeal.main_arg2))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.KernelValue.run m ρ)
    rw [Cert.IndexRange.takeFill_eq_takeClip _ _ (hrange c)]
  · refine (θ_run Cert.ReferenceIdeal.defs _ _).mono (fun r h c => ⟨(h c).1.trans ?_, (h c).2⟩)
      (Cert.ReferenceIdeal.Run.run m' ρ')
    rw [Cert.ReferenceIdeal.RefValue.refOut_eq _ _ _ Cert.ReferenceIdeal.Tables.fst_w Cert.ReferenceIdeal.Tables.snd_w
      Cert.ReferenceIdeal.Tables.fst_e Cert.ReferenceIdeal.Tables.snd_e, (hagree c).2.1, (hagree c).2.2.1, (hagree c).2.2.2,
      refLookup_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
